-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512x512 : Shape := ⟨4, ![8, 128, 512, 512]⟩
abbrev S8x512x512 : Shape := ⟨3, ![8, 512, 512]⟩
abbrev S_ : Shape := ⟨0, ![]⟩

class Facts : Prop where
  bcast_S_S8x128x512x512 : S_.BroadcastsInDim S8x128x512x512 (![] : Fin 0 → Fin S8x128x512x512.rank)
  reducesTo_S8x128x512x512_S_d0_1_2_3 : S8x128x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x128x512x512 .f32) (main_arg1 : IVec S8x512x512 32) : IVec S_ 1 :=
  let main_v0 : FVec F S8x128x512x512 .f32 := Host.absf main_arg0
  let main_cst : FVec F S_ .f32 := constant S_ .f32 0x7F800000#32
  let main_v1 : FVec F S8x128x512x512 .f32 := broadcastInDim S8x128x512x512 ![] bcast_S_S8x128x512x512 main_cst
  let main_v2 : IVec S8x128x512x512 1 := cmpf .olt main_v0 main_v1
  let main_c : IVec S_ 1 := constantI S_ 1 1#1
  let main_v3 : IVec S_ 1 := (fun x v => Host.reduce IntOp.andi x v reducesTo_S8x128x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 1 := constantI S_ 1 1#1
  let main_v6 : IVec S_ 1 := (fun x v => Host.reduce IntOp.andi x v reducesTo_S8x512x512_S_d0_1_2 h_S_) main_v5 main_c_1
  let main_v7 : IVec S_ 1 := andi main_v3 main_v6
  let main_c_2 : IVec S_ 32 := constantI S_ 32 256#32
  let main_v8 : IVec S8x512x512 32 := broadcastInDim S8x512x512 ![] bcast_S_S8x512x512 main_c_2
  let main_v9 : IVec S8x512x512 1 := cmpi .sle main_arg1 main_v8
  let main_c_3 : IVec S_ 1 := constantI S_ 1 1#1
  let main_v10 : IVec S_ 1 := (fun x v => Host.reduce IntOp.andi x v reducesTo_S8x512x512_S_d0_1_2 h_S_) main_v9 main_c_3
  let main_v11 : IVec S_ 1 := andi main_v7 main_v10
  main_v11
-- ==== Kernel.lean ====
abbrev S8x128x512x512 : Shape := ⟨4, ![8, 128, 512, 512]⟩
abbrev S8x512x512 : Shape := ⟨3, ![8, 512, 512]⟩
abbrev S_ : Shape := ⟨0, ![]⟩
abbrev S8x264x256 : Shape := ⟨3, ![8, 264, 256]⟩
abbrev S1x128x32x512 : Shape := ⟨4, ![1, 128, 32, 512]⟩
abbrev S1x32x512 : Shape := ⟨3, ![1, 32, 512]⟩
abbrev S1x264x256 : Shape := ⟨3, ![1, 264, 256]⟩
abbrev S264x256 : Shape := ⟨2, ![264, 256]⟩
abbrev S256x512 : Shape := ⟨2, ![256, 512]⟩
abbrev S1x512 : Shape := ⟨2, ![1, 512]⟩
abbrev S7x512 : Shape := ⟨2, ![7, 512]⟩
abbrev S1x128x8x512 : Shape := ⟨4, ![1, 128, 8, 512]⟩
abbrev S128x8x512 : Shape := ⟨3, ![128, 8, 512]⟩
abbrev S1x8x512 : Shape := ⟨3, ![1, 8, 512]⟩
abbrev S8x512 : Shape := ⟨2, ![8, 512]⟩
abbrev S128x1x512 : Shape := ⟨3, ![128, 1, 512]⟩
abbrev S128x512 : Shape := ⟨2, ![128, 512]⟩
abbrev S264x512 : Shape := ⟨2, ![264, 512]⟩
abbrev S512 : Shape := ⟨1, ![512]⟩
abbrev S8x128x256 : Shape := ⟨3, ![8, 128, 256]⟩
abbrev S8x1x256 : Shape := ⟨3, ![8, 1, 256]⟩
abbrev S8x256 : Shape := ⟨2, ![8, 256]⟩
abbrev S8 : Shape := ⟨1, ![8]⟩

abbrev nBuf : Space → Nat
  | .hbm => 57
  | .vmem => 7
  | .smem => 0
  | _ => 0

abbrev bufTy : (tb : Table) → Fin (tcTables nBuf tb) → BufTy
  | .hbm, ⟨0, _⟩ => ⟨S8x128x512x512, .f32⟩
  | .hbm, ⟨1, _⟩ => ⟨S8x512x512, .i32⟩
  | .hbm, ⟨2, _⟩ => ⟨S_, .i32⟩
  | .hbm, ⟨3, _⟩ => ⟨S8x512x512, .i32⟩
  | .hbm, ⟨4, _⟩ => ⟨S8x512x512, .i1⟩
  | .hbm, ⟨5, _⟩ => ⟨S_, .i32⟩
  | .hbm, ⟨6, _⟩ => ⟨S8x512x512, .i32⟩
  | .hbm, ⟨7, _⟩ => ⟨S8x512x512, .i1⟩
  | .hbm, ⟨8, _⟩ => ⟨S8x512x512, .i1⟩
  | .hbm, ⟨9, _⟩ => ⟨S_, .i32⟩
  | .hbm, ⟨10, _⟩ => ⟨S_, .i32⟩
  | .hbm, ⟨11, _⟩ => ⟨S8x512x512, .i32⟩
  | .hbm, ⟨12, _⟩ => ⟨S8x512x512, .i32⟩
  | .hbm, ⟨13, _⟩ => ⟨S8x264x256, .f32⟩
  | .hbm, ⟨14, _⟩ => ⟨S8x128x256, .f32⟩
  | .hbm, ⟨15, _⟩ => ⟨S8x128x256, .f32⟩
  | .hbm, ⟨16, _⟩ => ⟨S8x1x256, .f32⟩
  | .hbm, ⟨17, _⟩ => ⟨S8x256, .f32⟩
  | .hbm, ⟨18, _⟩ => ⟨S_, .f32⟩
  | .hbm, ⟨19, _⟩ => ⟨S8x256, .f32⟩
  | .hbm, ⟨20, _⟩ => ⟨S8x256, .f32⟩
  | .hbm, ⟨21, _⟩ => ⟨S_, .f32⟩
  | .hbm, ⟨22, _⟩ => ⟨S8x256, .f32⟩
  | .hbm, ⟨23, _⟩ => ⟨S8x128x256, .f32⟩
  | .hbm, ⟨24, _⟩ => ⟨S_, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S8x256, .f32⟩
  | .hbm, ⟨29, _⟩ => ⟨S_, .f32⟩
  | .hbm, ⟨30, _⟩ => ⟨S8x256, .f32⟩
  | .hbm, ⟨31, _⟩ => ⟨S8x256, .i1⟩
  | .hbm, ⟨32, _⟩ => ⟨S_, .f32⟩
  | .hbm, ⟨33, _⟩ => ⟨S_, .f32⟩
  | .hbm, ⟨34, _⟩ => ⟨S8x256, .f32⟩
  | .hbm, ⟨35, _⟩ => ⟨S8x256, .f32⟩
  | .hbm, ⟨36, _⟩ => ⟨S8x256, .i32⟩
  | .hbm, ⟨37, _⟩ => ⟨S_, .i32⟩
  | .hbm, ⟨38, _⟩ => ⟨S8, .i32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .i1⟩
  | .hbm, ⟨43, _⟩ => ⟨S_, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S1x128x32x512, .f32⟩
  | .local _ .vmem, ⟨1, _⟩ => ⟨S1x128x32x512, .f32⟩
  | .local _ .vmem, ⟨2, _⟩ => ⟨S1x32x512, .i32⟩
  | .local _ .vmem, ⟨3, _⟩ => ⟨S1x32x512, .i32⟩
  | .local _ .vmem, ⟨4, _⟩ => ⟨S1x264x256, .f32⟩
  | .local _ .vmem, ⟨5, _⟩ => ⟨S1x264x256, .f32⟩
  | .local _ .vmem, ⟨6, _⟩ => ⟨S264x256, .f32⟩
  | _, _ => ⟨S8x128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_call2_v0 : Ref sig .tc := ⟨.hbm, 50, rfl⟩
abbrev main_call2_v1 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_2 : BitVec 32 := 0#32
  let c4_i32 : BitVec 32 := 4#32
  let v6 : BitVec 32 := Scalar.addi c0_i32_2 c4_i32
  let c1_i32 : BitVec 32 := 1#32
  ⟨c0_i32_2, v6, c1_i32⟩
def k0_mult1 (k0_t1 : Fin k0_t1_loop.trips) : BitVec 32 :=
  let c0_i32_6 : BitVec 32 := 0#32
  let c0_i32_2 : BitVec 32 := 0#32
  let c1_i32 : BitVec 32 := 1#32
  let arg6 : BitVec 32 := Scf.iv c0_i32_2 c1_i32 k0_t1
  let c1_i32_5 : BitVec 32 := 1#32
  let v10 : BitVec 32 := Scalar.muli arg6 c1_i32_5
  let v11 : BitVec 32 := Scalar.addi c0_i32_6 v10
  let c8_i32 : BitVec 32 := 8#32
  let v12 : BitVec 32 := Scalar.muli v11 c8_i32
  v12
def k0_off1 (k0_t1 : Fin k0_t1_loop.trips) : Fin 4 → Nat :=
  let c0 : Index := 0#32
  let c0_7 : Index := 0#32
  let c0_i32_6 : BitVec 32 := 0#32
  let c0_i32_2 : BitVec 32 := 0#32
  let c1_i32 : BitVec 32 := 1#32
  let arg6 : BitVec 32 := Scf.iv c0_i32_2 c1_i32 k0_t1
  let c1_i32_5 : BitVec 32 := 1#32
  let v10 : BitVec 32 := Scalar.muli arg6 c1_i32_5
  let v11 : BitVec 32 := Scalar.addi c0_i32_6 v10
  let c8_i32 : BitVec 32 := 8#32
  let v12 : BitVec 32 := Scalar.muli v11 c8_i32
  let v13 : BitVec 32 := v12
  let v14 : Index := Scalar.indexCast v13
  let c0_8 : Index := 0#32
  ![0, 0, v14.toNat, 0]
def k0_off2 (k0_t1 : Fin k0_t1_loop.trips) : Fin 3 → Nat :=
  let c0_9 : Index := 0#32
  let c0_i32_6 : BitVec 32 := 0#32
  let c0_i32_2 : BitVec 32 := 0#32
  let c1_i32 : BitVec 32 := 1#32
  let arg6 : BitVec 32 := Scf.iv c0_i32_2 c1_i32 k0_t1
  let c1_i32_5 : BitVec 32 := 1#32
  let v10 : BitVec 32 := Scalar.muli arg6 c1_i32_5
  let v11 : BitVec 32 := Scalar.addi c0_i32_6 v10
  let c8_i32 : BitVec 32 := 8#32
  let v12 : BitVec 32 := Scalar.muli v11 c8_i32
  let v13 : BitVec 32 := v12
  let v17 : Index := Scalar.indexCast v13
  let c0_10 : Index := 0#32
  ![0, v17.toNat, 0]
def k0_cond2 (i : grid0.Coords) : BitVec 1 :=
  let arg1 : BitVec 32 := BitVec.ofNat 32 (i 1).val
  let c15_i32 : BitVec 32 := 15#32
  let v7 : BitVec 1 := Scalar.cmpi .eq arg1 c15_i32
  let v8 : BitVec 32 := Scalar.extui v7
  let c0_i32_4 : BitVec 32 := 0#32
  let v9 : BitVec 1 := Scalar.cmpi .ne v8 c0_i32_4
  v9

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x264x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S8x512x512 : S_.BroadcastsInDim S8x512x512 (![] : Fin 0 → Fin S8x512x512.rank)
  inb_S264x256_S264x256_0_0 : ∀ a, (![0, 0] : Fin 2 → Nat) a + S264x256.size a ≤ S264x256.size a
  h_S264x256 : 0 < S264x256.numel
  shapeCasts_S264x256_S264x256 : S264x256.ShapeCasts S264x256
  iota_S256x512_d0_w32 : S256x512.Iotas .tc 32 [0]
  h_S1x128x8x512 : 0 < S1x128x8x512.numel
  shapeCasts_S1x128x8x512_S128x8x512 : S1x128x8x512.ShapeCasts S128x8x512
  h_S1x8x512 : 0 < S1x8x512.numel
  shapeCasts_S1x8x512_S8x512 : S1x8x512.ShapeCasts S8x512
  slices_S128x8x512_o0_0_0_S128x1x512 : S128x8x512.Slices ![0, 0, 0] S128x1x512
  shapeCasts_S128x1x512_S128x512 : S128x1x512.ShapeCasts S128x512
  bitsLt_bf16_f32 : FTy.bits .bf16 < FTy.bits .f32
  concatenates_S128x512_S128x512_S1x512_S7x512_S264x512_d0 : Shape.Concatenates [S128x512, S128x512, S1x512, S7x512] S264x512 0
  slices_S8x512_o0_0_S1x512 : S8x512.Slices ![0, 0] S1x512
  shapeCasts_S1x512_S512 : S1x512.ShapeCasts S512
  shapeCasts_S512_S1x512 : S512.ShapeCasts S1x512
  shapeCasts_S1x512_S1x512 : S1x512.ShapeCasts S1x512
  broadcasts_S1x512_S256x512 : S1x512.Broadcasts S256x512
  natLt_1_32 : 1 < 32
  slices_S128x8x512_o0_1_0_S128x1x512 : S128x8x512.Slices ![0, 1, 0] S128x1x512
  slices_S8x512_o1_0_S1x512 : S8x512.Slices ![1, 0] S1x512
  slices_S128x8x512_o0_2_0_S128x1x512 : S128x8x512.Slices ![0, 2, 0] S128x1x512
  slices_S8x512_o2_0_S1x512 : S8x512.Slices ![2, 0] S1x512
  slices_S128x8x512_o0_3_0_S128x1x512 : S128x8x512.Slices ![0, 3, 0] S128x1x512
  slices_S8x512_o3_0_S1x512 : S8x512.Slices ![3, 0] S1x512
  slices_S128x8x512_o0_4_0_S128x1x512 : S128x8x512.Slices ![0, 4, 0] S128x1x512
  slices_S8x512_o4_0_S1x512 : S8x512.Slices ![4, 0] S1x512
  slices_S128x8x512_o0_5_0_S128x1x512 : S128x8x512.Slices ![0, 5, 0] S128x1x512
  slices_S8x512_o5_0_S1x512 : S8x512.Slices ![5, 0] S1x512
  slices_S128x8x512_o0_6_0_S128x1x512 : S128x8x512.Slices ![0, 6, 0] S128x1x512
  slices_S8x512_o6_0_S1x512 : S8x512.Slices ![6, 0] S1x512
  slices_S128x8x512_o0_7_0_S128x1x512 : S128x8x512.Slices ![0, 7, 0] S128x1x512
  slices_S8x512_o7_0_S1x512 : S8x512.Slices ![7, 0] S1x512
  inb_S1x264x256_S1x264x256_0_0_0 : ∀ a, (![0, 0, 0] : Fin 3 → Nat) a + S1x264x256.size a ≤ S1x264x256.size a
  h_S1x264x256 : 0 < S1x264x256.numel
  shapeCasts_S1x264x256_S264x256 : S1x264x256.ShapeCasts S264x256
  shapeCasts_S264x256_S1x264x256 : S264x256.ShapeCasts S1x264x256
  slices_S8x264x256_S8x128x256_0_0_0 : S8x264x256.Slices ![0, 0, 0] S8x128x256
  slices_S8x264x256_S8x128x256_0_128_0 : S8x264x256.Slices ![0, 128, 0] S8x128x256
  slices_S8x264x256_S8x1x256_0_256_0 : S8x264x256.Slices ![0, 256, 0] S8x1x256
  shapeCasts_S8x1x256_S8x256 : S8x1x256.ShapeCasts S8x256
  bcast_S_S8x256 : S_.BroadcastsInDim S8x256 (![] : Fin 0 → Fin S8x256.rank)
  reducesTo_S8x128x256_S8x256_d1 : S8x128x256.ReducesTo [1] S8x256
  h_S_ : 0 < S_.numel
  reducesTo_S8x256_S8_d1 : S8x256.ReducesTo [1] S8
  bcast_S_S8 : S_.BroadcastsInDim S8 (![] : Fin 0 → Fin S8.rank)
  reducesTo_S8_S_d0 : S8.ReducesTo [0] S_
  dot_S264x512_S256x512_S264x256_1_1_0_0_n_n_wf : DotDims.WF S264x512 S256x512 S264x256 [1] [1] [0] [0] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x128x8x512.size a ≤ S1x128x32x512.size a
  k0_off2_inb : ∀ k0_t1 : Fin k0_t1_loop.trips, ∀ a, (k0_off2 k0_t1) a + S1x8x512.size a ≤ S1x32x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x512.size a ≤ S8x128x512x512.size a
  hwx0_0 : ∀ i : grid0.Coords, EltTy.bits .f32 = 32 ∨ (Rect.block (s := S8x128x512x512) S1x128x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S8x512x512.size a
  hwx0_1 : ∀ i : grid0.Coords, EltTy.bits .i32 = 32 ∨ (Rect.block (s := S8x512x512) S1x32x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x264x256.size a ≤ S8x264x256.size a
  hwx0_2 : ∀ i : grid0.Coords, EltTy.bits .f32 = 32 ∨ (Rect.block (s := S8x264x256) S1x264x256.size (cc0_transform_2 i) (hinb0_2 i)).WholeWords (EltTy.packing .f32)

variable [Facts₀]

def dot_S264x512_S256x512_S264x256_1_1_0_0_n_n : DotDims S264x512 S256x512 S264x256 where
  lhsContracting := [1]
  rhsContracting := [1]
  lhsNonContracting := [0]
  rhsNonContracting := [0]
  lhsBatch := []
  rhsBatch := []
  wf := dot_S264x512_S256x512_S264x256_1_1_0_0_n_n_wf

abbrev win0_0 : Pipeline.Window sig grid0 :=
  Pipeline.Window.ofSpec (Memref.whole main_arg0) S1x128x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x264x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x128x512x512 : Shape := ⟨4, ![8, 128, 512, 512]⟩
abbrev S8x512x512 : Shape := ⟨3, ![8, 512, 512]⟩
abbrev S8x128x262144 : Shape := ⟨3, ![8, 128, 262144]⟩
abbrev S8x262144x128 : Shape := ⟨3, ![8, 262144, 128]⟩
abbrev S2097152x128 : Shape := ⟨2, ![2097152, 128]⟩
abbrev S8x262144 : Shape := ⟨2, ![8, 262144]⟩
abbrev S8 : Shape := ⟨1, ![8]⟩
abbrev S8x1 : Shape := ⟨2, ![8, 1]⟩
abbrev S_ : Shape := ⟨0, ![]⟩
abbrev S2097152 : Shape := ⟨1, ![2097152]⟩
abbrev S2056x128 : Shape := ⟨2, ![2056, 128]⟩
abbrev S2097152x1 : Shape := ⟨2, ![2097152, 1]⟩
abbrev S2056 : Shape := ⟨1, ![2056]⟩
abbrev S8x257 : Shape := ⟨2, ![8, 257]⟩

abbrev nBuf : Space → Nat
  | .hbm => 97
  | .vmem => 0
  | .smem => 0
  | _ => 0

abbrev bufTy : (tb : Table) → Fin (tcTables nBuf tb) → BufTy
  | .hbm, ⟨0, _⟩ => ⟨S8x128x512x512, .f32⟩
  | .hbm, ⟨1, _⟩ => ⟨S8x512x512, .i32⟩
  | .hbm, ⟨2, _⟩ => ⟨S8x128x262144, .f32⟩
  | .hbm, ⟨3, _⟩ => ⟨S8x262144x128, .f32⟩
  | .hbm, ⟨4, _⟩ => ⟨S2097152x128, .f32⟩
  | .hbm, ⟨5, _⟩ => ⟨S8x262144, .i32⟩
  | .hbm, ⟨6, _⟩ => ⟨S8, .i32⟩
  | .hbm, ⟨7, _⟩ => ⟨S8x1, .i32⟩
  | .hbm, ⟨8, _⟩ => ⟨S_, .i32⟩
  | .hbm, ⟨9, _⟩ => ⟨S8x1, .i32⟩
  | .hbm, ⟨10, _⟩ => ⟨S8x1, .i32⟩
  | .hbm, ⟨11, _⟩ => ⟨S8x262144, .i32⟩
  | .hbm, ⟨12, _⟩ => ⟨S8x262144, .i32⟩
  | .hbm, ⟨13, _⟩ => ⟨S2097152, .i32⟩
  | .hbm, ⟨14, _⟩ => ⟨S_, .f32⟩
  | .hbm, ⟨15, _⟩ => ⟨S2056x128, .f32⟩
  | .hbm, ⟨16, _⟩ => ⟨S2097152x1, .i32⟩
  | .hbm, ⟨17, _⟩ => ⟨S2056x128, .f32⟩
  | .hbm, ⟨18, _⟩ => ⟨S2097152x128, .f32⟩
  | .hbm, ⟨19, _⟩ => ⟨S_, .f32⟩
  | .hbm, ⟨20, _⟩ => ⟨S2056x128, .f32⟩
  | .hbm, ⟨21, _⟩ => ⟨S2097152x1, .i32⟩
  | .hbm, ⟨22, _⟩ => ⟨S2056x128, .f32⟩
  | .hbm, ⟨23, _⟩ => ⟨S_, .f32⟩
  | .hbm, ⟨24, _⟩ => ⟨S2097152, .f32⟩
  | .hbm, ⟨25, _⟩ => ⟨S_, .f32⟩
  | .hbm, ⟨26, _⟩ => ⟨S2056, .f32⟩
  | .hbm, ⟨27, _⟩ => ⟨S2097152x1, .i32⟩
  | .hbm, ⟨28, _⟩ => ⟨S2056, .f32⟩
  | .hbm, ⟨29, _⟩ => ⟨S_, .f32⟩
  | .hbm, ⟨30, _⟩ => ⟨S2056, .f32⟩
  | .hbm, ⟨31, _⟩ => ⟨S2056, .f32⟩
  | .hbm, ⟨32, _⟩ => ⟨S_, .f32⟩
  | .hbm, ⟨33, _⟩ => ⟨S2056, .f32⟩
  | .hbm, ⟨34, _⟩ => ⟨S2056x128, .f32⟩
  | .hbm, ⟨35, _⟩ => ⟨S_, .f32⟩
  | .hbm, ⟨36, _⟩ => ⟨S2056, .f32⟩
  | .hbm, ⟨37, _⟩ => ⟨S2056, .f32⟩
  | .hbm, ⟨38, _⟩ => ⟨S2056, .f32⟩
  | .hbm, ⟨39, _⟩ => ⟨S2056, .f32⟩
  | .hbm, ⟨40, _⟩ => ⟨S_, .f32⟩
  | .hbm, ⟨41, _⟩ => ⟨S2056, .f32⟩
  | .hbm, ⟨42, _⟩ => ⟨S2056, .i1⟩
  | .hbm, ⟨43, _⟩ => ⟨S2056, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S2056, .i32⟩
  | .hbm, ⟨51, _⟩ => ⟨S2056, .i32⟩
  | .hbm, ⟨52, _⟩ => ⟨S_, .i32⟩
  | .hbm, ⟨53, _⟩ => ⟨S2056, .i32⟩
  | .hbm, ⟨54, _⟩ => ⟨S2056, .i1⟩
  | .hbm, ⟨55, _⟩ => ⟨S_, .i32⟩
  | .hbm, ⟨56, _⟩ => ⟨S2056, .i32⟩
  | .hbm, ⟨57, _⟩ => ⟨S2056, .i1⟩
  | .hbm, ⟨58, _⟩ => ⟨S_, .i32⟩
  | .hbm, ⟨59, _⟩ => ⟨S_, .i1⟩
  | .hbm, ⟨60, _⟩ => ⟨S2056, .i1⟩
  | .hbm, ⟨61, _⟩ => ⟨S2056, .i1⟩
  | .hbm, ⟨62, _⟩ => ⟨S2056, .i1⟩
  | .hbm, ⟨63, _⟩ => ⟨S2056, .i32⟩
  | .hbm, ⟨64, _⟩ => ⟨S2056, .i32⟩
  | .hbm, ⟨65, _⟩ => ⟨S2056, .i32⟩
  | .hbm, ⟨66, _⟩ => ⟨S_, .i32⟩
  | .hbm, ⟨67, _⟩ => ⟨S2056, .i32⟩
  | .hbm, ⟨68, _⟩ => ⟨S2056, .i1⟩
  | .hbm, ⟨69, _⟩ => ⟨S2056, .i1⟩
  | .hbm, ⟨70, _⟩ => ⟨S_, .f32⟩
  | .hbm, ⟨71, _⟩ => ⟨S_, .f32⟩
  | .hbm, ⟨72, _⟩ => ⟨S2056, .f32⟩
  | .hbm, ⟨73, _⟩ => ⟨S2056, .f32⟩
  | .hbm, ⟨74, _⟩ => ⟨S8x257, .f32⟩
  | .hbm, ⟨75, _⟩ => ⟨S8x257, .i1⟩
  | .hbm, ⟨76, _⟩ => ⟨S8x257, .i32⟩
  | .hbm, ⟨77, _⟩ => ⟨S_, .i32⟩
  | .hbm, ⟨78, _⟩ => ⟨S8, .i32⟩
  | .hbm, ⟨79, _⟩ => ⟨S8, .f32⟩
  | .hbm, ⟨80, _⟩ => ⟨S_, .f32⟩
  | .hbm, ⟨81, _⟩ => ⟨S8, .f32⟩
  | .hbm, ⟨82, _⟩ => ⟨S8, .i1⟩
  | .hbm, ⟨83, _⟩ => ⟨S_, .f32⟩
  | .hbm, ⟨84, _⟩ => ⟨S8, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S8, .f32⟩
  | .hbm, ⟨89, _⟩ => ⟨S_, .f32⟩
  | .hbm, ⟨90, _⟩ => ⟨S_, .f32⟩
  | .hbm, ⟨91, _⟩ => ⟨S8, .f32⟩
  | .hbm, ⟨92, _⟩ => ⟨S8, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S8x128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_1 : Ref sig .tc := ⟨.hbm, 52, rfl⟩
abbrev main_call0_v5 : Ref sig .tc := ⟨.hbm, 53, rfl⟩
abbrev main_call0_v6 : Ref sig .tc := ⟨.hbm, 54, rfl⟩
abbrev main_call0_c_2 : Ref sig .tc := ⟨.hbm, 55, rfl⟩
abbrev main_call0_v7 : Ref sig .tc := ⟨.hbm, 56, rfl⟩
abbrev main_call0_v8 : Ref sig .tc := ⟨.hbm, 57, rfl⟩
abbrev main_call0_c_3 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_v33 : Ref sig .tc := ⟨.hbm, 65, rfl⟩
abbrev main_c_8 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_10 : Ref sig .tc := ⟨.hbm, 77, rfl⟩
abbrev main_v41 : Ref sig .tc := ⟨.hbm, 78, rfl⟩
abbrev main_v42 : Ref sig .tc := ⟨.hbm, 79, rfl⟩
abbrev main_cst_11 : Ref sig .tc := ⟨.hbm, 80, rfl⟩
abbrev main_v43 : Ref sig .tc := ⟨.hbm, 81, rfl⟩
abbrev main_v44 : Ref sig .tc := ⟨.hbm, 82, rfl⟩
abbrev main_cst_12 : Ref sig .tc := ⟨.hbm, 83, rfl⟩
abbrev main_v45 : Ref sig .tc := ⟨.hbm, 84, rfl⟩
abbrev main_cst_13 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v49 : Ref sig .tc := ⟨.hbm, 92, rfl⟩
abbrev main_cst_15 : Ref sig .tc := ⟨.hbm, 93, rfl⟩
abbrev main_v50 : Ref sig .tc := ⟨.hbm, 94, rfl⟩
abbrev main_cst_16 : Ref sig .tc := ⟨.hbm, 95, rfl⟩
abbrev main_v51 : Ref sig .tc := ⟨.hbm, 96, rfl⟩

abbrev nD : Nat := 1
abbrev τ : Topo := Topo.v7x

variable {F : FTy → Type} [FloatOps F]

class Facts₀ : Prop where
  shapeCasts_S8x128x512x512_S8x128x262144 : S8x128x512x512.ShapeCasts S8x128x262144
  transposes_S8x128x262144_S8x262144x128_0_2_1 : S8x128x262144.Transposes [0, 2, 1] S8x262144x128
  shapeCasts_S8x262144x128_S2097152x128 : S8x262144x128.ShapeCasts S2097152x128
  shapeCasts_S8x512x512_S8x262144 : S8x512x512.ShapeCasts S8x262144
  bcast_S8_S8x1_0 : S8.BroadcastsInDim S8x1 (![0] : Fin 1 → Fin S8x1.rank)
  bcast_S_S8x1 : S_.BroadcastsInDim S8x1 (![] : Fin 0 → Fin S8x1.rank)
  bcast_S8x1_S8x262144_0_1 : S8x1.BroadcastsInDim S8x262144 (![0, 1] : Fin 2 → Fin S8x262144.rank)
  shapeCasts_S8x262144_S2097152 : S8x262144.ShapeCasts S2097152
  bcast_S_S2056x128 : S_.BroadcastsInDim S2056x128 (![] : Fin 0 → Fin S2056x128.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S2056 : S_.BroadcastsInDim S2056 (![] : Fin 0 → Fin S2056.rank)
  reducesTo_S2056x128_S2056_d1 : S2056x128.ReducesTo [1] S2056
  h_S_ : 0 < S_.numel
  shapeCasts_S2056_S8x257 : S2056.ShapeCasts S8x257
  natLt_1_32 : 1 < 32
  reducesTo_S8x257_S8_d1 : S8x257.ReducesTo [1] S8
  bcast_S_S8 : S_.BroadcastsInDim S8 (![] : Fin 0 → Fin S8.rank)
  reducesTo_S8_S_d0 : S8.ReducesTo [0] S_
  scatter_S2056x128_S2097152x1_S2097152x128_1_0_0_1_wf : ScatterDims.WF S2056x128 S2097152x1 S2097152x128 [1] [0] [0] 1
  scatter_S2056_S2097152x1_S2097152_n_0_0_1_wf : ScatterDims.WF S2056 S2097152x1 S2097152 [] [0] [0] 1

variable [Facts₀]

def scatter_S2056x128_S2097152x1_S2097152x128_1_0_0_1 : ScatterDims S2056x128 S2097152x1 S2097152x128 where
  updateWindowDims := [1]
  insertedWindowDims := [0]
  scatterDimsToOperandDims := [0]
  indexVectorDim := 1
  wf := scatter_S2056x128_S2097152x1_S2097152x128_1_0_0_1_wf
def scatter_S2056_S2097152x1_S2097152_n_0_0_1 : ScatterDims S2056 S2097152x1 S2097152 where
  updateWindowDims := []
  insertedWindowDims := [0]
  scatterDimsToOperandDims := [0]
  indexVectorDim := 1
  wf := scatter_S2056_S2097152x1_S2097152_n_0_0_1_wf

class Facts : Prop extends Facts₀ where

variable [Facts]
-- ==== Proof.PreRange.lean ====
/-
  What the precondition says of the labels: every label, read as a signed 32-bit word, lies in 0..256 —
  so read unsigned it is at most 256.
-/
import proofs.«403733_j44710609551555_3_alg».proof.Pre_finite_inputs
import Idealize.ShloMosaic.Lib.ReduceAll
import Idealize.ShloMosaic.Lib.ValueIdx

namespace Cert.PreRange

open Idealize.ShloMosaic Cert.Pre_finite_inputs

/-- The scalar shape has one index. -/
instance : Subsingleton S_.Idx := ⟨fun a b => funext fun d => d.elim0⟩

variable {F : FTy → Type} [FloatOps F] [Facts]

/-- Under the precondition every label is between 0 and 256 as a signed word. -/
theorem ids_signed (x : FVec F S8x128x512x512 .f32) (ids : IVec S8x512x512 32)
    (h : fn (F := F) x ids = fun _ => 1#1) (i : S8x512x512.Idx) :
    0 ≤ (ids i).toInt ∧ (ids i).toInt ≤ 256 := by
  have h0 := congrFun h ValueIdx.ix0
  dsimp only [fn, andi] at h0
  obtain ⟨h1, h3⟩ := IntOp.andi_eq_one.1 h0
  obtain ⟨_, h2⟩ := IntOp.andi_eq_one.1 h1
  have hge := Host.reduce_andi_all _ _ _ _ _ h2 i
  have hle := Host.reduce_andi_all _ _ _ _ _ h3 i
  have hge' := IntOp.cmpi_sge.1 hge
  have hle' := IntOp.cmpi_sle.1 hle
  constructor
  · simpa [broadcastInDim, constantI] using hge'
  · simpa [broadcastInDim, constantI] using hle'

/-- Under the precondition every label, read unsigned, is at most 256. -/
theorem ids_le (x : FVec F S8x128x512x512 .f32) (ids : IVec S8x512x512 32)
    (h : fn (F := F) x ids = fun _ => 1#1) (i : S8x512x512.Idx) : (ids i).toNat ≤ 256 := by
  obtain ⟨h0, h1⟩ := ids_signed x ids h i
  have := BitVec.toInt_eq_toNat_of_msb (x := ids i)
  rcases Nat.lt_or_ge (ids i).toNat (2 ^ 31) with hlt | hge
  · have e : (ids i).toInt = (ids i).toNat := by
      rw [BitVec.toInt_eq_toNat_cond]; simp; omega
    omega
  · exfalso
    have e : (ids i).toInt = (ids i).toNat - 2 ^ 32 := by
      rw [BitVec.toInt_eq_toNat_cond]; simp; omega
    have := (ids i).isLt
    omega

end Cert.PreRange
-- ==== Proof.KerDefs.lean ====
/-
  The kernel program's host side as functions: the label clean-up before the region (labels outside 0..256 become 0)
  and the tail after it, from the accumulator array [8, 264, 256] (rows 0..127 channel sums, 128..255 sums of squares,
  256 the counts) to the loss.
-/
import proofs.«403733_j44710609551555_3_alg».proof.KernelIdeal

noncomputable section

namespace Cert.KernelIdeal.KerVal

open Idealize.ShloMosaic Cert.KernelIdeal

variable {F : FTy → Type} [FloatOps F] [Facts]
open Facts₀ Facts

/-- The labels the region reads: a label below 0 or above 256 replaced by 0. -/
def clean (ids : IVec S8x512x512 32) : IVec S8x512x512 32 :=
  let c : IVec S_ 32 := constantI S_ 32 0#32
  let v0 : IVec S8x512x512 32 := broadcastInDim S8x512x512 ![] bcast_S_S8x512x512 c
  let v1 : IVec S8x512x512 1 := cmpi .slt ids v0
  let c0 : IVec S_ 32 := constantI S_ 32 256#32
  let v2 : IVec S8x512x512 32 := broadcastInDim S8x512x512 ![] bcast_S_S8x512x512 c0
  let v3 : IVec S8x512x512 1 := cmpi .sgt ids v2
  let v4 : IVec S8x512x512 1 := ori v1 v3
  let c1 : IVec S_ 32 := constantI S_ 32 0#32
  let w0 : IVec S_ 32 := id c1
  let w1 : IVec S8x512x512 32 := broadcastInDim S8x512x512 ![] bcast_S_S8x512x512 w0
  select v4 w1 ids

/-- The host tail: from the accumulator array to the loss. -/
def tail (acc : FVec F S8x264x256 .f32) : FVec F S_ .f32 :=
  let v7 : FVec F S8x128x256 .f32 := extractStridedSlice S8x128x256 ![0, 0, 0] acc slices_S8x264x256_S8x128x256_0_0_0
  let v8 : FVec F S8x128x256 .f32 := extractStridedSlice S8x128x256 ![0, 128, 0] acc slices_S8x264x256_S8x128x256_0_128_0
  let v9 : FVec F S8x1x256 .f32 := extractStridedSlice S8x1x256 ![0, 256, 0] acc slices_S8x264x256_S8x1x256_0_256_0
  let v10 : FVec F S8x256 .f32 := shapeCast S8x256 v9 shapeCasts_S8x1x256_S8x256
  let cst : FVec F S_ .f32 := constant S_ .f32 0x3F800000#32
  let v11 : FVec F S8x256 .f32 := broadcastInDim S8x256 ![] bcast_S_S8x256 cst
  let v12 : FVec F S8x256 .f32 := maximumf v10 v11
  let cst2 : FVec F S_ .f32 := constant S_ .f32 0x00000000#32
  let v13 : FVec F S8x256 .f32 := Host.reduceAdd v8 cst2 reducesTo_S8x128x256_S8x256_d1 h_S_
  let v14 : FVec F S8x128x256 .f32 := mulf v7 v7
  let cst3 : FVec F S_ .f32 := constant S_ .f32 0x00000000#32
  let v15 : FVec F S8x256 .f32 := Host.reduceAdd v14 cst3 reducesTo_S8x128x256_S8x256_d1 h_S_
  let v16 : FVec F S8x256 .f32 := Host.divf v15 v12
  let v17 : FVec F S8x256 .f32 := subf v13 v16
  let v18 : FVec F S8x256 .f32 := Host.divf v17 v12
  let cst4 : FVec F S_ .f32 := constant S_ .f32 0x00000000#32
  let v19 : FVec F S8x256 .f32 := broadcastInDim S8x256 ![] bcast_S_S8x256 cst4
  let v20 : IVec S8x256 1 := cmpf .ogt v10 v19
  let cst5 : FVec F S_ .f32 := constant S_ .f32 0x00000000#32
  let w0 : FVec F S_ .f32 := id cst5
  let w1 : FVec F S8x256 .f32 := broadcastInDim S8x256 ![] bcast_S_S8x256 w0
  let v21 : FVec F S8x256 .f32 := select v20 v18 w1
  let v22 : IVec S8x256 32 := extui 32 v20 natLt_1_32
  let c6 : IVec S_ 32 := constantI S_ 32 0#32
  let v23 : IVec S8 32 := Host.reduce IntOp.addi v22 c6 reducesTo_S8x256_S8_d1 h_S_
  let v24 : FVec F S8 .f32 := sitofp .f32 v23
  let cst7 : FVec F S_ .f32 := constant S_ .f32 0x00000000#32
  let v25 : FVec F S8 .f32 := broadcastInDim S8 ![] bcast_S_S8 cst7
  let v26 : IVec S8 1 := cmpf .ogt v24 v25
  let cst8 : FVec F S_ .f32 := constant S_ .f32 0x00000000#32
  let v27 : FVec F S8 .f32 := Host.reduceAdd v21 cst8 reducesTo_S8x256_S8_d1 h_S_
  let cst9 : FVec F S_ .f32 := constant S_ .f32 0x3F800000#32
  let v28 : FVec F S8 .f32 := broadcastInDim S8 ![] bcast_S_S8 cst9
  let v29 : FVec F S8 .f32 := maximumf v24 v28
  let v30 : FVec F S8 .f32 := Host.divf v27 v29
  let cst10 : FVec F S_ .f32 := constant S_ .f32 0x00000000#32
  let u0 : FVec F S_ .f32 := id cst10
  let u1 : FVec F S8 .f32 := broadcastInDim S8 ![] bcast_S_S8 u0
  let v31 : FVec F S8 .f32 := select v26 v30 u1
  let cst11 : FVec F S_ .f32 := constant S_ .f32 0x00000000#32
  let v32 : FVec F S_ .f32 := Host.reduceAdd v31 cst11 reducesTo_S8_S_d0 h_S_
  let cst12 : FVec F S_ .f32 := constant S_ .f32 0x41000000#32
  Host.divf v32 cst12

end Cert.KernelIdeal.KerVal

end
-- ==== Proof.KerRun.lean ====
/-
  The kernel program's run with its result named: after the region the accumulator array holds what the grid's points
  wrote, and the host operations after the region turn it into the scalar the program returns.
-/
import proofs.«403733_j44710609551555_3_alg».proof.Proof.Gen.KernelIdeal.Frame
import proofs.«403733_j44710609551555_3_alg».proof.Proof.KerDefs
import Idealize.ShloMosaic.Lib.StableHlo.Run

noncomputable section

namespace Cert.KernelIdeal.KerRun

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The accumulator array after the region, as the output window's array. -/
abbrev accArr (c : Dev nD) : FVec F S8x264x256 .f32 := (dats m 0 c).arrAt 2 cfg0.N

attribute [local irreducible] Host.reduce Host.reduceAdd Host.divf in
/-- The result buffer after the host operations that follow the region: the tail function of the accumulator array. -/
theorem tail_result (c : Dev nD) :
    Pipeline.afterTail₀ cfgs (dats m) 0 (V0 m) [hostOps1, hostOps1_1, hostOps1_2, hostOps1_3, hostOps1_4] c main_v33
      = KerVal.tail (accArr m c) := by
  unfold Pipeline.afterTail₀
  have hW : Pipeline.withArrays (cfgs 0).spec c (V0 m c) (fun w => (dats m 0 c).arrAt w (cfgs 0).N)
      (Proc.devRef .tc (Pipeline.arrRef spec0 2)) = accArr m c :=
    Pipeline.withArrays_arr spec0 launch0.win.arr_inj c _ _ 2
  generalize Pipeline.withArrays (cfgs 0).spec c (V0 m c) (fun w => (dats m 0 c).arrAt w (cfgs 0).N) = W at hW ⊢
  generalize accArr m c = A at hW ⊢
  simp only [hostOps1, hostOps1_1, hostOps1_2, hostOps1_3, hostOps1_4, List.flatten_cons, List.flatten_nil,
    List.append_nil, List.cons_append, List.nil_append]
  after_results_simp
  have hW' : W (Proc.devRef .tc main_v6) = A := hW
  rw [hW']
  rfl

/-- The kernel program's run: every weakly fair execution terminates with the result buffer at the tail function of the
    accumulator array, and the two argument arrays as launched. -/
theorem run : θ_run defs (onTc (τ := τ) (main (F := F))) ⟨m, fun _ => 0, ρ⟩ (fun r => ∀ c : Dev nD,
      r.2.mem ((c.tc : Thread nD τ).loc main_v33) = KerVal.tail (accArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v33 (Pipeline.mem_restRefs_of main_v33 (by decide) (by decide))).trans (tail_result m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KerRun

end
-- ==== Proof.Spec.lean ====
/-
  The mathematics both programs compute, over the extended reals.

  An image `b` has pixels `(h, w)`, each with a label `ids b h w` (0 = background, 1..256 = instances) and a
  feature vector `x b · h w` of 128 channels.  For a label `j` the three pixel sums are
    sumF  b c j = Σ_{(h,w) : label = j} x b c h w,
    sumF2 b c j = Σ_{(h,w) : label = j} (x b c h w)²,
    cnt   b j   = number of pixels labelled j.
  The per-instance term is the channel-summed variance  (Σ_c sumF2 − (Σ_c sumF²)/n)/n  with n = max(cnt, 1),
  kept only where the label occurs; an image's loss is the mean of these over the instance labels 1..256 that occur, and the
  result is the mean of the images' losses.
-/
import Idealize.ShloMosaic.PureOps.Ideal
import Idealize.ShloMosaic.Lib.ValueIdx

noncomputable section

namespace Cert.Spec

open Idealize.ShloMosaic Idealize.ShloMosaic.ValueIdx
open scoped BigOperators

/-- The features' shape [8, 128, 512, 512] and the labels' shape [8, 512, 512]. -/
abbrev SX : Shape := ⟨4, ![8, 128, 512, 512]⟩
abbrev SI : Shape := ⟨3, ![8, 512, 512]⟩

variable (x : SX.Idx → EReal) (ids : SI.Idx → BitVec 32)

/-- The sum of channel `c` over image `b`'s pixels labelled `j`. -/
def sumF (b : Fin 8) (c : Fin 128) (j : ℕ) : EReal :=
  ∑ h : Fin 512, ∑ w : Fin 512, if (ids (ix3 b h w)).toNat = j then x (ix4 b c h w) else 0

/-- The sum of channel `c`'s squares over image `b`'s pixels labelled `j`. -/
def sumF2 (b : Fin 8) (c : Fin 128) (j : ℕ) : EReal :=
  ∑ h : Fin 512, ∑ w : Fin 512, if (ids (ix3 b h w)).toNat = j then x (ix4 b c h w) * x (ix4 b c h w) else 0

/-- The number of image `b`'s pixels labelled `j`. -/
def cnt (b : Fin 8) (j : ℕ) : EReal :=
  ∑ h : Fin 512, ∑ w : Fin 512, if (ids (ix3 b h w)).toNat = j then (1 : EReal) else 0

/-- The variance term from a label's channel sums and its count. -/
def varTerm (sf sf2 : Fin 128 → EReal) (n : EReal) : EReal :=
  Ideal.div ((∑ c : Fin 128, sf2 c) - Ideal.div (∑ c : Fin 128, sf c * sf c) (max n 1)) (max n 1)

/-- A label's term: its variance term where the label occurs, zero elsewhere. -/
def V (b : Fin 8) (j : ℕ) : EReal :=
  if 0 < cnt ids b j then varTerm (fun c => sumF x ids b c j) (fun c => sumF2 x ids b c j) (cnt ids b j) else 0

/-- The number of instance labels 1..256 that occur in image `b`. -/
def nInst (b : Fin 8) : ℕ := (Finset.univ.filter fun s : Fin 256 => 0 < cnt ids b (s.val + 1)).card

/-- Image `b`'s loss: the mean of its instances' terms (zero when it has none). -/
def Limg (b : Fin 8) : EReal :=
  if 0 < nInst ids b then
    Ideal.div (∑ s : Fin 256, V x ids b (s.val + 1)) (max (((nInst ids b : ℕ) : ℝ) : EReal) 1)
  else 0

/-- The result: the mean over the eight images. -/
def loss : EReal := Ideal.div (∑ b : Fin 8, Limg x ids b) (((8 : ℝ)) : EReal)

/-- One pixel's entry in row `k` of the augmented block [f | f² | 1 | 0]: rows 0..127 the channels, rows 128..255 their squares,
    row 256 the constant one, rows 257..263 zero.  The block `xb` is one grid point's feature block [1, 128, 32, 512]. -/
def augAt (xb : (⟨4, ![1, 128, 32, 512]⟩ : Shape).Idx → EReal) (k : Fin 264) (r : Fin 32) (w : Fin 512) : EReal :=
  if h : k.val < 128 then xb (ix4 (0 : Fin 1) (⟨k.val, h⟩ : Fin 128) r w)
  else if h2 : k.val < 256 then
    xb (ix4 (0 : Fin 1) (⟨k.val - 128, by omega⟩ : Fin 128) r w) * xb (ix4 (0 : Fin 1) (⟨k.val - 128, by omega⟩ : Fin 128) r w)
  else if k.val = 256 then 1 else 0

/-- What one grid point adds to the accumulator at (k, s): the augmented entries of the block's 32 × 512 pixels whose
    label is `s + 1`.  `ib` is the point's label block [1, 32, 512]. -/
def blkTerm (xb : (⟨4, ![1, 128, 32, 512]⟩ : Shape).Idx → EReal) (ib : (⟨3, ![1, 32, 512]⟩ : Shape).Idx → BitVec 32)
    (k : Fin 264) (s : Fin 256) : EReal :=
  ∑ r : Fin 32, ∑ w : Fin 512, if (ib (ix3 (0 : Fin 1) r w)).toNat = s.val + 1 then augAt xb k r w else 0

/-- What the kernel's accumulator array [8, 264, 256] holds for image `b`, row `k`, column `s` (the column of label `s + 1`):
    rows 0..127 the channel sums, rows 128..255 the sums of squares, row 256 the count, rows 257..263 zero. -/
def acc (b : Fin 8) (k : Fin 264) (s : Fin 256) : EReal :=
  if h : k.val < 128 then sumF x ids b ⟨k.val, h⟩ (s.val + 1)
  else if h2 : k.val < 256 then sumF2 x ids b ⟨k.val - 128, by omega⟩ (s.val + 1)
  else if k.val = 256 then cnt ids b (s.val + 1) else 0

end Cert.Spec

end
-- ==== Proof.KerBodyTrip.lean ====
/-
  What the body's counted loop leaves in the accumulator scratch, for any float values: each of the four trips stores
  eight times, every store rewriting the whole scratch with what it read there plus one pixel row's product, so the
  scratch after the loop is the chain of the 32 row stores over what the loop found.
-/
import proofs.«403733_j44710609551555_3_alg».proof.Proof.Gen.KernelIdeal.Frame
import Idealize.ShloMosaic.Lib.Pipeline.Value
import Idealize.ShloMosaic.Lib.ValueIdx
import Idealize.ShloMosaic.Lib.Tactic

noncomputable section

namespace Cert.KernelIdeal.KerBody

open Idealize.ShloMosaic Idealize.ShloMosaic.ValueIdx Cert.KernelIdeal Cert.KernelIdeal.Gen
open Idealize.ShloMosaic.TcCoe Idealize.SL.Sem Idealize.ShloMosaic.Tactic

variable {F : FTy → Type} [FloatOps F]

theorem hz2 : (![0, 0] : Fin 2 → Nat) = fun _ => 0 := funext fun a => by fin_cases a <;> rfl

/-- The value a trip's last store writes: the eight row stores chained, each adding its row's product to what the one
    before wrote, the first to what the trip found (`g`); `x15`, `x18` are the trip's feature and label blocks. -/
def tripChain (v3 : IVec S256x512 32) (x15 : Vec F S1x128x8x512 .f32) (x18 : Vec F S1x8x512 .i32) (g : Vec F S264x256 .f32) :
    FVec F S264x256 .f32 :=
  k0_pay4 (k0_pay22 k0_pay2 k0_pay3 (k0_pay6 x15)) (k0_pay23 (F := F) v3 (k0_pay7 x18)) (constant S264x256 .f32 0x00000000#32)
   (k0_pay21 v3 k0_pay2 k0_pay3 (k0_pay6 x15) (k0_pay7 x18)
    (k0_pay20 (k0_pay18 k0_pay2 k0_pay3 (k0_pay6 x15)) (k0_pay19 (F := F) v3 (k0_pay7 x18))
     (k0_pay17 v3 k0_pay2 k0_pay3 (k0_pay6 x15) (k0_pay7 x18)
      (k0_pay16 (k0_pay14 k0_pay2 k0_pay3 (k0_pay6 x15)) (k0_pay15 v3 (k0_pay7 x18))
       (k0_pay13 v3 k0_pay2 k0_pay3 (k0_pay6 x15) (k0_pay7 x18)
        (k0_pay12 v3 (k0_pay9 k0_pay2 k0_pay3 x15) (k0_pay10 x18) k0_pay11
         (k0_pay8 v3 k0_pay2 k0_pay3 x15 x18 g)))))))

/-- THE TRIP, OPENED ONCE: the last of its eight pieces (the head of the list) is a store of the whole scratch, and its
    value is the chain over the blocks the trip loads at its offsets and the contents `f` it finds. Each store's
    read-back of the scratch is a load through the rectangle of the store before it, hence that store's value. -/
theorem tripL_head (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (v3 : IVec S256x512 32)
    (X2 : BufTy.Contents (Elt F) arg2.view.ty) (X3 : BufTy.Contents (Elt F) arg3.view.ty) (k : Fin k0_t1_loop.trips)
    (f : BufTy.Contents (Elt F) arg5.view.ty) :
    (tripL_k0_t1 (F := F) Variants.none c none i arg2 harg2 arg3 harg3 arg4 harg4 arg5 harg5 v3 X2 X3 k f).head?
      = some ⟨Rect.unit ![0, 0] S264x256.size inb_S264x256_S264x256_0_0,
          tripChain v3 (View.readAt (Elt F) arg2.view (Rect.unit (s := S1x128x32x512) (k0_off1 k) S1x128x8x512.size (k0_off1_inb k)).toLoadRect X2)
            (View.readAt (Elt F) arg3.view (Rect.unit (s := S1x32x512) (k0_off2 k) S1x8x512.size (k0_off2_inb k)).toLoadRect X3)
            (arg5.view.read (Elt F) f)⟩ := by
  unfold tripL_k0_t1 trip_k0_t1
  dsimp only
  rw [List.head?_cons]
  sl_unfold_run_names
  simp only [View.readCov_cons_toLoadRect]
  have e : View.readAt (Elt F) arg5.view (Rect.unit ![0, 0] S264x256.size inb_S264x256_S264x256_0_0).toLoadRect f
      = arg5.view.read (Elt F) f :=
    (View.readAt_eq_ld arg5.view f _).trans (View.ld_unit_zero (S := S264x256) hz2 _ _)
  rw [e]
  rfl

/-- So a trip's piece list is that store in front of the trip's earlier pieces. -/
theorem tripL_cons (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (v3 : IVec S256x512 32)
    (X2 : BufTy.Contents (Elt F) arg2.view.ty) (X3 : BufTy.Contents (Elt F) arg3.view.ty) (k : Fin k0_t1_loop.trips)
    (f : BufTy.Contents (Elt F) arg5.view.ty) :
    ∃ t, tripL_k0_t1 (F := F) Variants.none c none i arg2 harg2 arg3 harg3 arg4 harg4 arg5 harg5 v3 X2 X3 k f
      = ⟨Rect.unit ![0, 0] S264x256.size inb_S264x256_S264x256_0_0,
          tripChain v3 (View.readAt (Elt F) arg2.view (Rect.unit (s := S1x128x32x512) (k0_off1 k) S1x128x8x512.size (k0_off1_inb k)).toLoadRect X2)
            (View.readAt (Elt F) arg3.view (Rect.unit (s := S1x32x512) (k0_off2 k) S1x8x512.size (k0_off2_inb k)).toLoadRect X3)
            (arg5.view.read (Elt F) f)⟩ :: t :=
  List.head?_eq_some_iff.mp (tripL_head c i arg2 harg2 arg3 harg3 arg4 harg4 arg5 harg5 v3 X2 X3 k f)

/-- The accumulator after `j` trips, from the contents `g` the loop found: trip by trip the chain of the trip's eight
    row stores over what the trips before left; `xb k`, `ib k` are trip `k`'s feature and label blocks. -/
def loopVal (v3 : IVec S256x512 32) (xb : Fin k0_t1_loop.trips → Vec F S1x128x8x512 .f32)
    (ib : Fin k0_t1_loop.trips → Vec F S1x8x512 .i32) (g : Vec F S264x256 .f32) : ℕ → Vec F S264x256 .f32
  | 0 => g
  | j + 1 => if h : j < k0_t1_loop.trips then tripChain v3 (xb ⟨j, h⟩) (ib ⟨j, h⟩) (loopVal v3 xb ib g j) else loopVal v3 xb ib g j

theorem loopVal_succ (v3 : IVec S256x512 32) (xb : Fin k0_t1_loop.trips → Vec F S1x128x8x512 .f32)
    (ib : Fin k0_t1_loop.trips → Vec F S1x8x512 .i32) (g : Vec F S264x256 .f32) (j : ℕ) (h : j < k0_t1_loop.trips) :
    loopVal v3 xb ib g (j + 1) = tripChain v3 (xb ⟨j, h⟩) (ib ⟨j, h⟩) (loopVal v3 xb ib g j) := by
  rw [loopVal, dif_pos h]

/-- The blocks trip `k` loads from the point's staging buffers. -/
abbrev xblk (arg2 : Memref sig .tc .vmem S1x128x32x512 .f32) (X2 : BufTy.Contents (Elt F) arg2.view.ty) (k : Fin k0_t1_loop.trips) :
    Vec F S1x128x8x512 .f32 :=
  View.readAt (Elt F) arg2.view (Rect.unit (s := S1x128x32x512) (k0_off1 k) S1x128x8x512.size (k0_off1_inb k)).toLoadRect X2
abbrev iblk' (arg3 : Memref sig .tc .vmem S1x32x512 .i32) (X3 : BufTy.Contents (Elt F) arg3.view.ty) (k : Fin k0_t1_loop.trips) :
    Vec F S1x8x512 .i32 :=
  View.readAt (Elt F) arg3.view (Rect.unit (s := S1x32x512) (k0_off2 k) S1x8x512.size (k0_off2_inb k)).toLoadRect X3

/-- The loop runs four trips. -/
theorem trips_eq : k0_t1_loop.trips = 4 := by decide

end Cert.KernelIdeal.KerBody

end
-- ==== Proof.KerBodyLoop.lean ====
/-
  The loop by induction over its trips, and what each control case of the body leaves, for any float values: the scratch
  after the loop is the accumulator after four trips over what the loop found — the zero block at an image's first
  point, what the point before left otherwise — and at an image's last point the output block is a copy of it.
-/
import proofs.«403733_j44710609551555_3_alg».proof.Proof.KerBodyTrip

noncomputable section

namespace Cert.KernelIdeal.KerBody

open Idealize.ShloMosaic Idealize.ShloMosaic.ValueIdx Cert.KernelIdeal Cert.KernelIdeal.Gen
open Idealize.ShloMosaic.TcCoe Idealize.SL.Sem Idealize.ShloMosaic.Tactic

variable {F : FTy → Type} [FloatOps F]

/-- A store of the whole scratch, made last, is what the scratch then reads as, whatever was stored before. -/
theorem read_writes_cons_whole {sig' : RefSig} {κ : Kind} {sp : Space} (v : View sig' κ sp S264x256 .f32)
    (f : v.ty.Contents (Elt F)) (w : S264x256.Idx → Elt F .f32) (L : List (View.Piece (Elt F) S264x256 .f32)) :
    v.read (Elt F) (v.writes (Elt F) f (⟨Rect.unit ![0, 0] S264x256.size inb_S264x256_S264x256_0_0, w⟩ :: L)) = w := by
  rw [View.read_writes_eq_canon v f _ (fun y => ⟨⟨Rect.unit ![0, 0] S264x256.size inb_S264x256_S264x256_0_0, w⟩,
      List.mem_cons_self, View.mem_set_unit_zero (S := S264x256) hz2 inb_S264x256_S264x256_0_0 y⟩),
    View.canon_cons_unit_zero (S := S264x256) hz2]

/-- THE LOOP, BY INDUCTION ON THE TRIPS: the scratch holding the pieces of the first `j` trips over the contents `G`
    at loop entry reads as the accumulator after `j` trips. -/
theorem read_pb (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (v3 : IVec S256x512 32)
    (X2 : BufTy.Contents (Elt F) arg2.view.ty) (X3 : BufTy.Contents (Elt F) arg3.view.ty)
    (G : BufTy.Contents (Elt F) arg5.view.ty) (j : ℕ) :
    j ≤ k0_t1_loop.trips →
      arg5.view.read (Elt F) (arg5.view.writes (Elt F) G (pb_k0_t1 (F := F) Variants.none c none i arg2 harg2 arg3 harg3 arg4 harg4 arg5 harg5 v3 X2 X3 G j))
        = loopVal v3 (xblk arg2 X2) (iblk' arg3 X3) (arg5.view.read (Elt F) G) j := by
  induction j with
  | zero =>
    intro _
    rw [pb_k0_t1.eq_1, View.writes_nil]
    rfl
  | succ j ih =>
    intro hj
    have hlt : j < k0_t1_loop.trips := hj
    have e : pb_k0_t1 (F := F) Variants.none c none i arg2 harg2 arg3 harg3 arg4 harg4 arg5 harg5 v3 X2 X3 G (j + 1)
        = tripL_k0_t1 (F := F) Variants.none c none i arg2 harg2 arg3 harg3 arg4 harg4 arg5 harg5 v3 X2 X3 ⟨j, hlt⟩
            (arg5.view.writes (Elt F) G (pb_k0_t1 (F := F) Variants.none c none i arg2 harg2 arg3 harg3 arg4 harg4 arg5 harg5 v3 X2 X3 G j))
          ++ pb_k0_t1 (F := F) Variants.none c none i arg2 harg2 arg3 harg3 arg4 harg4 arg5 harg5 v3 X2 X3 G j :=
      pb_k0_t1_succ (F := F) Variants.none c none i arg2 harg2 arg3 harg3 arg4 harg4 arg5 harg5 v3 X2 X3 G ⟨j, hlt⟩
    obtain ⟨t, ht⟩ := tripL_cons c i arg2 harg2 arg3 harg3 arg4 harg4 arg5 harg5 v3 X2 X3 ⟨j, hlt⟩
      (arg5.view.writes (Elt F) G (pb_k0_t1 (F := F) Variants.none c none i arg2 harg2 arg3 harg3 arg4 harg4 arg5 harg5 v3 X2 X3 G j))
    rw [e, ht, List.cons_append, read_writes_cons_whole, ih (Nat.le_of_lt hlt), loopVal_succ _ _ _ _ j hlt]

/-- The pieces after `j + 1` trips, in front of any earlier pieces, read back (over anything) as the accumulator
    after `j + 1` trips: the last trip's last store covers the scratch. -/
theorem canon_pb (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (v3 : IVec S256x512 32)
    (X2 : BufTy.Contents (Elt F) arg2.view.ty) (X3 : BufTy.Contents (Elt F) arg3.view.ty)
    (G : BufTy.Contents (Elt F) arg5.view.ty) (j : ℕ) (hlt : j < k0_t1_loop.trips) (L0 : List (View.Piece (Elt F) S264x256 .f32)) :
    View.canon (pb_k0_t1 (F := F) Variants.none c none i arg2 harg2 arg3 harg3 arg4 harg4 arg5 harg5 v3 X2 X3 G (j + 1) ++ L0)
      = loopVal v3 (xblk arg2 X2) (iblk' arg3 X3) (arg5.view.read (Elt F) G) (j + 1) := by
  have e : pb_k0_t1 (F := F) Variants.none c none i arg2 harg2 arg3 harg3 arg4 harg4 arg5 harg5 v3 X2 X3 G (j + 1)
      = tripL_k0_t1 (F := F) Variants.none c none i arg2 harg2 arg3 harg3 arg4 harg4 arg5 harg5 v3 X2 X3 ⟨j, hlt⟩
          (arg5.view.writes (Elt F) G (pb_k0_t1 (F := F) Variants.none c none i arg2 harg2 arg3 harg3 arg4 harg4 arg5 harg5 v3 X2 X3 G j))
        ++ pb_k0_t1 (F := F) Variants.none c none i arg2 harg2 arg3 harg3 arg4 harg4 arg5 harg5 v3 X2 X3 G j :=
    pb_k0_t1_succ (F := F) Variants.none c none i arg2 harg2 arg3 harg3 arg4 harg4 arg5 harg5 v3 X2 X3 G ⟨j, hlt⟩
  obtain ⟨t, ht⟩ := tripL_cons c i arg2 harg2 arg3 harg3 arg4 harg4 arg5 harg5 v3 X2 X3 ⟨j, hlt⟩
    (arg5.view.writes (Elt F) G (pb_k0_t1 (F := F) Variants.none c none i arg2 harg2 arg3 harg3 arg4 harg4 arg5 harg5 v3 X2 X3 G j))
  rw [e, ht, List.cons_append, List.cons_append, View.canon_cons_unit_zero (S := S264x256) hz2,
    read_pb c i arg2 harg2 arg3 harg3 arg4 harg4 arg5 harg5 v3 X2 X3 G j (Nat.le_of_lt hlt), loopVal_succ _ _ _ _ j hlt]

theorem hz3 : (![0, 0, 0] : Fin 3 → Nat) = fun _ => 0 := funext fun a => by fin_cases a <;> rfl

/-- The column numbers the one-hot comparison uses: the row coordinate of a [256, 512] array. -/
abbrev cols : IVec S256x512 32 := iota .tc S256x512 32 [0] iota_S256x512_d0_w32

/-- A MIDDLE POINT leaves in the scratch the accumulator after four trips over what the point before left. -/
theorem soutB_val (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (hc0 : ¬cond0_0 i) (hc1 : ¬cond0_1 i)
    (x0 : Vec F S1x128x32x512 .f32) (x1 : Vec F S1x32x512 .i32) (xs0 : Vec F S264x256 .f32) :
    sout0_B_0 (F := F) c i arg2 harg2 arg3 harg3 arg4 harg4 arg5 harg5 hc0 hc1 x0 x1 xs0
      = loopVal cols (xblk arg2 (harg2.unread x0)) (iblk' arg3 (harg3.unread x1)) xs0 (3 + 1) := by
  unfold sout0_B_0
  rw [View.read_writes_junk_eq_canon]
  unfold kernelRun0_B
  dsimp only
  sl_unfold_run_names
  have ht4 : Scf.trips (0#32) (Scalar.addi 0#32 4#32) 1#32 = 3 + 1 := by decide
  have h3 : 3 < k0_t1_loop.trips := by decide
  have key := canon_pb c i arg2 harg2 arg3 harg3 arg4 harg4 arg5 harg5 cols (harg2.unread x0) (harg3.unread x1) (harg5.unread xs0) 3 h3 []
  rw [List.append_nil, harg5.read_unread] at key
  rw [ht4]
  exact key

/-- AN IMAGE'S LAST POINT leaves the same in the scratch, -/
theorem soutC_val (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (hc0 : ¬cond0_0 i) (hc1 : cond0_1 i)
    (x0 : Vec F S1x128x32x512 .f32) (x1 : Vec F S1x32x512 .i32) (xs0 : Vec F S264x256 .f32) :
    sout0_C_0 (F := F) c i arg2 harg2 arg3 harg3 arg4 harg4 arg5 harg5 hc0 hc1 x0 x1 xs0
      = loopVal cols (xblk arg2 (harg2.unread x0)) (iblk' arg3 (harg3.unread x1)) xs0 (3 + 1) := by
  unfold sout0_C_0
  rw [View.read_writes_junk_eq_canon]
  unfold kernelRun0_C
  dsimp only
  sl_unfold_run_names
  have ht4 : Scf.trips (0#32) (Scalar.addi 0#32 4#32) 1#32 = 3 + 1 := by decide
  have h3 : 3 < k0_t1_loop.trips := by decide
  have key := canon_pb c i arg2 harg2 arg3 harg3 arg4 harg4 arg5 harg5 cols (harg2.unread x0) (harg3.unread x1) (harg5.unread xs0) 3 h3 []
  rw [List.append_nil, harg5.read_unread] at key
  rw [ht4]
  exact key

/-- and in the output block a copy of it with a unit axis in front. -/
theorem outC_val (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (hc0 : ¬cond0_0 i) (hc1 : cond0_1 i)
    (x0 : Vec F S1x128x32x512 .f32) (x1 : Vec F S1x32x512 .i32) (xs0 : Vec F S264x256 .f32) :
    out0_C_2 (F := F) c i arg2 harg2 arg3 harg3 arg4 harg4 arg5 harg5 hc0 hc1 x0 x1 xs0
      = k0_pay5 (loopVal cols (xblk arg2 (harg2.unread x0)) (iblk' arg3 (harg3.unread x1)) xs0 (3 + 1)) := by
  unfold out0_C_2
  rw [View.read_writes_junk_eq_canon]
  unfold kernelRun0_C
  dsimp only
  sl_unfold_run_names
  have ht4 : Scf.trips k0_t1_loop.lb k0_t1_loop.ub k0_t1_loop.st = 3 + 1 := by decide
  have h4 : 3 + 1 ≤ k0_t1_loop.trips := by decide
  have key := read_pb c i arg2 harg2 arg3 harg3 arg4 harg4 arg5 harg5 cols (harg2.unread x0) (harg3.unread x1) (harg5.unread xs0) (3 + 1) h4
  rw [harg5.read_unread] at key
  rw [View.canon_unit_zero (S := S1x264x256) hz3, ht4, View.readAt_eq_ld, key, View.ld_unit_zero (S := S264x256) hz2]

/-- AN IMAGE'S FIRST POINT resets the scratch to the zero block first, so it leaves the accumulator after four trips
    over the zero block. -/
theorem soutA_val (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (hc0 : cond0_0 i) (hc1 : ¬cond0_1 i)
    (x0 : Vec F S1x128x32x512 .f32) (x1 : Vec F S1x32x512 .i32) :
    sout0_A_0 (F := F) c i arg2 harg2 arg3 harg3 arg4 harg4 arg5 harg5 hc0 hc1 x0 x1
      = loopVal cols (xblk arg2 (harg2.unread x0)) (iblk' arg3 (harg3.unread x1)) (k0_pay1 (F := F)) (3 + 1) := by
  unfold sout0_A_0
  rw [View.read_writes_junk_eq_canon]
  unfold kernelRun0_A
  dsimp only
  sl_unfold_run_names
  have ht4 : Scf.trips (0#32) (Scalar.addi 0#32 4#32) 1#32 = 3 + 1 := by decide
  have h3 : 3 < k0_t1_loop.trips := by decide
  rw [ht4, canon_pb c i arg2 harg2 arg3 harg3 arg4 harg4 arg5 harg5 cols (harg2.unread x0) (harg3.unread x1) _ 3 h3 _,
    View.read_writes_junk_eq_canon, View.canon_unit_zero (S := S264x256) hz2]

/-- Trip `kk`'s feature block is rows 8·kk .. 8·kk + 7 of the point's: its entry at row `r` is the point's at row `q = 8·kk + r`. -/
theorem xblk_apply (arg2 : Memref sig .tc .vmem S1x128x32x512 .f32) (harg2 : arg2.IsWhole) (x0 : Vec F S1x128x32x512 .f32)
    (kk : Fin k0_t1_loop.trips) (c : Fin 128) (r : Fin 8) (w : Fin 512) (q : Fin 32) (hq : q.val = 8 * kk.val + r.val) :
    xblk arg2 (harg2.unread x0) kk (ix4 (0 : Fin 1) c r w) = x0 (ix4 (0 : Fin 1) c q w) := by
  show View.readAt (Elt F) arg2.view (Rect.unit (s := S1x128x32x512) (k0_off1 kk) S1x128x8x512.size (k0_off1_inb kk)).toLoadRect
    (harg2.unread x0) (ix4 (0 : Fin 1) c r w) = _
  rw [View.readAt_eq_ld, harg2.read_unread]
  show x0 ((Rect.unit (s := S1x128x32x512) (k0_off1 kk) S1x128x8x512.size (k0_off1_inb kk)).toLoadRect.idx (ix4 (0 : Fin 1) c r w)) = _
  refine congrArg x0 (funext fun a => Fin.ext ?_)
  have ho := k0_off1_eq kk
  show k0_off1 kk a + 1 * ((ix4 (0 : Fin 1) c r w : S1x128x8x512.Idx) a).val = ((ix4 (0 : Fin 1) c q w : S1x128x32x512.Idx) a).val
  rw [ho]
  match a with
  | ⟨0, _⟩ => rfl
  | ⟨1, _⟩ => show 0 + 1 * c.val = c.val; omega
  | ⟨2, _⟩ => show 8 * kk.val + 1 * r.val = q.val; omega
  | ⟨3, _⟩ => show 0 + 1 * w.val = w.val; omega

/-- Trip `kk`'s label block likewise. -/
theorem iblk_apply (arg3 : Memref sig .tc .vmem S1x32x512 .i32) (harg3 : arg3.IsWhole) (x1 : Vec F S1x32x512 .i32)
    (kk : Fin k0_t1_loop.trips) (r : Fin 8) (w : Fin 512) (q : Fin 32) (hq : q.val = 8 * kk.val + r.val) :
    iblk' arg3 (harg3.unread x1) kk (ix3 (0 : Fin 1) r w) = x1 (ix3 (0 : Fin 1) q w) := by
  show View.readAt (Elt F) arg3.view (Rect.unit (s := S1x32x512) (k0_off2 kk) S1x8x512.size (k0_off2_inb kk)).toLoadRect
    (harg3.unread x1) (ix3 (0 : Fin 1) r w) = _
  rw [View.readAt_eq_ld, harg3.read_unread]
  show x1 ((Rect.unit (s := S1x32x512) (k0_off2 kk) S1x8x512.size (k0_off2_inb kk)).toLoadRect.idx (ix3 (0 : Fin 1) r w)) = _
  refine congrArg x1 (funext fun a => Fin.ext ?_)
  have ho := k0_off2_eq kk
  show k0_off2 kk a + 1 * ((ix3 (0 : Fin 1) r w : S1x8x512.Idx) a).val = ((ix3 (0 : Fin 1) q w : S1x32x512.Idx) a).val
  rw [ho]
  match a with
  | ⟨0, _⟩ => rfl
  | ⟨1, _⟩ => show 8 * kk.val + 1 * r.val = q.val; omega
  | ⟨2, _⟩ => show 0 + 1 * w.val = w.val; omega

end Cert.KernelIdeal.KerBody

end
-- ==== Proof.KerBodyPure.lean ====
/-
  One pixel row's contribution to the accumulator, read entry by entry over the extended reals: the product of the
  augmented block [f | f² | 1 | 0] with the one-hot matrix of a label row adds, at (k, s), the augmented entries of
  the row's pixels whose label is s + 1.
-/
import proofs.«403733_j44710609551555_3_alg».proof.Proof.Gen.KernelIdeal.Skeleton
import proofs.«403733_j44710609551555_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.KerBody

open Idealize.ShloMosaic Idealize.ShloMosaic.ValueIdx Cert.KernelIdeal Cert.KernelIdeal.Gen
open scoped BigOperators

/-! ## Words -/

/-- A one-bit word widened to 32 bits and read signed is the bit. -/
theorem bit_toInt : ∀ b : BitVec 1, (b.setWidth 32).toInt = (b.toNat : ℤ) := by decide

/-- For a column s below 256: a label minus one is the word of s exactly when the label is s + 1. -/
theorem sub_one_eq_ofNat_iff (a : BitVec 32) (s : ℕ) (hs : s < 256) :
    a - 1#32 = BitVec.ofNat 32 s ↔ a.toNat = s + 1 := by
  constructor
  · intro h; bv_omega
  · intro h; bv_omega

/-- The one-hot entry: the comparison bit of (label − 1) with the column number, widened and converted, is 1 where
    the label is s + 1 and 0 elsewhere. -/
theorem onehot_word (a : BitVec 32) (s : Fin 256) :
    (FloatOps.sitofp (F := Ideal) .f32 ((IntOp.cmpi .eq (IntOp.subi a 1#32) (BitVec.ofNat 32 s.val)).setWidth 32) : EReal)
      = if a.toNat = s.val + 1 then 1 else 0 := by
  show ((((IntOp.cmpi .eq (IntOp.subi a 1#32) (BitVec.ofNat 32 s.val)).setWidth 32).toInt : ℝ) : EReal) = _
  rw [bit_toInt]
  unfold IntOp.cmpi IntOp.subi
  by_cases h : a.toNat = s.val + 1
  · rw [if_pos h]
    have e : a - 1#32 = BitVec.ofNat 32 s.val := (sub_one_eq_ofNat_iff a s.val s.isLt).mpr h
    simp [e]
  · rw [if_neg h]
    have e : ¬ a - 1#32 = BitVec.ofNat 32 s.val := fun e => h ((sub_one_eq_ofNat_iff a s.val s.isLt).mp e)
    simp [e]

/-! ## The product -/

/-- The product's dimension numbers: both operands contract their axis 1. -/
abbrev DD : DotDims S264x512 S256x512 S264x256 := dot_S264x512_S256x512_S264x256_1_1_0_0_n_n

/-- The product into a zero accumulator, read at (k, s): the sum over the 512 lanes of the operands' products. -/
theorem mm_apply (lhs : FVec Ideal S264x512 .bf16) (rhs : FVec Ideal S256x512 .bf16) (k : Fin 264) (s : Fin 256) :
    matmul dot_S264x512_S256x512_S264x256_1_1_0_0_n_n none lhs rhs (constant (F := Ideal) S264x256 .f32 0x00000000#32) (ix2 k s)
      = ∑ w : Fin 512, lhs (ix2 k w) * rhs (ix2 s w) := by
  show FloatOps.matmul _ none lhs rhs _ (ix2 k s) = _
  rw [Ideal.matmul_constant_zero_apply,
    ← Equiv.sum_comp (contrEquiv1 dot_S264x512_S256x512_S264x256_1_1_0_0_n_n 512 rfl rfl).symm]
  refine Finset.sum_congr rfl fun w _ => ?_
  have cw := contrEquiv1_symm_val dot_S264x512_S256x512_S264x256_1_1_0_0_n_n 512 rfl rfl w
  have l2 : dot_S264x512_S256x512_S264x256_1_1_0_0_n_n.lhsIdx (ix2 k s) ((contrEquiv1 _ 512 rfl rfl).symm w) = ix2 k w := by
    funext ax; apply Fin.ext
    match ax with
    | ⟨0, _⟩ => simp [DotDims.lhsIdx, dot_S264x512_S256x512_S264x256_1_1_0_0_n_n]; rfl
    | ⟨1, _⟩ => simp [DotDims.lhsIdx, dot_S264x512_S256x512_S264x256_1_1_0_0_n_n]; exact cw
  have r2 : dot_S264x512_S256x512_S264x256_1_1_0_0_n_n.rhsIdx (ix2 k s) ((contrEquiv1 _ 512 rfl rfl).symm w) = ix2 s w := by
    funext ax; apply Fin.ext
    match ax with
    | ⟨0, _⟩ => simp [DotDims.rhsIdx, dot_S264x512_S256x512_S264x256_1_1_0_0_n_n]; rfl
    | ⟨1, _⟩ => simp [DotDims.rhsIdx, dot_S264x512_S256x512_S264x256_1_1_0_0_n_n]; exact cw
  rw [l2, r2]

/-! ## One row of the block, and what it adds -/

/-- One pixel's entry in row k of the augmented block, read from the trip's feature block [128, 8, 512]: rows 0..127
    the channels, rows 128..255 their squares, row 256 the constant one, rows 257..263 zero. -/
def aug16 (x16 : FVec Ideal S128x8x512 .f32) (k : Fin 264) (r : Fin 8) (w : Fin 512) : EReal :=
  if h : k.val < 128 then x16 (ix3 (⟨k.val, h⟩ : Fin 128) r w)
  else if h2 : k.val < 256 then
    x16 (ix3 (⟨k.val - 128, by omega⟩ : Fin 128) r w) * x16 (ix3 (⟨k.val - 128, by omega⟩ : Fin 128) r w)
  else if k.val = 256 then 1 else 0

/-- What pixel row r of a trip adds to the accumulator at (k, s): the augmented entries of the row's pixels whose label
    is s + 1. -/
def rowTerm (x16 : FVec Ideal S128x8x512 .f32) (i19 : IVec S8x512 32) (r : Fin 8) (k : Fin 264) (s : Fin 256) : EReal :=
  ∑ w : Fin 512, if (i19 (ix2 r w)).toNat = s.val + 1 then aug16 x16 k r w else 0

/-- The value one pixel row's store writes, as a function of the row's offsets into the trip's blocks and of the
    accumulator it finds: the accumulator plus the product of the augmented row block with the row's one-hot matrix. -/
def rowPay (v3 : IVec S256x512 32) (x16 : FVec Ideal S128x8x512 .f32) (i19 : IVec S8x512 32)
    (offx : Fin 3 → ℕ) (hx : S128x8x512.Slices offx S128x1x512) (offi : Fin 2 → ℕ) (hi : S8x512.Slices offi S1x512)
    (g : Vec Ideal S264x256 .f32) : FVec Ideal S264x256 .f32 :=
  shapeCast S264x256 (addf g (matmul dot_S264x512_S256x512_S264x256_1_1_0_0_n_n none
    (concatenate S264x512 0
      [⟨S128x512, truncf .bf16 (shapeCast S128x512 (extractStridedSlice S128x1x512 offx x16 hx) shapeCasts_S128x1x512_S128x512) bitsLt_bf16_f32⟩,
       ⟨S128x512, mulf (truncf .bf16 (shapeCast S128x512 (extractStridedSlice S128x1x512 offx x16 hx) shapeCasts_S128x1x512_S128x512) bitsLt_bf16_f32)
          (truncf .bf16 (shapeCast S128x512 (extractStridedSlice S128x1x512 offx x16 hx) shapeCasts_S128x1x512_S128x512) bitsLt_bf16_f32)⟩,
       ⟨S1x512, k0_pay2 (F := Ideal)⟩, ⟨S7x512, k0_pay3 (F := Ideal)⟩]
      concatenates_S128x512_S128x512_S1x512_S7x512_S264x512_d0)
    (truncf .bf16 (sitofp .f32 (extui 32 (cmpi .eq (subi
      (broadcastTo S256x512 (shapeCast S1x512 (shapeCast S1x512 (shapeCast S512 (extractStridedSlice S1x512 offi i19 hi)
        shapeCasts_S1x512_S512) shapeCasts_S512_S1x512) shapeCasts_S1x512_S1x512) broadcasts_S1x512_S256x512)
      (broadcast S256x512 1#32)) v3) natLt_1_32)) bitsLt_bf16_f32)
    (constant S264x256 .f32 0x00000000#32))) shapeCasts_S264x256_S264x256

/-- The eight row payloads of a trip are this one formula at rows 0..7 (the generated text cuts a trip into four parts,
    which names shared pieces differently; the values are the same). -/
theorem pay8_eq (v3 : IVec S256x512 32) (v15 : Vec Ideal S1x128x8x512 .f32) (v18 : Vec Ideal S1x8x512 .i32) (g : Vec Ideal S264x256 .f32) :
    k0_pay8 (F := Ideal) v3 k0_pay2 k0_pay3 v15 v18 g
      = rowPay v3 (k0_pay6 v15) (k0_pay7 (F := Ideal) v18) ![0, 0, 0] slices_S128x8x512_o0_0_0_S128x1x512 ![0, 0] slices_S8x512_o0_0_S1x512 g := rfl
theorem pay12_eq (v3 : IVec S256x512 32) (v15 : Vec Ideal S1x128x8x512 .f32) (v18 : Vec Ideal S1x8x512 .i32) (g : Vec Ideal S264x256 .f32) :
    k0_pay12 (F := Ideal) v3 (k0_pay9 k0_pay2 k0_pay3 v15) (k0_pay10 (F := Ideal) v18) k0_pay11 g
      = rowPay v3 (k0_pay6 v15) (k0_pay7 (F := Ideal) v18) ![0, 1, 0] slices_S128x8x512_o0_1_0_S128x1x512 ![1, 0] slices_S8x512_o1_0_S1x512 g := rfl
theorem pay13_eq (v3 : IVec S256x512 32) (v16 : FVec Ideal S128x8x512 .f32) (v19 : IVec S8x512 32) (g : Vec Ideal S264x256 .f32) :
    k0_pay13 (F := Ideal) v3 k0_pay2 k0_pay3 v16 v19 g
      = rowPay v3 v16 v19 ![0, 2, 0] slices_S128x8x512_o0_2_0_S128x1x512 ![2, 0] slices_S8x512_o2_0_S1x512 g := rfl
theorem pay16_eq (v3 : IVec S256x512 32) (v16 : FVec Ideal S128x8x512 .f32) (v19 : IVec S8x512 32) (g : Vec Ideal S264x256 .f32) :
    k0_pay16 (F := Ideal) (k0_pay14 k0_pay2 k0_pay3 v16) (k0_pay15 v3 v19) g
      = rowPay v3 v16 v19 ![0, 3, 0] slices_S128x8x512_o0_3_0_S128x1x512 ![3, 0] slices_S8x512_o3_0_S1x512 g := rfl
theorem pay17_eq (v3 : IVec S256x512 32) (v16 : FVec Ideal S128x8x512 .f32) (v19 : IVec S8x512 32) (g : Vec Ideal S264x256 .f32) :
    k0_pay17 (F := Ideal) v3 k0_pay2 k0_pay3 v16 v19 g
      = rowPay v3 v16 v19 ![0, 4, 0] slices_S128x8x512_o0_4_0_S128x1x512 ![4, 0] slices_S8x512_o4_0_S1x512 g := rfl
theorem pay20_eq (v3 : IVec S256x512 32) (v16 : FVec Ideal S128x8x512 .f32) (v19 : IVec S8x512 32) (g : Vec Ideal S264x256 .f32) :
    k0_pay20 (F := Ideal) (k0_pay18 k0_pay2 k0_pay3 v16) (k0_pay19 (F := Ideal) v3 v19) g
      = rowPay v3 v16 v19 ![0, 5, 0] slices_S128x8x512_o0_5_0_S128x1x512 ![5, 0] slices_S8x512_o5_0_S1x512 g := rfl
theorem pay21_eq (v3 : IVec S256x512 32) (v16 : FVec Ideal S128x8x512 .f32) (v19 : IVec S8x512 32) (g : Vec Ideal S264x256 .f32) :
    k0_pay21 (F := Ideal) v3 k0_pay2 k0_pay3 v16 v19 g
      = rowPay v3 v16 v19 ![0, 6, 0] slices_S128x8x512_o0_6_0_S128x1x512 ![6, 0] slices_S8x512_o6_0_S1x512 g := rfl
theorem pay4_eq (v3 : IVec S256x512 32) (v16 : FVec Ideal S128x8x512 .f32) (v19 : IVec S8x512 32) (g : Vec Ideal S264x256 .f32) :
    k0_pay4 (F := Ideal) (k0_pay22 k0_pay2 k0_pay3 v16) (k0_pay23 (F := Ideal) v3 v19) (constant S264x256 .f32 0x00000000#32) g
      = rowPay v3 v16 v19 ![0, 7, 0] slices_S128x8x512_o0_7_0_S128x1x512 ![7, 0] slices_S8x512_o7_0_S1x512 g := rfl

end Cert.KernelIdeal.KerBody

end
-- ==== Proof.KerBodyRow.lean ====
/-
  One pixel row's store, read at an accumulator entry: what it found there plus the row's term.
-/
import proofs.«403733_j44710609551555_3_alg».proof.Proof.KerBodyPure
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.KerBody

open Idealize.ShloMosaic Idealize.ShloMosaic.ValueIdx Cert.KernelIdeal Cert.KernelIdeal.Gen
open scoped BigOperators

/-- Pixel row r of the trip's feature block, as a [128, 512] array, at (c, w) is the block at (c, r, w); the change of
    float format is the identity on extended reals. -/
theorem featRow_apply (x16 : FVec Ideal S128x8x512 .f32) (r : Fin 8) (hx : S128x8x512.Slices ![0, r.val, 0] S128x1x512)
    (c : Fin 128) (w : Fin 512) :
    (truncf .bf16 (shapeCast S128x512 (extractStridedSlice S128x1x512 ![0, r.val, 0] x16 hx) shapeCasts_S128x1x512_S128x512)
      bitsLt_bf16_f32 : FVec Ideal S128x512 .bf16) (ix2 c w) = x16 (ix3 c r w) := by
  rw [truncf_apply, shapeCast_apply _ shapeCasts_S128x1x512_S128x512 (ix2 c w) (ix3 c (0 : Fin 1) w)
    (by rw [Shape.rowMajor_val_two, Shape.rowMajor_val_three]
        show (c.val * 1 + 0) * 512 + w.val = c.val * 512 + w.val
        omega)]
  exact slice3_axis1_apply r.val x16 hx c (0 : Fin 1) w r (by simp)

/-- Pixel row r of the trip's label block, copied down the 256 columns' rows: at (s, w) it is the label at (r, w). -/
theorem labRow_apply (i19 : IVec S8x512 32) (r : Fin 8) (hi : S8x512.Slices ![r.val, 0] S1x512) (s : Fin 256) (w : Fin 512) :
    broadcastTo S256x512 (shapeCast S1x512 (shapeCast S1x512 (shapeCast S512 (extractStridedSlice S1x512 ![r.val, 0] i19 hi)
        shapeCasts_S1x512_S512) shapeCasts_S512_S1x512) shapeCasts_S1x512_S1x512) broadcasts_S1x512_S256x512 (ix2 s w)
      = i19 (ix2 r w) := by
  rw [broadcastTo_1b_ab_apply, shapeCast_self, shapeCast_a_1a_apply, shapeCast_1a_a_apply]
  exact slice2_axis0_apply r.val i19 hi (0 : Fin 1) w r (by simp)

/-- The one-hot matrix of label row r at (s, w): 1 where the pixel's label is s + 1, 0 elsewhere. -/
theorem onehot_apply (i19 : IVec S8x512 32) (r : Fin 8) (hi : S8x512.Slices ![r.val, 0] S1x512) (s : Fin 256) (w : Fin 512) :
    (truncf .bf16 (sitofp .f32 (extui 32 (cmpi .eq (subi
      (broadcastTo S256x512 (shapeCast S1x512 (shapeCast S1x512 (shapeCast S512 (extractStridedSlice S1x512 ![r.val, 0] i19 hi)
        shapeCasts_S1x512_S512) shapeCasts_S512_S1x512) shapeCasts_S1x512_S1x512) broadcasts_S1x512_S256x512)
      (broadcast S256x512 1#32)) (iota .tc S256x512 32 [0] iota_S256x512_d0_w32)) natLt_1_32)) bitsLt_bf16_f32
        : FVec Ideal S256x512 .bf16) (ix2 s w)
      = if (i19 (ix2 r w)).toNat = s.val + 1 then 1 else 0 := by
  rw [truncf_apply, sitofp_apply, extui_apply]
  show FloatOps.sitofp (F := Ideal) .f32 ((IntOp.cmpi .eq (IntOp.subi (broadcastTo S256x512 _ broadcasts_S1x512_S256x512 (ix2 s w)) 1#32)
    (iota .tc S256x512 32 [0] iota_S256x512_d0_w32 (ix2 s w))).setWidth 32) = _
  rw [labRow_apply i19 r hi s w, iota_single_apply]
  exact onehot_word _ s

/-- Four blocks stacked along the rows, of 128, 128, 1 and 7 rows: row k of the stack is a row of the block whose span
    holds k. -/
theorem stack_apply (A B : FVec Ideal S128x512 .bf16) (C : FVec Ideal S1x512 .bf16) (D : FVec Ideal S7x512 .bf16)
    (k : Fin 264) (w : Fin 512) :
    concatenate S264x512 0 [⟨S128x512, A⟩, ⟨S128x512, B⟩, ⟨S1x512, C⟩, ⟨S7x512, D⟩]
        concatenates_S128x512_S128x512_S1x512_S7x512_S264x512_d0 (ix2 k w)
      = if h : k.val < 128 then A (ix2 (⟨k.val, h⟩ : Fin 128) w)
        else if h2 : k.val < 256 then B (ix2 (⟨k.val - 128, by omega⟩ : Fin 128) w)
        else if h3 : k.val = 256 then C (ix2 (0 : Fin 1) w)
        else D (ix2 (⟨k.val - 257, by omega⟩ : Fin 7) w) := by
  by_cases h : k.val < 128
  · rw [dif_pos h]
    refine concatenate_apply_piece (0 : Fin S264x512.rank) _ _ (ix2 k w) 0 (by simp) S128x512 A rfl rfl 0 rfl
      (ix2 (⟨k.val, h⟩ : Fin 128) w) (fun b hb => ?_) (by show 0 + k.val = k.val; omega)
    match b with
    | ⟨0, _⟩ => exact absurd rfl hb
    | ⟨1, _⟩ => rfl
  · rw [dif_neg h]
    by_cases h2 : k.val < 256
    · rw [dif_pos h2]
      refine concatenate_apply_piece (0 : Fin S264x512.rank) _ _ (ix2 k w) 1 (by simp) S128x512 B rfl rfl 128 rfl
        (ix2 (⟨k.val - 128, by omega⟩ : Fin 128) w) (fun b hb => ?_) (by show 128 + (k.val - 128) = k.val; omega)
      match b with
      | ⟨0, _⟩ => exact absurd rfl hb
      | ⟨1, _⟩ => rfl
    · rw [dif_neg h2]
      by_cases h3 : k.val = 256
      · rw [dif_pos h3]
        refine concatenate_apply_piece (0 : Fin S264x512.rank) _ _ (ix2 k w) 2 (by simp) S1x512 C rfl rfl 256 rfl
          (ix2 (0 : Fin 1) w) (fun b hb => ?_) (by show 256 + 0 = k.val; omega)
        match b with
        | ⟨0, _⟩ => exact absurd rfl hb
        | ⟨1, _⟩ => rfl
      · rw [dif_neg h3]
        have hk := k.isLt
        refine concatenate_apply_piece (0 : Fin S264x512.rank) _ _ (ix2 k w) 3 (by simp) S7x512 D rfl rfl 257 rfl
          (ix2 (⟨k.val - 257, by omega⟩ : Fin 7) w) (fun b hb => ?_) (by show 257 + (k.val - 257) = k.val; omega)
        match b with
        | ⟨0, _⟩ => exact absurd rfl hb
        | ⟨1, _⟩ => rfl

/-- The augmented block [f | f² | 1 | 0] of pixel row r, read at (k, w). -/
theorem augBlock_apply (x16 : FVec Ideal S128x8x512 .f32) (r : Fin 8) (hx : S128x8x512.Slices ![0, r.val, 0] S128x1x512)
    (k : Fin 264) (w : Fin 512) :
    concatenate S264x512 0
      [⟨S128x512, truncf .bf16 (shapeCast S128x512 (extractStridedSlice S128x1x512 ![0, r.val, 0] x16 hx) shapeCasts_S128x1x512_S128x512) bitsLt_bf16_f32⟩,
       ⟨S128x512, mulf (truncf .bf16 (shapeCast S128x512 (extractStridedSlice S128x1x512 ![0, r.val, 0] x16 hx) shapeCasts_S128x1x512_S128x512) bitsLt_bf16_f32)
          (truncf .bf16 (shapeCast S128x512 (extractStridedSlice S128x1x512 ![0, r.val, 0] x16 hx) shapeCasts_S128x1x512_S128x512) bitsLt_bf16_f32)⟩,
       ⟨S1x512, k0_pay2 (F := Ideal)⟩, ⟨S7x512, k0_pay3 (F := Ideal)⟩]
      concatenates_S128x512_S128x512_S1x512_S7x512_S264x512_d0 (ix2 k w)
      = aug16 x16 k r w := by
  rw [stack_apply]
  unfold aug16
  by_cases h : k.val < 128
  · rw [dif_pos h, dif_pos h, featRow_apply]
  · rw [dif_neg h, dif_neg h]
    by_cases h2 : k.val < 256
    · rw [dif_pos h2, dif_pos h2, mulf_apply, featRow_apply]
    · rw [dif_neg h2, dif_neg h2]
      by_cases h3 : k.val = 256
      · rw [dif_pos h3, if_pos h3]
        exact Ideal.ofBits_one_bf16
      · rw [dif_neg h3, if_neg h3]
        exact Ideal.ofBits_zero_bf16

/-- The row's store at (k, s): the accumulator's entry plus the augmented entries of the row's pixels labelled s + 1.
    The augmented block read at row k is the channel, its square, one or zero; the one-hot entry at (s, w) is 1 exactly
    where the pixel's label is s + 1; the product's lane sum then keeps the labelled pixels' entries. -/
theorem rowPay_apply (x16 : FVec Ideal S128x8x512 .f32) (i19 : IVec S8x512 32) (r : Fin 8)
    (offx : Fin 3 → ℕ) (hox : offx = ![0, r.val, 0]) (hx : S128x8x512.Slices offx S128x1x512)
    (offi : Fin 2 → ℕ) (hoi : offi = ![r.val, 0]) (hi : S8x512.Slices offi S1x512)
    (g : Vec Ideal S264x256 .f32) (k : Fin 264) (s : Fin 256) :
    rowPay (iota .tc S256x512 32 [0] iota_S256x512_d0_w32) x16 i19 offx hx offi hi g (ix2 k s)
      = g (ix2 k s) + rowTerm x16 i19 r k s := by
  subst hox hoi
  unfold rowPay
  rw [shapeCast_self]
  show g (ix2 k s) + matmul dot_S264x512_S256x512_S264x256_1_1_0_0_n_n none _ _ (constant (F := Ideal) S264x256 .f32 0x00000000#32) (ix2 k s) = _
  rw [mm_apply]
  unfold rowTerm
  congr 1
  refine Finset.sum_congr rfl fun w _ => ?_
  rw [augBlock_apply x16 r hx k w, onehot_apply i19 r hi s w, mul_ite, mul_one, mul_zero]

end Cert.KernelIdeal.KerBody

end
-- ==== Proof.KerBodySum.lean ====
/-
  The four trips' eight pixel rows each are the grid point's 32 rows: the trips' row terms add up to the block term.
-/
import proofs.«403733_j44710609551555_3_alg».proof.Proof.KerBodyPure
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Logic.Equiv.Fin.Basic
import Mathlib.Data.Fintype.BigOperators

noncomputable section

namespace Cert.KernelIdeal.KerBody

open Idealize.ShloMosaic Idealize.ShloMosaic.ValueIdx Cert.KernelIdeal Cert.KernelIdeal.Gen
open scoped BigOperators

/-- The trip's feature block with its unit axis dropped, read at (c, r, w). -/
theorem pay6_apply (v15 : Vec Ideal S1x128x8x512 .f32) (c : Fin 128) (r : Fin 8) (w : Fin 512) :
    k0_pay6 (F := Ideal) v15 (ix3 c r w) = v15 (ix4 (0 : Fin 1) c r w) :=
  shapeCast_1abc_abc_apply v15 shapeCasts_S1x128x8x512_S128x8x512 c r w

/-- The trip's label block with its unit axis dropped, read at (r, w). -/
theorem pay7_apply (v18 : Vec Ideal S1x8x512 .i32) (r : Fin 8) (w : Fin 512) :
    k0_pay7 (F := Ideal) v18 (ix2 r w) = v18 (ix3 (0 : Fin 1) r w) :=
  shapeCast_1ab_ab_apply v18 shapeCasts_S1x8x512_S8x512 r w

/-- A sum over 32 rows is the sum over the four trips of the sums over each trip's eight rows: the row `8·j + r` is
    the pair `(j, r)`. -/
theorem sum_trips_rows (f : Fin 32 → EReal) :
    ∑ j : Fin 4, ∑ r : Fin 8, f (⟨8 * j.val + r.val, by have := j.isLt; have := r.isLt; omega⟩ : Fin 32)
      = ∑ q : Fin 32, f q := by
  rw [← Fintype.sum_prod_type' (f := fun (j : Fin 4) (r : Fin 8) =>
    f (⟨8 * j.val + r.val, by have := j.isLt; have := r.isLt; omega⟩ : Fin 32))]
  refine Fintype.sum_equiv (finProdFinEquiv (m := 4) (n := 8)) _ _ ?_
  rintro ⟨j, r⟩
  refine congrArg f (Fin.ext ?_)
  show 8 * j.val + r.val = r.val + 8 * j.val
  omega

/-- A pixel's augmented entry read from a trip's block is the entry read from the point's block, when the trip's row
    `r` is the point's row `q`. -/
theorem aug16_eq (x0 : Vec Ideal S1x128x32x512 .f32) (xbj : Vec Ideal S1x128x8x512 .f32) (q : Fin 32) (r : Fin 8)
    (hx : ∀ (c : Fin 128) (w : Fin 512), xbj (ix4 (0 : Fin 1) c r w) = x0 (ix4 (0 : Fin 1) c q w))
    (k : Fin 264) (w : Fin 512) :
    aug16 (k0_pay6 (F := Ideal) xbj) k r w = Cert.Spec.augAt x0 k q w := by
  unfold aug16 Cert.Spec.augAt
  by_cases h1 : k.val < 128
  · rw [dif_pos h1, dif_pos h1, pay6_apply, hx]
  · rw [dif_neg h1, dif_neg h1]
    by_cases h2 : k.val < 256
    · rw [dif_pos h2, dif_pos h2, pay6_apply, hx]
    · rw [dif_neg h2, dif_neg h2]

/-- Trip j reads rows 8j..8j+7 of the point's blocks (`hxb`, `hib`), so the sum over the four trips of their eight
    row terms is the block term: the sum over the 32 rows. -/
theorem blk_split (x0 : Vec Ideal S1x128x32x512 .f32) (x1 : Vec Ideal S1x32x512 .i32)
    (xb : Fin 4 → Vec Ideal S1x128x8x512 .f32) (ib : Fin 4 → Vec Ideal S1x8x512 .i32)
    (hxb : ∀ (j : Fin 4) (c : Fin 128) (r : Fin 8) (w : Fin 512),
      xb j (ix4 (0 : Fin 1) c r w) = x0 (ix4 (0 : Fin 1) c (⟨8 * j.val + r.val, by have := j.isLt; have := r.isLt; omega⟩ : Fin 32) w))
    (hib : ∀ (j : Fin 4) (r : Fin 8) (w : Fin 512),
      ib j (ix3 (0 : Fin 1) r w) = x1 (ix3 (0 : Fin 1) (⟨8 * j.val + r.val, by have := j.isLt; have := r.isLt; omega⟩ : Fin 32) w))
    (k : Fin 264) (s : Fin 256) :
    ∑ j : Fin 4, ∑ r : Fin 8, rowTerm (k0_pay6 (F := Ideal) (xb j)) (k0_pay7 (F := Ideal) (ib j)) r k s
      = Cert.Spec.blkTerm x0 x1 k s := by
  have key := sum_trips_rows (fun q : Fin 32 => ∑ w : Fin 512,
    if (x1 (ix3 (0 : Fin 1) q w)).toNat = s.val + 1 then Cert.Spec.augAt x0 k q w else 0)
  unfold Cert.Spec.blkTerm
  refine Eq.trans ?_ key
  refine Finset.sum_congr rfl fun j _ => Finset.sum_congr rfl fun r _ => ?_
  unfold rowTerm
  refine Finset.sum_congr rfl fun w _ => ?_
  rw [pay7_apply, hib, aug16_eq x0 (xb j) _ r (fun c w => hxb j c r w)]

end Cert.KernelIdeal.KerBody

end
-- ==== Proof.KerBodyVal.lean ====
/-
  The accumulator after a trip and after the loop, over the extended reals, entry by entry: a trip adds its eight rows'
  terms, the loop's four trips add the block term — the augmented entries of the point's 32 × 512 pixels by label.
-/
import proofs.«403733_j44710609551555_3_alg».proof.Proof.KerBodyTrip
import proofs.«403733_j44710609551555_3_alg».proof.Proof.KerBodyRow
import proofs.«403733_j44710609551555_3_alg».proof.Proof.KerBodySum

noncomputable section

namespace Cert.KernelIdeal.KerBody

open Idealize.ShloMosaic Idealize.ShloMosaic.ValueIdx Cert.KernelIdeal Cert.KernelIdeal.Gen
open scoped BigOperators

/-- A trip's chain of eight row stores, read at (k, s): what the trip found there plus its eight rows' terms. -/
theorem tripChain_apply (x15 : Vec Ideal S1x128x8x512 .f32) (x18 : Vec Ideal S1x8x512 .i32) (g : Vec Ideal S264x256 .f32)
    (k : Fin 264) (s : Fin 256) :
    tripChain (F := Ideal) (iota .tc S256x512 32 [0] iota_S256x512_d0_w32) x15 x18 g (ix2 k s)
      = g (ix2 k s) + ∑ r : Fin 8, rowTerm (k0_pay6 (F := Ideal) x15) (k0_pay7 (F := Ideal) x18) r k s := by
  unfold tripChain
  rw [pay4_eq, pay21_eq, pay20_eq, pay17_eq, pay16_eq, pay13_eq, pay12_eq, pay8_eq]
  rw [rowPay_apply _ _ 7 ![0, 7, 0] rfl _ ![7, 0] rfl, rowPay_apply _ _ 6 ![0, 6, 0] rfl _ ![6, 0] rfl,
    rowPay_apply _ _ 5 ![0, 5, 0] rfl _ ![5, 0] rfl, rowPay_apply _ _ 4 ![0, 4, 0] rfl _ ![4, 0] rfl,
    rowPay_apply _ _ 3 ![0, 3, 0] rfl _ ![3, 0] rfl, rowPay_apply _ _ 2 ![0, 2, 0] rfl _ ![2, 0] rfl,
    rowPay_apply _ _ 1 ![0, 1, 0] rfl _ ![1, 0] rfl, rowPay_apply _ _ 0 ![0, 0, 0] rfl _ ![0, 0] rfl]
  rw [Fin.sum_univ_eight]
  simp only [add_assoc]

/-- The accumulator after the loop's four trips, read at (k, s): what the loop found there plus the four trips'
    eight rows' terms. -/
theorem loop4_apply (xb : Fin k0_t1_loop.trips → Vec Ideal S1x128x8x512 .f32) (ib : Fin k0_t1_loop.trips → Vec Ideal S1x8x512 .i32)
    (g : Vec Ideal S264x256 .f32) (k : Fin 264) (s : Fin 256) :
    loopVal (F := Ideal) (iota .tc S256x512 32 [0] iota_S256x512_d0_w32) xb ib g (3 + 1) (ix2 k s)
      = g (ix2 k s) + ∑ j : Fin 4, ∑ r : Fin 8,
          rowTerm (k0_pay6 (F := Ideal) (xb ⟨j.val, by rw [trips_eq]; exact j.isLt⟩)) (k0_pay7 (F := Ideal) (ib ⟨j.val, by rw [trips_eq]; exact j.isLt⟩)) r k s := by
  have h0 : 0 < k0_t1_loop.trips := by decide
  have h1 : 1 < k0_t1_loop.trips := by decide
  have h2 : 2 < k0_t1_loop.trips := by decide
  have h3 : 3 < k0_t1_loop.trips := by decide
  rw [loopVal_succ _ _ _ _ 3 h3, tripChain_apply, loopVal_succ _ _ _ _ 2 h2, tripChain_apply,
    loopVal_succ _ _ _ _ 1 h1, tripChain_apply, loopVal_succ _ _ _ _ 0 h0, tripChain_apply]
  rw [Fin.sum_univ_four]
  simp only [add_assoc]
  rfl

end Cert.KernelIdeal.KerBody

end
-- ==== Proof.KerBody.lean ====
/-
  What one grid point's body leaves in the accumulator scratch (and, at an image's last point, in the output block),
  entry by entry: what it found there plus the point's block term — at an image's first point the scratch is reset first,
  so the block term alone.
-/
import proofs.«403733_j44710609551555_3_alg».proof.Proof.Gen.KernelIdeal.Frame
import proofs.«403733_j44710609551555_3_alg».proof.Proof.Spec
import proofs.«403733_j44710609551555_3_alg».proof.Proof.KerBodyLoop
import proofs.«403733_j44710609551555_3_alg».proof.Proof.KerBodyVal
import Idealize.ShloMosaic.Lib.ValueLayout
import Idealize.ShloMosaic.PureOps.Ideal.Laws

noncomputable section

namespace Cert.KernelIdeal.KerBody

open Idealize.ShloMosaic Idealize.ShloMosaic.ValueIdx Cert.KernelIdeal Cert.KernelIdeal.Gen

/-- The accumulator after the loop over a point's blocks, at (k, s): what the loop found there plus the point's block
    term — the four trips' rows are the block's 32 rows. -/
theorem blk_of_loop (arg2 : Memref sig .tc .vmem S1x128x32x512 .f32) (harg2 : arg2.IsWhole)
    (arg3 : Memref sig .tc .vmem S1x32x512 .i32) (harg3 : arg3.IsWhole)
    (x0 : Vec Ideal S1x128x32x512 .f32) (x1 : Vec Ideal S1x32x512 .i32) (g : Vec Ideal S264x256 .f32) (k : Fin 264) (s : Fin 256) :
    loopVal (F := Ideal) cols (xblk arg2 (harg2.unread x0)) (iblk' arg3 (harg3.unread x1)) g (3 + 1) (ix2 k s)
      = g (ix2 k s) + Cert.Spec.blkTerm x0 x1 k s := by
  rw [loop4_apply]
  congr 1
  exact blk_split x0 x1 (fun j => xblk arg2 (harg2.unread x0) ⟨j.val, by rw [trips_eq]; exact j.isLt⟩)
    (fun j => iblk' arg3 (harg3.unread x1) ⟨j.val, by rw [trips_eq]; exact j.isLt⟩)
    (fun j c r w => xblk_apply arg2 harg2 x0 _ c r w _ rfl) (fun j r w => iblk_apply arg3 harg3 x1 _ r w _ rfl) k s

/-- The zero block the reset stores reads as the extended real zero. -/
theorem pay1_apply (k : Fin 264) (s : Fin 256) : k0_pay1 (F := Ideal) (ix2 k s) = 0 := by
  unfold k0_pay1
  rw [shapeCast_self]
  exact Ideal.ofBits_zero_f32

/-- An image's first point (the scratch is zeroed, then the 32 rows are added). -/
theorem sout_A (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (hc0 : cond0_0 i) (hc1 : ¬cond0_1 i)
    (x0 : Vec Ideal S1x128x32x512 .f32) (x1 : Vec Ideal S1x32x512 .i32) (k : Fin 264) (s : Fin 256) :
    sout0_A_0 (F := Ideal) c i arg2 harg2 arg3 harg3 arg4 harg4 arg5 harg5 hc0 hc1 x0 x1 (ix2 k s) = Cert.Spec.blkTerm x0 x1 k s := by
  rw [soutA_val, blk_of_loop, pay1_apply, zero_add]

/-- A middle point: the 32 rows are added to what the point before left. -/
theorem sout_B (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (hc0 : ¬cond0_0 i) (hc1 : ¬cond0_1 i)
    (x0 : Vec Ideal S1x128x32x512 .f32) (x1 : Vec Ideal S1x32x512 .i32) (xs0 : Vec Ideal S264x256 .f32) (k : Fin 264) (s : Fin 256) :
    sout0_B_0 (F := Ideal) c i arg2 harg2 arg3 harg3 arg4 harg4 arg5 harg5 hc0 hc1 x0 x1 xs0 (ix2 k s) = xs0 (ix2 k s) + Cert.Spec.blkTerm x0 x1 k s := by
  rw [soutB_val]
  exact blk_of_loop arg2 harg2 arg3 harg3 x0 x1 xs0 k s

/-- An image's last point: the scratch as at a middle point, -/
theorem sout_C (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (hc0 : ¬cond0_0 i) (hc1 : cond0_1 i)
    (x0 : Vec Ideal S1x128x32x512 .f32) (x1 : Vec Ideal S1x32x512 .i32) (xs0 : Vec Ideal S264x256 .f32) (k : Fin 264) (s : Fin 256) :
    sout0_C_0 (F := Ideal) c i arg2 harg2 arg3 harg3 arg4 harg4 arg5 harg5 hc0 hc1 x0 x1 xs0 (ix2 k s) = xs0 (ix2 k s) + Cert.Spec.blkTerm x0 x1 k s := by
  rw [soutC_val]
  exact blk_of_loop arg2 harg2 arg3 harg3 x0 x1 xs0 k s

/-- and the output block a copy of it. -/
theorem out_C (c : Dev nD) (i : grid0.Coords) (arg2 : Memref sig .tc .vmem S1x128x32x512 .f32) (harg2 : arg2.IsWhole) (arg3 : Memref sig .tc .vmem S1x32x512 .i32) (harg3 : arg3.IsWhole) (arg4 : Memref sig .tc .vmem S1x264x256 .f32) (harg4 : arg4.IsWhole) (arg5 : Memref sig .tc .vmem S264x256 .f32) (harg5 : arg5.IsWhole) (hc0 : ¬cond0_0 i) (hc1 : cond0_1 i)
    (x0 : Vec Ideal S1x128x32x512 .f32) (x1 : Vec Ideal S1x32x512 .i32) (xs0 : Vec Ideal S264x256 .f32) (k : Fin 264) (s : Fin 256) :
    out0_C_2 (F := Ideal) c i arg2 harg2 arg3 harg3 arg4 harg4 arg5 harg5 hc0 hc1 x0 x1 xs0 (ix3 (0 : Fin 1) k s) = xs0 (ix2 k s) + Cert.Spec.blkTerm x0 x1 k s := by
  rw [outC_val]
  unfold k0_pay5
  refine (shapeCast_ab_1ab_apply _ shapeCasts_S264x256_S1x264x256 (0 : Fin 1) k s).trans ?_
  exact blk_of_loop arg2 harg2 arg3 harg3 x0 x1 xs0 k s

end Cert.KernelIdeal.KerBody

end
-- ==== Proof.SpecBlocks.lean ====
/-
  The accumulator as a sum over an image's sixteen row tiles: image `b`'s pixels are the 16 tiles of 32 rows,
  and the sum over all 512 rows of a label's entries is the sum over the tiles of each tile's block term.
-/
import proofs.«403733_j44710609551555_3_alg».proof.Proof.Spec
import Mathlib.Logic.Equiv.Fin.Basic
import Mathlib.Data.Fintype.BigOperators

noncomputable section

namespace Cert.Spec

open Idealize.ShloMosaic Idealize.ShloMosaic.ValueIdx
open scoped BigOperators

variable (x : SX.Idx → EReal) (ids : SI.Idx → BitVec 32)

/-- Image `b`'s feature block at row tile `h`: channels × rows 32h … 32h+31 × all columns. -/
def xblk (b : Fin 8) (h : Fin 16) : (⟨4, ![1, 128, 32, 512]⟩ : Shape).Idx → EReal :=
  fun j => x (ix4 b (⟨(j 1).val, (j 1).isLt⟩ : Fin 128) (⟨32 * h.val + (j 2).val, by have := (j 2).isLt; change (j 2).val < 32 at this; omega⟩ : Fin 512)
    (⟨(j 3).val, (j 3).isLt⟩ : Fin 512))

/-- Image `b`'s label block at row tile `h`. -/
def idblk (b : Fin 8) (h : Fin 16) : (⟨3, ![1, 32, 512]⟩ : Shape).Idx → BitVec 32 :=
  fun j => ids (ix3 b (⟨32 * h.val + (j 1).val, by have := (j 1).isLt; change (j 1).val < 32 at this; omega⟩ : Fin 512)
    (⟨(j 2).val, (j 2).isLt⟩ : Fin 512))

/-- A sum over the 512 rows is the sum over the sixteen tiles of the sums over each tile's 32 rows:
    the row `32·t + r` is the pair `(t, r)`. -/
theorem sum_rows_eq_sum_tiles (f : Fin 512 → EReal) :
    ∑ h : Fin 512, f h
      = ∑ t : Fin 16, ∑ r : Fin 32, f (⟨32 * t.val + r.val, by have := t.isLt; have := r.isLt; omega⟩ : Fin 512) := by
  rw [← Fintype.sum_prod_type' (f := fun (t : Fin 16) (r : Fin 32) =>
    f (⟨32 * t.val + r.val, by have := t.isLt; have := r.isLt; omega⟩ : Fin 512))]
  symm
  refine Fintype.sum_equiv (finProdFinEquiv (m := 16) (n := 32)) _ _ ?_
  rintro ⟨t, r⟩
  refine congrArg f (Fin.ext ?_)
  show 32 * t.val + r.val = r.val + 32 * t.val
  omega

/-- The accumulator entry is the sum of the sixteen tiles' block terms. -/
theorem acc_eq_sum_tiles (b : Fin 8) (k : Fin 264) (s : Fin 256) :
    acc x ids b k s = ∑ h : Fin 16, blkTerm (xblk x b h) (idblk ids b h) k s := by
  unfold acc blkTerm
  by_cases h1 : k.val < 128
  · -- rows 0..127: the channel sums
    rw [dif_pos h1, sumF, sum_rows_eq_sum_tiles]
    refine Finset.sum_congr rfl fun t _ => Finset.sum_congr rfl fun r _ => Finset.sum_congr rfl fun w _ => ?_
    simp only [augAt, dif_pos h1]
    rfl
  · rw [dif_neg h1]
    by_cases h2 : k.val < 256
    · -- rows 128..255: the sums of squares
      rw [dif_pos h2, sumF2, sum_rows_eq_sum_tiles]
      refine Finset.sum_congr rfl fun t _ => Finset.sum_congr rfl fun r _ => Finset.sum_congr rfl fun w _ => ?_
      simp only [augAt, dif_neg h1, dif_pos h2]
      rfl
    · rw [dif_neg h2]
      by_cases h3 : k.val = 256
      · -- row 256: the count
        rw [if_pos h3, cnt, sum_rows_eq_sum_tiles]
        refine Finset.sum_congr rfl fun t _ => Finset.sum_congr rfl fun r _ => Finset.sum_congr rfl fun w _ => ?_
        simp only [augAt, dif_neg h1, dif_neg h2, if_pos h3]
        rfl
      · -- rows 257..263: zero
        rw [if_neg h3]
        symm
        refine Finset.sum_eq_zero fun t _ => Finset.sum_eq_zero fun r _ => Finset.sum_eq_zero fun w _ => ?_
        simp only [augAt, dif_neg h1, dif_neg h2, if_neg h3, ite_self]

end Cert.Spec

end
-- ==== Proof.KerBlocks.lean ====
/-
  What the region reads: the label array it stages is the cleaned labels — the labels themselves when all lie in 0..256 —
  and at grid point 16·b + h its two input blocks are image `b`'s feature and label tiles of rows 32h … 32h+31.
-/
import proofs.«403733_j44710609551555_3_alg».proof.Proof.Gen.KernelIdeal.Frame
import proofs.«403733_j44710609551555_3_alg».proof.Proof.KerDefs
import proofs.«403733_j44710609551555_3_alg».proof.Proof.SpecBlocks
import Idealize.ShloMosaic.Lib.StableHlo.Run
import Idealize.ShloMosaic.Lib.StableHlo.Predicate
import Idealize.ShloMosaic.Lib.Affine

noncomputable section

namespace Cert.KernelIdeal.KerBlocks

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-- The grid point of image `b`, row tile `h`. -/
def pt (b : Fin 8) (h : Fin 16) : Fin cfg0.N := ⟨16 * b.val + h.val, by
  have : cfg0.N = 128 := N_0
  omega⟩

theorem pt_val (b : Fin 8) (h : Fin 16) : (pt b h).val = 16 * b.val + h.val := rfl

/-- The label array the region stages is the host's clean-up of the argument. -/
theorem V_main_v5 : V m c main_v5 = KerVal.clean (m ((c.tc : Thread nD τ).loc main_arg1)) := by
  dsimp only [Gen.V, Gen.V0]
  simp only [Gen.hostOps0, Gen.hostOps0_1, List.flatten_cons, List.flatten_nil, List.append_nil, List.cons_append,
    List.nil_append]
  after_results
  rfl

/-- Labels all in 0..256 are left as they are. -/
theorem clean_eq (ids : IVec S8x512x512 32) (h : ∀ i, (ids i).toNat ≤ 256) : KerVal.clean ids = ids := by
  funext i
  have hi := h i
  have hInt : (ids i).toInt = ((ids i).toNat : ℤ) := StableHlo.Predicate.toInt_eq_toNat_of_lt (by omega)
  -- the label is not below 0
  have h1 : ¬ IntOp.cmpi .slt (ids i) 0#32 = 1#1 := by
    rw [IntOp.cmpi_slt, hInt]
    have : (0#32 : BitVec 32).toInt = 0 := by decide
    omega
  -- and not above 256
  have h3 : ¬ IntOp.cmpi .sgt (ids i) 256#32 = 1#1 := by
    rw [IntOp.cmpi_sgt, hInt]
    have : (256#32 : BitVec 32).toInt = 256 := by decide
    omega
  -- so the select's condition bit is 0
  have hc : IntOp.ori (IntOp.cmpi .slt (ids i) 0#32) (IntOp.cmpi .sgt (ids i) 256#32) = 0#1 :=
    eq_zero_of_ne_one fun e => (IntOp.ori_eq_one.1 e).elim h1 h3
  show Scalar.select (IntOp.ori (IntOp.cmpi .slt (ids i) 0#32) (IntOp.cmpi .sgt (ids i) 256#32)) 0#32 (ids i) = ids i
  rw [hc, select_zero]

/-- The feature window's block index at a grid point: (image, 0, row tile, 0). -/
theorem index0 : ∀ t : Fin cfg0.N, win0_0.index t (0 : Fin 4) = t.val / 16 ∧ win0_0.index t (1 : Fin 4) = 0
    ∧ win0_0.index t (2 : Fin 4) = t.val % 16 ∧ win0_0.index t (3 : Fin 4) = 0 :=
  (by decide +kernel : ∀ t : Fin grid0.N, _)

/-- The label window's block index at a grid point: (image, row tile, 0). -/
theorem index1 : ∀ t : Fin cfg0.N, win0_1.index t (0 : Fin 3) = t.val / 16 ∧ win0_1.index t (1 : Fin 3) = t.val % 16
    ∧ win0_1.index t (2 : Fin 3) = 0 :=
  (by decide +kernel : ∀ t : Fin grid0.N, _)

/-- The feature block at point (b, h). -/
theorem iblk0_eq (b : Fin 8) (h : Fin 16) :
    iblk m c 0 (pt b h) = Cert.Spec.xblk (m ((c.tc : Thread nD τ).loc main_arg0)) b h := by
  obtain ⟨e0, e1, e2, e3⟩ := index0 (pt b h)
  rw [pt_val] at e0 e2
  have hb := b.isLt
  have hh := h.isLt
  funext y
  show V m c main_arg0 (((cfg0.win 0).blk (pt b h)).view.emb y) = _
  rw [V_main_arg0]
  unfold Cert.Spec.xblk
  refine congrArg (m ((c.tc : Thread nD τ).loc main_arg0)) ?_
  funext a; apply Fin.ext
  match a with
  | ⟨0, _⟩ => show win0_0.index (pt b h) (0 : Fin 4) * 1 + 1 * (y 0).val = b.val; have hj : (y 0).val < 1 := (y 0).isLt; omega
  | ⟨1, _⟩ => show win0_0.index (pt b h) (1 : Fin 4) * 128 + 1 * (y 1).val = (y 1).val; omega
  | ⟨2, _⟩ => show win0_0.index (pt b h) (2 : Fin 4) * 32 + 1 * (y 2).val = 32 * h.val + (y 2).val; omega
  | ⟨3, _⟩ => show win0_0.index (pt b h) (3 : Fin 4) * 512 + 1 * (y 3).val = (y 3).val; omega

/-- The label block at point (b, h), when the labels are in range. -/
theorem iblk1_eq (hids : ∀ i, (m ((c.tc : Thread nD τ).loc main_arg1) i).toNat ≤ 256) (b : Fin 8) (h : Fin 16) :
    iblk m c 1 (pt b h) = Cert.Spec.idblk (m ((c.tc : Thread nD τ).loc main_arg1)) b h := by
  obtain ⟨e0, e1, e2⟩ := index1 (pt b h)
  rw [pt_val] at e0 e1
  have hb := b.isLt
  have hh := h.isLt
  funext y
  show V m c main_v5 (((cfg0.win 1).blk (pt b h)).view.emb y) = _
  rw [V_main_v5, clean_eq _ hids]
  unfold Cert.Spec.idblk
  refine congrArg (m ((c.tc : Thread nD τ).loc main_arg1)) ?_
  funext a; apply Fin.ext
  match a with
  | ⟨0, _⟩ => show win0_1.index (pt b h) (0 : Fin 3) * 1 + 1 * (y 0).val = b.val; have hj : (y 0).val < 1 := (y 0).isLt; omega
  | ⟨1, _⟩ => show win0_1.index (pt b h) (1 : Fin 3) * 32 + 1 * (y 1).val = 32 * h.val + (y 1).val; omega
  | ⟨2, _⟩ => show win0_1.index (pt b h) (2 : Fin 3) * 512 + 1 * (y 2).val = (y 2).val; omega

end Cert.KernelIdeal.KerBlocks

end
-- ==== Proof.KerGrid.lean ====
/-
  The kernel's accumulator array after the pallas_call.

  Over the sixteen grid points of an image the carried scratch holds, entry by entry, the running sum of the row tiles'
  block terms: reset to the first tile's term at the image's first point, one tile's term added at every later point.
  At the image's last point the output block is a copy of the full sum, which is the image's accumulator entry; that
  block is written back to the image's slice of the result array, and the eight images' slices cover the array.
-/
import proofs.«403733_j44710609551555_3_alg».proof.Proof.KerBody
import proofs.«403733_j44710609551555_3_alg».proof.Proof.KerBlocks
import Idealize.ShloMosaic.Lib.Pipeline.Value

noncomputable section

namespace Cert.KernelIdeal.KerGrid

open Idealize.ShloMosaic Idealize.ShloMosaic.TcCoe Idealize.ShloMosaic.ValueIdx
open Cert.KernelIdeal Cert.KernelIdeal.Gen
open Idealize.ShloMosaic.Pipeline (Dat)
open scoped BigOperators

variable (m : (ℓ : Loc nD τ sig) → Buf (Elt Ideal) ℓ) (c : Dev nD)

/-- A grid point's feature block and label block, at their literal types. -/
abbrev xb (t : Fin cfg0.N) : Vec Ideal S1x128x32x512 .f32 := iblk m c 0 t
abbrev ib (t : Fin cfg0.N) : Vec Ideal S1x32x512 .i32 := iblk m c 1 t

/-- The two arguments as arrays. -/
abbrev xs : Cert.Spec.SX.Idx → EReal := m ((c.tc : Thread nD τ).loc main_arg0)
abbrev ls : Cert.Spec.SI.Idx → BitVec 32 := m ((c.tc : Thread nD τ).loc main_arg1)

/-- Row tile `j` of image `b`: its block term at (k, s); zero for numbers that name no tile. -/
def tileTerm (b j : ℕ) (k : Fin 264) (s : Fin 256) : EReal :=
  if hb : b < 8 then
    if hj : j < 16 then
      Cert.Spec.blkTerm (Cert.Spec.xblk (xs m c) ⟨b, hb⟩ ⟨j, hj⟩) (Cert.Spec.idblk (ls m c) ⟨b, hb⟩ ⟨j, hj⟩) k s
    else 0
  else 0

/-- The block term of point t's blocks is tile t % 16 of image t / 16. -/
theorem point_term (hids : ∀ i, (ls m c i).toNat ≤ 256) (t : Fin cfg0.N) (k : Fin 264) (s : Fin 256) :
    Cert.Spec.blkTerm (xb m c t) (ib m c t) k s = tileTerm m c (t.val / 16) (t.val % 16) k s := by
  have hN : t.val < 128 := lt_of_lt_of_eq t.isLt (show cfg0.N = 128 from N_0)
  have hb : t.val / 16 < 8 := by omega
  have hj : t.val % 16 < 16 := by omega
  have ht : t = KerBlocks.pt ⟨t.val / 16, hb⟩ ⟨t.val % 16, hj⟩ :=
    Fin.ext (by rw [KerBlocks.pt_val]; dsimp only; omega)
  unfold tileTerm
  rw [dif_pos hb, dif_pos hj, ← KerBlocks.iblk0_eq m c ⟨t.val / 16, hb⟩ ⟨t.val % 16, hj⟩,
    ← KerBlocks.iblk1_eq m c hids ⟨t.val / 16, hb⟩ ⟨t.val % 16, hj⟩, ← ht]

/-- An image's first point leaves the first tile's term in the scratch. -/
theorem scratch_first (t : Fin cfg0.N) (h0 : t.val % 16 = 0) (k : Fin 264) (s : Fin 256) :
    ((outsAt0 m c t.val t.isLt).2 : Vec Ideal S264x256 .f32) (ix2 k s)
      = Cert.Spec.blkTerm (xb m c t) (ib m c t) k s := by
  have h1 : ¬t.val % 16 = 15 := by omega
  rw [outsAt0_A m c t h0 h1]
  dsimp only
  exact KerBody.sout_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (xb m c t) (ib m c t) k s

/-- A later point that is not the image's last adds its tile's term to what the point before left in the scratch. -/
theorem scratch_mid (n : ℕ) (hn : n + 1 < cfg0.N) (h0 : ¬(n + 1) % 16 = 0) (h1 : ¬(n + 1) % 16 = 15)
    (k : Fin 264) (s : Fin 256) :
    ((outsAt0 m c (n + 1) hn).2 : Vec Ideal S264x256 .f32) (ix2 k s)
      = ((outsAt0 m c n (Nat.lt_of_succ_lt hn)).2 : Vec Ideal S264x256 .f32) (ix2 k s)
        + Cert.Spec.blkTerm (xb m c ⟨n + 1, hn⟩) (ib m c ⟨n + 1, hn⟩) k s := by
  rw [outsAt0_B m c ⟨n + 1, hn⟩ h0 h1]
  dsimp only
  exact KerBody.sout_B c (grid0.coords ⟨n + 1, hn⟩) (ms0_0 ⟨n + 1, hn⟩) (hs0_0 ⟨n + 1, hn⟩) (ms0_1 ⟨n + 1, hn⟩)
    (hs0_1 ⟨n + 1, hn⟩) (ms0_2 ⟨n + 1, hn⟩) (hs0_2 ⟨n + 1, hn⟩) scM0_0 (Memref.isWhole_whole _)
    (fun h => h0 ((hcond0_0 ⟨n + 1, hn⟩).mp h)) (fun h => h1 ((hcond0_1 ⟨n + 1, hn⟩).mp h))
    (xb m c ⟨n + 1, hn⟩) (ib m c ⟨n + 1, hn⟩) (outsAt0 m c n (Nat.lt_of_succ_lt hn)).2 k s

/-- So does the image's last point, -/
theorem scratch_last (n : ℕ) (hn : n + 1 < cfg0.N) (h0 : ¬(n + 1) % 16 = 0) (h1 : (n + 1) % 16 = 15)
    (k : Fin 264) (s : Fin 256) :
    ((outsAt0 m c (n + 1) hn).2 : Vec Ideal S264x256 .f32) (ix2 k s)
      = ((outsAt0 m c n (Nat.lt_of_succ_lt hn)).2 : Vec Ideal S264x256 .f32) (ix2 k s)
        + Cert.Spec.blkTerm (xb m c ⟨n + 1, hn⟩) (ib m c ⟨n + 1, hn⟩) k s := by
  rw [outsAt0_C m c ⟨n + 1, hn⟩ h0 h1]
  dsimp only
  exact KerBody.sout_C c (grid0.coords ⟨n + 1, hn⟩) (ms0_0 ⟨n + 1, hn⟩) (hs0_0 ⟨n + 1, hn⟩) (ms0_1 ⟨n + 1, hn⟩)
    (hs0_1 ⟨n + 1, hn⟩) (ms0_2 ⟨n + 1, hn⟩) (hs0_2 ⟨n + 1, hn⟩) scM0_0 (Memref.isWhole_whole _)
    (fun h => h0 ((hcond0_0 ⟨n + 1, hn⟩).mp h)) ((hcond0_1 ⟨n + 1, hn⟩).mpr h1)
    (xb m c ⟨n + 1, hn⟩) (ib m c ⟨n + 1, hn⟩) (outsAt0 m c n (Nat.lt_of_succ_lt hn)).2 k s

/-- which also leaves the same sum in the output block. -/
theorem out_last (n : ℕ) (hn : n + 1 < cfg0.N) (h0 : ¬(n + 1) % 16 = 0) (h1 : (n + 1) % 16 = 15)
    (k : Fin 264) (s : Fin 256) :
    ((outsAt0 m c (n + 1) hn).1 : Vec Ideal S1x264x256 .f32) (ix3 (0 : Fin 1) k s)
      = ((outsAt0 m c n (Nat.lt_of_succ_lt hn)).2 : Vec Ideal S264x256 .f32) (ix2 k s)
        + Cert.Spec.blkTerm (xb m c ⟨n + 1, hn⟩) (ib m c ⟨n + 1, hn⟩) k s := by
  rw [outsAt0_C m c ⟨n + 1, hn⟩ h0 h1]
  dsimp only
  exact KerBody.out_C c (grid0.coords ⟨n + 1, hn⟩) (ms0_0 ⟨n + 1, hn⟩) (hs0_0 ⟨n + 1, hn⟩) (ms0_1 ⟨n + 1, hn⟩)
    (hs0_1 ⟨n + 1, hn⟩) (ms0_2 ⟨n + 1, hn⟩) (hs0_2 ⟨n + 1, hn⟩) scM0_0 (Memref.isWhole_whole _)
    (fun h => h0 ((hcond0_0 ⟨n + 1, hn⟩).mp h)) ((hcond0_1 ⟨n + 1, hn⟩).mpr h1)
    (xb m c ⟨n + 1, hn⟩) (ib m c ⟨n + 1, hn⟩) (outsAt0 m c n (Nat.lt_of_succ_lt hn)).2 k s

/-- THE RUNNING SUM: after point n the scratch holds the sum of tiles 0 … n % 16 of image n / 16. -/
theorem scratch_sum (hids : ∀ i, (ls m c i).toNat ≤ 256) (n : ℕ) :
    ∀ (hn : n < cfg0.N) (k : Fin 264) (s : Fin 256),
      ((outsAt0 m c n hn).2 : Vec Ideal S264x256 .f32) (ix2 k s)
        = ∑ j ∈ Finset.range (n % 16 + 1), tileTerm m c (n / 16) j k s := by
  induction n with
  | zero =>
    intro hn k s
    refine (scratch_first m c ⟨0, hn⟩ (Nat.zero_mod 16) k s).trans ?_
    rw [point_term m c hids ⟨0, hn⟩ k s]
    show tileTerm m c (0 / 16) (0 % 16) k s = ∑ j ∈ Finset.range (0 % 16 + 1), tileTerm m c (0 / 16) j k s
    rw [Nat.zero_mod, Nat.zero_add, Finset.sum_range_one]
  | succ n ih =>
    intro hn k s
    by_cases h0 : (n + 1) % 16 = 0
    · refine (scratch_first m c ⟨n + 1, hn⟩ h0 k s).trans ?_
      rw [point_term m c hids ⟨n + 1, hn⟩ k s]
      show tileTerm m c ((n + 1) / 16) ((n + 1) % 16) k s = _
      rw [h0, Nat.zero_add, Finset.sum_range_one]
    · have e1 : (n + 1) / 16 = n / 16 := by omega
      have e2 : (n + 1) % 16 = n % 16 + 1 := by omega
      have hstep : ((outsAt0 m c (n + 1) hn).2 : Vec Ideal S264x256 .f32) (ix2 k s)
          = ((outsAt0 m c n (Nat.lt_of_succ_lt hn)).2 : Vec Ideal S264x256 .f32) (ix2 k s)
            + Cert.Spec.blkTerm (xb m c ⟨n + 1, hn⟩) (ib m c ⟨n + 1, hn⟩) k s := by
        by_cases h1 : (n + 1) % 16 = 15
        · exact scratch_last m c n hn h0 h1 k s
        · exact scratch_mid m c n hn h0 h1 k s
      rw [hstep, ih (Nat.lt_of_succ_lt hn) k s, point_term m c hids ⟨n + 1, hn⟩ k s]
      show _ + tileTerm m c ((n + 1) / 16) ((n + 1) % 16) k s = _
      rw [e1, e2, Finset.sum_range_succ (fun j => tileTerm m c (n / 16) j k s) (n % 16 + 1)]

/-- The sixteen tiles' terms, summed over the numbers below 16, are the sum over the tiles. -/
theorem sum_tiles (b : Fin 8) (k : Fin 264) (s : Fin 256) :
    ∑ j ∈ Finset.range 16, tileTerm m c b.val j k s
      = ∑ h : Fin 16, Cert.Spec.blkTerm (Cert.Spec.xblk (xs m c) b h) (Cert.Spec.idblk (ls m c) b h) k s := by
  rw [← Fin.sum_univ_eq_sum_range (fun j => tileTerm m c b.val j k s) 16]
  refine Finset.sum_congr rfl fun h _ => ?_
  unfold tileTerm
  rw [dif_pos b.isLt, dif_pos h.isLt]

/-- THE OUTPUT BLOCK at an image's last point is the image's accumulator. -/
theorem out_acc (hids : ∀ i, (ls m c i).toNat ≤ 256) (t : Fin cfg0.N) (h1 : t.val % 16 = 15) (b : Fin 8)
    (hb : b.val = t.val / 16) (k : Fin 264) (s : Fin 256) :
    ((outsAt0 m c t.val t.isLt).1 : Vec Ideal S1x264x256 .f32) (ix3 (0 : Fin 1) k s)
      = Cert.Spec.acc (xs m c) (ls m c) b k s := by
  obtain ⟨n, hn⟩ := t
  dsimp only at h1 hb ⊢
  obtain ⟨n, rfl⟩ : ∃ n', n = n' + 1 := ⟨n - 1, by omega⟩
  have h0 : ¬(n + 1) % 16 = 0 := by omega
  rw [out_last m c n hn h0 h1 k s, scratch_sum m c hids n (Nat.lt_of_succ_lt hn) k s,
    point_term m c hids ⟨n + 1, hn⟩ k s, Cert.Spec.acc_eq_sum_tiles, ← sum_tiles m c b k s]
  show _ + tileTerm m c ((n + 1) / 16) ((n + 1) % 16) k s = _
  have e1 : (n + 1) / 16 = n / 16 := by omega
  have e3 : n % 16 + 1 = 15 := by omega
  have hb' : n / 16 = b.val := by omega
  rw [e1, hb', e3, h1]
  exact (Finset.sum_range_succ (fun j => tileTerm m c b.val j k s) 15).symm

/-! ## From the flushed blocks to the array -/

/-- The result array's contents: the accumulator, index by index. -/
def G : FVec Ideal S8x264x256 .f32 := fun i =>
  Cert.Spec.acc (xs m c) (ls m c) ⟨(i 0).val, (i 0).isLt⟩ ⟨(i 1).val, (i 1).isLt⟩ ⟨(i 2).val, (i 2).isLt⟩

/-- The output window's index map, decided over the grid: point t's block is image t / 16's slice. -/
theorem idx_out : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- An index of the array is in point t's block iff each coordinate is in the block's range on its axis. -/
theorem mem_blk (t : Fin cfg0.N) (i : S8x264x256.Idx) :
    i ∈ ((cfg0.win 2).blk t).view.set ↔ ∀ a : Fin 3, win0_2.index t a * S1x264x256.size a ≤ (i a).val
      ∧ (i a).val < win0_2.index t a * S1x264x256.size a + S1x264x256.size a := by
  show i ∈ ((View.whole main_v6).slice (win0_2.rect t)).set ↔ _
  rw [View.set_slice_whole, Rect.mem_set_unit]
  exact Iff.rfl

/-- What an image's last point writes back is the image's slice of the accumulator. -/
theorem flushed_eq (hids : ∀ i, (ls m c i).toNat ≤ 256) (t : Fin cfg0.N) (hf : (cfg0.win 2).flush t = true) :
    (dats m 0 c).flushed 2 t = ((cfg0.win 2).blk t).view.read (Elt Ideal) (G m c) := by
  have h15 : t.val % 16 = 15 := (flush0_2 t).mp hf
  have hN : t.val < 128 := lt_of_lt_of_eq t.isLt (show cfg0.N = 128 from N_0)
  obtain ⟨e0, e1, e2⟩ := idx_out t
  show (cfg0.win 2).cut (grid0.coords t) ((dats m 0 c).after 2 t) = _
  rw [after0_2]
  funext y
  rw [View.read_apply]
  have hy0 : (y 0).val < 1 := (y 0).isLt
  have hy1 : (y 1).val < 264 := (y 1).isLt
  have hy2 : (y 2).val < 256 := (y 2).isLt
  have hy : (cfg0.win 2).xinj (grid0.coords t) y
      = ix3 (0 : Fin 1) (⟨(y 1).val, hy1⟩ : Fin 264) (⟨(y 2).val, hy2⟩ : Fin 256) := by
    funext a; apply Fin.ext
    match a with
    | ⟨0, _⟩ => show (y 0).val = 0; omega
    | ⟨1, _⟩ => rfl
    | ⟨2, _⟩ => rfl
  show ((outsAt0 m c t.val t.isLt).1 : Vec Ideal S1x264x256 .f32) ((cfg0.win 2).xinj (grid0.coords t) y)
    = G m c (((cfg0.win 2).blk t).view.emb y)
  rw [hy]
  refine (out_acc m c hids t h15 ⟨t.val / 16, by omega⟩ rfl _ _).trans ?_
  unfold G
  congr 1 <;> apply Fin.ext
  · show t.val / 16 = win0_2.index t 0 * 1 + 1 * (y 0).val
    rw [e0]; omega
  · show (y 1).val = win0_2.index t 1 * 264 + 1 * (y 1).val
    rw [e1]; omega
  · show (y 2).val = win0_2.index t 2 * 256 + 1 * (y 2).val
    rw [e2]; omega

/-- Every index of the array lies in the block its image's last point writes back. -/
theorem cover (i : S8x264x256.Idx) :
    ∃ t : Fin cfg0.N, (cfg0.win 2).flush t = true ∧ i ∈ ((cfg0.win 2).blk t).view.set := by
  have hi0 : (i 0).val < 8 := (i 0).isLt
  have hi1 : (i 1).val < 264 := (i 1).isLt
  have hi2 : (i 2).val < 256 := (i 2).isLt
  have hN : cfg0.N = 128 := N_0
  have ht : 16 * (i 0).val + 15 < cfg0.N := by omega
  obtain ⟨e0, e1, e2⟩ := idx_out ⟨16 * (i 0).val + 15, ht⟩
  refine ⟨⟨16 * (i 0).val + 15, ht⟩, (flush0_2 _).mpr (by show (16 * (i 0).val + 15) % 16 = 15; omega), ?_⟩
  rw [mem_blk]
  intro a
  match a with
  | ⟨0, _⟩ =>
    show win0_2.index ⟨16 * (i 0).val + 15, ht⟩ 0 * 1 ≤ (i 0).val
      ∧ (i 0).val < win0_2.index ⟨16 * (i 0).val + 15, ht⟩ 0 * 1 + 1
    rw [e0]; dsimp only; omega
  | ⟨1, _⟩ =>
    show win0_2.index ⟨16 * (i 0).val + 15, ht⟩ 1 * 264 ≤ (i 1).val
      ∧ (i 1).val < win0_2.index ⟨16 * (i 0).val + 15, ht⟩ 1 * 264 + 264
    rw [e1]; omega
  | ⟨2, _⟩ =>
    show win0_2.index ⟨16 * (i 0).val + 15, ht⟩ 2 * 256 ≤ (i 2).val
      ∧ (i 2).val < win0_2.index ⟨16 * (i 0).val + 15, ht⟩ 2 * 256 + 256
    rw [e2]; omega

/-- So the result array ends holding the accumulator. -/
theorem final_arr (hids : ∀ i, (ls m c i).toNat ≤ 256) : (dats m 0 c).arrAt 2 cfg0.N = G m c :=
  (dats m 0 c).arrAt_eq_of_cover 2 (G m c) (flushed_eq m c hids) (cover)

/-- THE ACCUMULATOR ARRAY after the pallas_call, entry by entry. -/
theorem final (hids : ∀ i, (m ((c.tc : Thread nD τ).loc main_arg1) i).toNat ≤ 256) (b : Fin 8) (k : Fin 264) (s : Fin 256) :
    (Gen.dats (F := Ideal) m 0 c).arrAt 2 cfg0.N (ix3 b k s)
      = Cert.Spec.acc (m ((c.tc : Thread nD τ).loc main_arg0)) (m ((c.tc : Thread nD τ).loc main_arg1)) b k s :=
  congrFun (final_arr m c hids) (ix3 b k s)

end Cert.KernelIdeal.KerGrid

end
-- ==== Proof.KerTail.lean ====
/-
  The kernel program's host tail at the ideal values: from the accumulator array [8, 264, 256], whose rows 0..127 hold the
  channel sums, rows 128..255 the sums of squares and row 256 the pixel counts of the instance labels 1..256, to the loss.
  The tail is cut into stages, each read at an index: the three slices of the accumulator, the per-label variance term,
  the mask of the labels that occur, the number of such labels, an image's loss, and the mean over the eight images.
-/
import proofs.«403733_j44710609551555_3_alg».proof.Proof.Spec
import proofs.«403733_j44710609551555_3_alg».proof.Proof.KerDefs
import Idealize.ShloMosaic.Lib.IdealHost
import Idealize.ShloMosaic.Lib.ValueLayout
import Idealize.ShloMosaic.Lib.ValueIdxRank1
import Idealize.ShloMosaic.Lib.StableHlo.Predicate
import Idealize.ShloMosaic.PureOps.Ideal.Laws

noncomputable section

namespace Cert.KernelIdeal.KerTailVal

open Idealize.ShloMosaic Idealize.ShloMosaic.ValueIdx Cert.KernelIdeal
open scoped BigOperators

variable [Facts]
open Facts₀ Facts

/-! ## The tail's stages as functions of the accumulator array -/

/-- Rows 0..127: the channel sums. -/
def sumFv (acc : FVec Ideal S8x264x256 .f32) : FVec Ideal S8x128x256 .f32 :=
  extractStridedSlice S8x128x256 ![0, 0, 0] acc slices_S8x264x256_S8x128x256_0_0_0

/-- Rows 128..255: the sums of squares. -/
def sumF2v (acc : FVec Ideal S8x264x256 .f32) : FVec Ideal S8x128x256 .f32 :=
  extractStridedSlice S8x128x256 ![0, 128, 0] acc slices_S8x264x256_S8x128x256_0_128_0

/-- Row 256, as an [8, 256] array: the counts. -/
def cntv (acc : FVec Ideal S8x264x256 .f32) : FVec Ideal S8x256 .f32 :=
  shapeCast S8x256 (extractStridedSlice S8x1x256 ![0, 256, 0] acc slices_S8x264x256_S8x1x256_0_256_0) shapeCasts_S8x1x256_S8x256

/-- The divisor max(count, 1). -/
def nv (acc : FVec Ideal S8x264x256 .f32) : FVec Ideal S8x256 .f32 :=
  maximumf (cntv acc) (broadcastInDim S8x256 ![] bcast_S_S8x256 (constant (F := Ideal) S_ .f32 0x3F800000#32))

/-- The variance term of every (image, label). -/
def varv (acc : FVec Ideal S8x264x256 .f32) : FVec Ideal S8x256 .f32 :=
  Host.divf
    (subf (Host.reduceAdd (F := Ideal) (sumF2v acc) (constant (F := Ideal) S_ .f32 0x00000000#32) reducesTo_S8x128x256_S8x256_d1 h_S_)
      (Host.divf (Host.reduceAdd (F := Ideal) (mulf (sumFv acc) (sumFv acc)) (constant (F := Ideal) S_ .f32 0x00000000#32)
        reducesTo_S8x128x256_S8x256_d1 h_S_) (nv acc)))
    (nv acc)

/-- The mask of the labels that occur: count > 0. -/
def validv (acc : FVec Ideal S8x264x256 .f32) : IVec S8x256 1 :=
  cmpf .ogt (cntv acc) (broadcastInDim S8x256 ![] bcast_S_S8x256 (constant (F := Ideal) S_ .f32 0x00000000#32))

/-- The masked variance terms. -/
def Vv (acc : FVec Ideal S8x264x256 .f32) : FVec Ideal S8x256 .f32 :=
  select (validv acc) (varv acc) (broadcastInDim S8x256 ![] bcast_S_S8x256 (constant (F := Ideal) S_ .f32 0x00000000#32))

/-- The number of labels that occur in each image, as a float. -/
def ninstv (acc : FVec Ideal S8x264x256 .f32) : FVec Ideal S8 .f32 :=
  sitofp .f32 (Host.reduce IntOp.addi (extui 32 (validv acc) natLt_1_32) (constantI S_ 32 0#32) reducesTo_S8x256_S8_d1 h_S_)

/-- Each image's loss. -/
def Lv (acc : FVec Ideal S8x264x256 .f32) : FVec Ideal S8 .f32 :=
  select (cmpf .ogt (ninstv acc) (broadcastInDim S8 ![] bcast_S_S8 (constant (F := Ideal) S_ .f32 0x00000000#32)))
    (Host.divf (Host.reduceAdd (F := Ideal) (Vv acc) (constant (F := Ideal) S_ .f32 0x00000000#32) reducesTo_S8x256_S8_d1 h_S_)
      (maximumf (ninstv acc) (broadcastInDim S8 ![] bcast_S_S8 (constant (F := Ideal) S_ .f32 0x3F800000#32))))
    (broadcastInDim S8 ![] bcast_S_S8 (constant (F := Ideal) S_ .f32 0x00000000#32))

/-- The tail is the mean of the images' losses. -/
theorem tail_stages (acc : FVec Ideal S8x264x256 .f32) :
    KerVal.tail (F := Ideal) acc
      = Host.divf (Host.reduceAdd (F := Ideal) (Lv acc) (constant (F := Ideal) S_ .f32 0x00000000#32) reducesTo_S8_S_d0 h_S_)
          (constant (F := Ideal) S_ .f32 0x41000000#32) := rfl

/-! ## Index facts and constants -/

/-- The source index of the channel reduction over result (b, s) with channel c inserted is (b, c, s). -/
theorem lift_chan (h : S8x128x256.Reduces [1] S8x256) (b : Fin 8) (s : Fin 256) (c : Fin 128) :
    h.lift (ix2 b s) c = ix3 b c s := by
  funext a; match a with | ⟨0, _⟩ => rfl | ⟨1, _⟩ => rfl | ⟨2, _⟩ => rfl

/-- The source index of the label reduction over result (b) with label column s inserted is (b, s). -/
theorem lift_lab (h : S8x256.Reduces [1] S8) (b : Fin 8) (s : Fin 256) :
    h.lift (ix1 b) s = ix2 b s := by
  funext a; match a with | ⟨0, _⟩ => rfl | ⟨1, _⟩ => rfl

/-- The two spellings of a rank-2 index agree. -/
theorem ij_eq_ix2 (b : Fin 8) (s : Fin 256) : StableHlo.Predicate.ij b s = ix2 b s := by
  funext a; match a with | ⟨0, _⟩ => rfl | ⟨1, _⟩ => rfl

/-- The f32 pattern `0x41000000` is the real 8. -/
theorem ofBits_eight_f32 : Ideal.ofBits .f32 0x41000000#32 = ((8 : ℝ) : EReal) := by
  simp [Ideal.ofBits, Ideal.ieee, -EReal.coe_mul]; norm_num

/-! ## The accumulator's slices -/

variable (x : Cert.Spec.SX.Idx → EReal) (ids : Cert.Spec.SI.Idx → BitVec 32) (accv : FVec Ideal S8x264x256 .f32)
  (hacc : ∀ (b : Fin 8) (k : Fin 264) (s : Fin 256), accv (ix3 b k s) = Cert.Spec.acc x ids b k s)

include hacc

theorem sumFv_apply (b : Fin 8) (c : Fin 128) (s : Fin 256) :
    sumFv accv (ix3 b c s) = Cert.Spec.sumF x ids b c (s.val + 1) := by
  unfold sumFv
  rw [slice3_axis1_apply 0 accv slices_S8x264x256_S8x128x256_0_0_0 b c s ⟨c.val, by omega⟩ (by simp), hacc]
  unfold Cert.Spec.acc
  rw [dif_pos (show ((⟨c.val, by omega⟩ : Fin 264)).val < 128 from c.isLt)]

theorem sumF2v_apply (b : Fin 8) (c : Fin 128) (s : Fin 256) :
    sumF2v accv (ix3 b c s) = Cert.Spec.sumF2 x ids b c (s.val + 1) := by
  unfold sumF2v
  rw [slice3_axis1_apply 128 accv slices_S8x264x256_S8x128x256_0_128_0 b c s ⟨128 + c.val, by omega⟩ rfl, hacc]
  unfold Cert.Spec.acc
  rw [dif_neg (show ¬ ((⟨128 + c.val, by omega⟩ : Fin 264)).val < 128 by simp),
    dif_pos (show ((⟨128 + c.val, by omega⟩ : Fin 264)).val < 256 by have := c.isLt; simp; omega)]
  exact congrArg (fun c' => Cert.Spec.sumF2 x ids b c' (s.val + 1)) (Fin.ext (by simp))

theorem cntv_apply (b : Fin 8) (s : Fin 256) :
    cntv accv (ix2 b s) = Cert.Spec.cnt ids b (s.val + 1) := by
  unfold cntv
  rw [shapeCast_apply _ shapeCasts_S8x1x256_S8x256 (ix2 b s) (ix3 b (0 : Fin 1) s)
    (by rw [Shape.rowMajor_val_two, Shape.rowMajor_val_three]; show (b.val * 1 + 0) * 256 + s.val = b.val * 256 + s.val; omega)]
  rw [slice3_axis1_apply 256 accv slices_S8x264x256_S8x1x256_0_256_0 b (0 : Fin 1) s ⟨256, by omega⟩ rfl, hacc]
  unfold Cert.Spec.acc
  rw [dif_neg (show ¬ ((⟨256, by omega⟩ : Fin 264)).val < 128 by simp),
    dif_neg (show ¬ ((⟨256, by omega⟩ : Fin 264)).val < 256 by simp), if_pos rfl]

/-! ## The variance term, the mask, and the masked term -/

theorem nv_apply (b : Fin 8) (s : Fin 256) :
    nv accv (ix2 b s) = max (Cert.Spec.cnt ids b (s.val + 1)) 1 := by
  unfold nv
  rw [maximumf_apply, broadcastInDim_scalar_apply, constant_apply, Ideal.ofBits_one_f32, cntv_apply x ids accv hacc]

theorem varv_apply (b : Fin 8) (s : Fin 256) :
    varv accv (ix2 b s)
      = Cert.Spec.varTerm (fun c => Cert.Spec.sumF x ids b c (s.val + 1)) (fun c => Cert.Spec.sumF2 x ids b c (s.val + 1))
          (Cert.Spec.cnt ids b (s.val + 1)) := by
  have hr : S8x128x256.Reduces [1] S8x256 := by decide
  unfold varv Cert.Spec.varTerm
  rw [hostDivf_apply, subf_apply, hostDivf_apply, nv_apply x ids accv hacc, hostReduceAdd_apply, hostReduceAdd_apply,
    Ideal.hostReduceAdd_single _ hr, Ideal.hostReduceAdd_single _ hr, constant_apply, Ideal.ofBits_zero_f32, zero_add, zero_add]
  have e2 : (∑ k : Fin (S8x128x256.size 1), sumF2v accv (hr.lift (ix2 b s) k))
      = ∑ c : Fin 128, Cert.Spec.sumF2 x ids b c (s.val + 1) :=
    Finset.sum_congr rfl (fun (c : Fin 128) _ =>
      (congrArg (sumF2v accv) (lift_chan hr b s c)).trans (sumF2v_apply x ids accv hacc b c s))
  have e1 : (∑ k : Fin (S8x128x256.size 1), mulf (sumFv accv) (sumFv accv) (hr.lift (ix2 b s) k))
      = ∑ c : Fin 128, Cert.Spec.sumF x ids b c (s.val + 1) * Cert.Spec.sumF x ids b c (s.val + 1) :=
    Finset.sum_congr rfl (fun (c : Fin 128) _ =>
      (congrArg (mulf (sumFv accv) (sumFv accv)) (lift_chan hr b s c)).trans (by
        show sumFv accv (ix3 b c s) * sumFv accv (ix3 b c s) = _
        rw [sumFv_apply x ids accv hacc]))
  rw [e1, e2]

theorem validv_apply (b : Fin 8) (s : Fin 256) :
    validv accv (ix2 b s) = if 0 < Cert.Spec.cnt ids b (s.val + 1) then 1#1 else 0#1 := by
  unfold validv
  rw [cmpf_apply, broadcastInDim_scalar_apply, constant_apply, Ideal.ofBits_zero_f32, cntv_apply x ids accv hacc, Ideal.cmpf_def]
  simp only [Ideal.cmp]
  by_cases h : 0 < Cert.Spec.cnt ids b (s.val + 1) <;> simp [h]

theorem Vv_apply (b : Fin 8) (s : Fin 256) :
    Vv accv (ix2 b s) = Cert.Spec.V x ids b (s.val + 1) := by
  unfold Vv Cert.Spec.V
  rw [select_apply, validv_apply x ids accv hacc, varv_apply x ids accv hacc, broadcastInDim_scalar_apply, constant_apply,
    Ideal.ofBits_zero_f32]
  by_cases h : 0 < Cert.Spec.cnt ids b (s.val + 1)
  · rw [if_pos h, if_pos h, select_one]
  · rw [if_neg h, if_neg h, select_zero]

/-! ## The number of labels that occur, an image's loss, and the mean -/

theorem ninstv_apply (b : Fin 8) :
    ninstv accv (ix1 b) = (((Cert.Spec.nInst ids b : ℕ) : ℝ) : EReal) := by
  unfold ninstv
  rw [sitofp_apply]
  have hc := StableHlo.Predicate.toNat_reduce_count_cols (n := 8) (m := 256) (by norm_num) (validv accv) natLt_1_32
    reducesTo_S8x256_S8_d1 h_S_ (ix1 b)
  have hset : (Finset.univ.filter (fun q : Fin 256 => validv accv (StableHlo.Predicate.ij ((ix1 b : S8.Idx) 0) q) = 1#1))
      = Finset.univ.filter (fun q : Fin 256 => 0 < Cert.Spec.cnt ids b (q.val + 1)) := by
    refine Finset.filter_congr (fun q _ => ?_)
    show validv accv (StableHlo.Predicate.ij b q) = 1#1 ↔ _
    rw [ij_eq_ix2, validv_apply x ids accv hacc]
    by_cases h : 0 < Cert.Spec.cnt ids b (q.val + 1) <;> simp [h]
  rw [hset] at hc
  have hle : (Finset.univ.filter (fun q : Fin 256 => 0 < Cert.Spec.cnt ids b (q.val + 1))).card ≤ 256 := by
    have := Finset.card_le_univ (Finset.univ.filter (fun q : Fin 256 => 0 < Cert.Spec.cnt ids b (q.val + 1)))
    simpa using this
  show (((Host.reduce IntOp.addi (extui 32 (validv accv) natLt_1_32) (constantI S_ 32 0#32) reducesTo_S8x256_S8_d1 h_S_
    (ix1 b)).toInt : ℝ) : EReal) = _
  rw [BitVec.toInt_eq_toNat_of_lt (by rw [hc]; omega), hc]
  unfold Cert.Spec.nInst
  norm_cast

theorem Lv_apply (b : Fin 8) :
    Lv accv (ix1 b) = Cert.Spec.Limg x ids b := by
  have hr : S8x256.Reduces [1] S8 := by decide
  unfold Lv Cert.Spec.Limg
  rw [select_apply, cmpf_apply, Ideal.cmpf_def, hostDivf_apply, maximumf_apply, hostReduceAdd_apply,
    Ideal.hostReduceAdd_single _ hr, broadcastInDim_scalar_apply, broadcastInDim_scalar_apply]
  simp only [ constant_apply, Ideal.ofBits_zero_f32, Ideal.ofBits_one_f32, zero_add,
    ninstv_apply x ids accv hacc, Ideal.cmp]
  have eV : (∑ k : Fin (S8x256.size 1), Vv accv (hr.lift (ix1 b) k)) = ∑ s : Fin 256, Cert.Spec.V x ids b (s.val + 1) :=
    Finset.sum_congr rfl (fun (s : Fin 256) _ =>
      (congrArg (Vv accv) (lift_lab hr b s)).trans (Vv_apply x ids accv hacc b s))
  rw [eV]
  have hpos : (0 : EReal) < (((Cert.Spec.nInst ids b : ℕ) : ℝ) : EReal) ↔ 0 < Cert.Spec.nInst ids b := by
    rw [← EReal.coe_zero, EReal.coe_lt_coe_iff]; exact Nat.cast_pos
  by_cases h : 0 < Cert.Spec.nInst ids b
  · rw [if_pos h, show decide ((0 : EReal) < (((Cert.Spec.nInst ids b : ℕ) : ℝ) : EReal)) = true from decide_eq_true (hpos.mpr h)]
    exact select_one _ _
  · rw [if_neg h, show decide ((0 : EReal) < (((Cert.Spec.nInst ids b : ℕ) : ℝ) : EReal)) = false from
      decide_eq_false (fun h' => h (hpos.mp h'))]
    exact select_zero _ _

/-- The kernel program's host tail, applied to the accumulator the region leaves, is the loss. -/
theorem tail_eq : KerVal.tail (F := Ideal) accv = fun _ => Cert.Spec.loss x ids := by
  funext j
  rw [tail_stages, hostDivf_apply, hostReduceAdd_apply, Ideal.hostReduceAdd_total _ (fun b => b.elim0), constant_apply, constant_apply,
    Ideal.ofBits_zero_f32, zero_add, ofBits_eight_f32]
  unfold Cert.Spec.loss
  have eL : (∑ i : S8.Idx, Lv accv i) = ∑ b : Fin 8, Cert.Spec.Limg x ids b :=
    (Equiv.sum_comp (idxEquiv1 (n := 8)).symm (Lv accv)).symm.trans
      (Finset.sum_congr rfl (fun (b : Fin 8) _ => Lv_apply x ids accv hacc b))
  rw [eL]

end Cert.KernelIdeal.KerTailVal

end
-- ==== Proof.RefDefs.lean ====
/-
  The reference's result as one function of its two arguments, stage by stage: the pixels-first feature matrix,
  the segment index of every pixel (label + 257 · image), the three scatter-added sums over the 8 · 257 segments,
  and the host tail that turns them into the loss.
-/
import proofs.«403733_j44710609551555_3_alg».proof.ReferenceIdeal

noncomputable section

namespace Cert.ReferenceIdeal.RefVal

open Idealize.ShloMosaic Cert.ReferenceIdeal

variable {F : FTy → Type} [FloatOps F] [Facts]
open Facts₀ Facts

/-- The features as a [8·512·512, 128] matrix: pixel-major, channel-minor. -/
def flat (x : FVec F S8x128x512x512 .f32) : FVec F S2097152x128 .f32 :=
  let v0 : FVec F S8x128x262144 .f32 := shapeCast S8x128x262144 x shapeCasts_S8x128x512x512_S8x128x262144
  let v1 : FVec F S8x262144x128 .f32 := transpose S8x262144x128 [0, 2, 1] v0 transposes_S8x128x262144_S8x262144x128_0_2_1
  shapeCast S2097152x128 v1 shapeCasts_S8x262144x128_S2097152x128

/-- Every pixel's segment: its label plus 257 times its image's number, as a column of scatter indices. -/
def seg (ids : IVec S8x512x512 32) : IVec S2097152x1 32 :=
  let v3 : IVec S8x262144 32 := shapeCast S8x262144 ids shapeCasts_S8x512x512_S8x262144
  let v4 : IVec S8 32 := iotaInDim S8 32 0
  let v5 : IVec S8x1 32 := broadcastInDim S8x1 ![0] bcast_S8_S8x1_0 v4
  let c : IVec S_ 32 := constantI S_ 32 257#32
  let v6 : IVec S8x1 32 := broadcastInDim S8x1 ![] bcast_S_S8x1 c
  let v7 : IVec S8x1 32 := muli v5 v6
  let v8 : IVec S8x262144 32 := broadcastInDim S8x262144 ![0, 1] bcast_S8x1_S8x262144_0_1 v7
  let v9 : IVec S8x262144 32 := addi v3 v8
  let v10 : IVec S2097152 32 := shapeCast S2097152 v9 shapeCasts_S8x262144_S2097152
  broadcastInDim S2097152x1 ![0] bcast_S2097152_S2097152x1_0 v10

/-- The per-segment channel sums: the pixel rows scatter-added at their segments. -/
def sumsF (x : FVec F S8x128x512x512 .f32) (ids : IVec S8x512x512 32) : FVec F S2056x128 .f32 :=
  let cst : FVec F S_ .f32 := constant S_ .f32 0x00000000#32
  let v11 : FVec F S2056x128 .f32 := broadcastInDim S2056x128 ![] bcast_S_S2056x128 cst
  Host.scatterAdd scatter_S2056x128_S2097152x1_S2097152x128_1_0_0_1 v11 (seg ids) (flat x)

/-- The per-segment sums of squares. -/
def sumsF2 (x : FVec F S8x128x512x512 .f32) (ids : IVec S8x512x512 32) : FVec F S2056x128 .f32 :=
  let v14 : FVec F S2097152x128 .f32 := mulf (flat x) (flat x)
  let cst : FVec F S_ .f32 := constant S_ .f32 0x00000000#32
  let v15 : FVec F S2056x128 .f32 := broadcastInDim S2056x128 ![] bcast_S_S2056x128 cst
  Host.scatterAdd scatter_S2056x128_S2097152x1_S2097152x128_1_0_0_1 v15 (seg ids) v14

/-- The per-segment pixel counts. -/
def counts (ids : IVec S8x512x512 32) : FVec F S2056 .f32 :=
  let cst1 : FVec F S_ .f32 := constant S_ .f32 0x3F800000#32
  let v18 : FVec F S2097152 .f32 := broadcastInDim S2097152 ![] bcast_S_S2097152 cst1
  let cst2 : FVec F S_ .f32 := constant S_ .f32 0x00000000#32
  let v19 : FVec F S2056 .f32 := broadcastInDim S2056 ![] bcast_S_S2056 cst2
  Host.scatterAdd scatter_S2056_S2097152x1_S2097152_n_0_0_1 v19 (seg ids) v18

/-- The segment number modulo 257 (jnp's remainder, sign-corrected): zero exactly at the background segments. -/
def segMod : IVec S2056 32 :=
  let v32 : IVec S2056 32 := iotaInDim S2056 32 0
  let c7 : IVec S_ 32 := constantI S_ 32 257#32
  let r0 : IVec S_ 32 := id c7
  let rc : IVec S_ 32 := constantI S_ 32 0#32
  let r1 : IVec S_ 1 := cmpi .eq r0 rc
  let rc0 : IVec S_ 32 := constantI S_ 32 1#32
  let r2 : IVec S_ 32 := select r1 rc0 r0
  let r3 : IVec S2056 32 := broadcastInDim S2056 ![] bcast_S_S2056 r2
  let r4 : IVec S2056 32 := Host.remsi v32 r3
  let rc1 : IVec S_ 32 := constantI S_ 32 0#32
  let r5 : IVec S2056 32 := broadcastInDim S2056 ![] bcast_S_S2056 rc1
  let r6 : IVec S2056 1 := cmpi .ne r4 r5
  let rc2 : IVec S_ 32 := constantI S_ 32 0#32
  let r7 : IVec S2056 32 := broadcastInDim S2056 ![] bcast_S_S2056 rc2
  let r8 : IVec S2056 1 := cmpi .slt r4 r7
  let rc3 : IVec S_ 32 := constantI S_ 32 0#32
  let r9 : IVec S_ 1 := cmpi .slt r2 rc3
  let r10 : IVec S2056 1 := broadcastInDim S2056 ![] bcast_S_S2056 r9
  let r11 : IVec S2056 1 := cmpi .ne r8 r10
  let r12 : IVec S2056 1 := andi r11 r6
  let r13 : IVec S2056 32 := broadcastInDim S2056 ![] bcast_S_S2056 r2
  let r14 : IVec S2056 32 := addi r4 r13
  select r12 r14 r4

/-- The host tail: from the three per-segment sums to the loss. -/
def tail (sf sf2 : FVec F S2056x128 .f32) (cn : FVec F S2056 .f32) : FVec F S_ .f32 :=
  let cst3 : FVec F S_ .f32 := constant S_ .f32 0x3F800000#32
  let v22 : FVec F S2056 .f32 := broadcastInDim S2056 ![] bcast_S_S2056 cst3
  let v23 : FVec F S2056 .f32 := maximumf cn v22
  let cst4 : FVec F S_ .f32 := constant S_ .f32 0x00000000#32
  let v24 : FVec F S2056 .f32 := Host.reduceAdd sf2 cst4 reducesTo_S2056x128_S2056_d1 h_S_
  let v25 : FVec F S2056x128 .f32 := mulf sf sf
  let cst5 : FVec F S_ .f32 := constant S_ .f32 0x00000000#32
  let v26 : FVec F S2056 .f32 := Host.reduceAdd v25 cst5 reducesTo_S2056x128_S2056_d1 h_S_
  let v27 : FVec F S2056 .f32 := Host.divf v26 v23
  let v28 : FVec F S2056 .f32 := subf v24 v27
  let v29 : FVec F S2056 .f32 := Host.divf v28 v23
  let cst6 : FVec F S_ .f32 := constant S_ .f32 0x00000000#32
  let v30 : FVec F S2056 .f32 := broadcastInDim S2056 ![] bcast_S_S2056 cst6
  let v31 : IVec S2056 1 := cmpf .ogt cn v30
  let v33 : IVec S2056 32 := segMod
  let c8 : IVec S_ 32 := constantI S_ 32 0#32
  let v34 : IVec S2056 32 := broadcastInDim S2056 ![] bcast_S_S2056 c8
  let v35 : IVec S2056 1 := cmpi .ne v33 v34
  let v36 : IVec S2056 1 := andi v31 v35
  let cst9 : FVec F S_ .f32 := constant S_ .f32 0x00000000#32
  let w0 : FVec F S_ .f32 := id cst9
  let w1 : FVec F S2056 .f32 := broadcastInDim S2056 ![] bcast_S_S2056 w0
  let v37 : FVec F S2056 .f32 := select v36 v29 w1
  let v38 : FVec F S8x257 .f32 := shapeCast S8x257 v37 shapeCasts_S2056_S8x257
  let v39 : IVec S8x257 1 := shapeCast S8x257 v36 shapeCasts_S2056_S8x257
  let v40 : IVec S8x257 32 := extui 32 v39 natLt_1_32
  let c10 : IVec S_ 32 := constantI S_ 32 0#32
  let v41 : IVec S8 32 := Host.reduce IntOp.addi v40 c10 reducesTo_S8x257_S8_d1 h_S_
  let v42 : FVec F S8 .f32 := sitofp .f32 v41
  let cst11 : FVec F S_ .f32 := constant S_ .f32 0x00000000#32
  let v43 : FVec F S8 .f32 := broadcastInDim S8 ![] bcast_S_S8 cst11
  let v44 : IVec S8 1 := cmpf .ogt v42 v43
  let cst12 : FVec F S_ .f32 := constant S_ .f32 0x00000000#32
  let v45 : FVec F S8 .f32 := Host.reduceAdd v38 cst12 reducesTo_S8x257_S8_d1 h_S_
  let cst13 : FVec F S_ .f32 := constant S_ .f32 0x3F800000#32
  let v46 : FVec F S8 .f32 := broadcastInDim S8 ![] bcast_S_S8 cst13
  let v47 : FVec F S8 .f32 := maximumf v42 v46
  let v48 : FVec F S8 .f32 := Host.divf v45 v47
  let cst14 : FVec F S_ .f32 := constant S_ .f32 0x00000000#32
  let u0 : FVec F S_ .f32 := id cst14
  let u1 : FVec F S8 .f32 := broadcastInDim S8 ![] bcast_S_S8 u0
  let v49 : FVec F S8 .f32 := select v44 v48 u1
  let cst15 : FVec F S_ .f32 := constant S_ .f32 0x00000000#32
  let v50 : FVec F S_ .f32 := Host.reduceAdd v49 cst15 reducesTo_S8_S_d0 h_S_
  let cst16 : FVec F S_ .f32 := constant S_ .f32 0x41000000#32
  Host.divf v50 cst16

/-- The reference's result as a function of its arguments. -/
def res (x : FVec F S8x128x512x512 .f32) (ids : IVec S8x512x512 32) : FVec F S_ .f32 :=
  tail (sumsF x ids) (sumsF2 x ids) (counts (F := F) ids)

end Cert.ReferenceIdeal.RefVal

end
-- ==== Proof.RefRun.lean ====
/-
  The reference's run. @main of the reference is a straight line of host operations once its three calls are
  substituted by their callees' bodies over the calls' own buffers (the sign-corrected remainder, with the scalar
  select nested in it, and the two selects against a broadcast zero): ninety-five operations in all. Every weakly
  fair execution of it terminates, the result buffer ends at the operations' composed value of the two arguments'
  launch contents — the function `RefVal.res`, which follows the program operation by operation — and the two
  argument buffers are left as they were.
-/
import proofs.«403733_j44710609551555_3_alg».proof.Proof.Gen.ReferenceIdeal
import proofs.«403733_j44710609551555_3_alg».proof.Proof.RefDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call replaced by its callee's operations over that call's buffers: the
    remainder's twenty with the scalar select inside it, and three for each select against a broadcast zero
    (the zero converted to its own type, broadcast, the select). -/
abbrev ops : List (HloOp τ sig (Elt F)) :=
  [ reshape main_arg0 main_v0 rfl shapeCasts_S8x128x512x512_S8x128x262144,
    unary main_v0 main_v1 ((transpose S8x262144x128 [0, 2, 1] · transposes_S8x128x262144_S8x262144x128_0_2_1) : (⟨S8x128x262144, .f32⟩ : BufTy).Contents (Elt F) → (⟨S8x262144x128, .f32⟩ : BufTy).Contents (Elt F)),
    reshape main_v1 main_v2 rfl shapeCasts_S8x262144x128_S2097152x128,
    reshape main_arg1 main_v3 rfl shapeCasts_S8x512x512_S8x262144,
    nullary main_v4 (iotaInDim S8 32 0),
    unary main_v4 main_v5 (broadcastInDim S8x1 ![0] bcast_S8_S8x1_0 : (⟨S8, .i32⟩ : BufTy).Contents (Elt F) → (⟨S8x1, .i32⟩ : BufTy).Contents (Elt F)),
    nullary main_c (constantI S_ 32 257#32),
    unary main_c main_v6 (broadcastInDim S8x1 ![] bcast_S_S8x1 : (⟨S_, .i32⟩ : BufTy).Contents (Elt F) → (⟨S8x1, .i32⟩ : BufTy).Contents (Elt F)),
    binary main_v5 main_v6 main_v7 (muli : (⟨S8x1, .i32⟩ : BufTy).Contents (Elt F) → (⟨S8x1, .i32⟩ : BufTy).Contents (Elt F) → (⟨S8x1, .i32⟩ : BufTy).Contents (Elt F)),
    unary main_v7 main_v8 (broadcastInDim S8x262144 ![0, 1] bcast_S8x1_S8x262144_0_1 : (⟨S8x1, .i32⟩ : BufTy).Contents (Elt F) → (⟨S8x262144, .i32⟩ : BufTy).Contents (Elt F)),
    binary main_v3 main_v8 main_v9 (addi : (⟨S8x262144, .i32⟩ : BufTy).Contents (Elt F) → (⟨S8x262144, .i32⟩ : BufTy).Contents (Elt F) → (⟨S8x262144, .i32⟩ : BufTy).Contents (Elt F)),
    reshape main_v9 main_v10 rfl shapeCasts_S8x262144_S2097152,
    nullary main_cst (constant S_ .f32 0x00000000#32),
    unary main_cst main_v11 (broadcastInDim S2056x128 ![] bcast_S_S2056x128 : (⟨S_, .f32⟩ : BufTy).Contents (Elt F) → (⟨S2056x128, .f32⟩ : BufTy).Contents (Elt F)),
    unary main_v10 main_v12 (broadcastInDim S2097152x1 ![0] bcast_S2097152_S2097152x1_0 : (⟨S2097152, .i32⟩ : BufTy).Contents (Elt F) → (⟨S2097152x1, .i32⟩ : BufTy).Contents (Elt F)),
    ternary main_v11 main_v12 main_v2 main_v13 ((fun x i u => Host.scatterAdd scatter_S2056x128_S2097152x1_S2097152x128_1_0_0_1 x i u) : (⟨S2056x128, .f32⟩ : BufTy).Contents (Elt F) → (⟨S2097152x1, .i32⟩ : BufTy).Contents (Elt F) → (⟨S2097152x128, .f32⟩ : BufTy).Contents (Elt F) → (⟨S2056x128, .f32⟩ : BufTy).Contents (Elt F)),
    binary main_v2 main_v2 main_v14 (mulf : (⟨S2097152x128, .f32⟩ : BufTy).Contents (Elt F) → (⟨S2097152x128, .f32⟩ : BufTy).Contents (Elt F) → (⟨S2097152x128, .f32⟩ : BufTy).Contents (Elt F)),
    nullary main_cst_0 (constant S_ .f32 0x00000000#32),
    unary main_cst_0 main_v15 (broadcastInDim S2056x128 ![] bcast_S_S2056x128 : (⟨S_, .f32⟩ : BufTy).Contents (Elt F) → (⟨S2056x128, .f32⟩ : BufTy).Contents (Elt F)),
    unary main_v10 main_v16 (broadcastInDim S2097152x1 ![0] bcast_S2097152_S2097152x1_0 : (⟨S2097152, .i32⟩ : BufTy).Contents (Elt F) → (⟨S2097152x1, .i32⟩ : BufTy).Contents (Elt F)),
    ternary main_v15 main_v16 main_v14 main_v17 ((fun x i u => Host.scatterAdd scatter_S2056x128_S2097152x1_S2097152x128_1_0_0_1 x i u) : (⟨S2056x128, .f32⟩ : BufTy).Contents (Elt F) → (⟨S2097152x1, .i32⟩ : BufTy).Contents (Elt F) → (⟨S2097152x128, .f32⟩ : BufTy).Contents (Elt F) → (⟨S2056x128, .f32⟩ : BufTy).Contents (Elt F)),
    nullary main_cst_1 (constant S_ .f32 0x3F800000#32),
    unary main_cst_1 main_v18 (broadcastInDim S2097152 ![] bcast_S_S2097152 : (⟨S_, .f32⟩ : BufTy).Contents (Elt F) → (⟨S2097152, .f32⟩ : BufTy).Contents (Elt F)),
    nullary main_cst_2 (constant S_ .f32 0x00000000#32),
    unary main_cst_2 main_v19 (broadcastInDim S2056 ![] bcast_S_S2056 : (⟨S_, .f32⟩ : BufTy).Contents (Elt F) → (⟨S2056, .f32⟩ : BufTy).Contents (Elt F)),
    unary main_v10 main_v20 (broadcastInDim S2097152x1 ![0] bcast_S2097152_S2097152x1_0 : (⟨S2097152, .i32⟩ : BufTy).Contents (Elt F) → (⟨S2097152x1, .i32⟩ : BufTy).Contents (Elt F)),
    ternary main_v19 main_v20 main_v18 main_v21 ((fun x i u => Host.scatterAdd scatter_S2056_S2097152x1_S2097152_n_0_0_1 x i u) : (⟨S2056, .f32⟩ : BufTy).Contents (Elt F) → (⟨S2097152x1, .i32⟩ : BufTy).Contents (Elt F) → (⟨S2097152, .f32⟩ : BufTy).Contents (Elt F) → (⟨S2056, .f32⟩ : BufTy).Contents (Elt F)),
    nullary main_cst_3 (constant S_ .f32 0x3F800000#32),
    unary main_cst_3 main_v22 (broadcastInDim S2056 ![] bcast_S_S2056 : (⟨S_, .f32⟩ : BufTy).Contents (Elt F) → (⟨S2056, .f32⟩ : BufTy).Contents (Elt F)),
    binary main_v21 main_v22 main_v23 (maximumf : (⟨S2056, .f32⟩ : BufTy).Contents (Elt F) → (⟨S2056, .f32⟩ : BufTy).Contents (Elt F) → (⟨S2056, .f32⟩ : BufTy).Contents (Elt F)),
    nullary main_cst_4 (constant S_ .f32 0x00000000#32),
    binary main_v17 main_cst_4 main_v24 ((fun x v => Host.reduceAdd x v reducesTo_S2056x128_S2056_d1 h_S_) : (⟨S2056x128, .f32⟩ : BufTy).Contents (Elt F) → (⟨S_, .f32⟩ : BufTy).Contents (Elt F) → (⟨S2056, .f32⟩ : BufTy).Contents (Elt F)),
    binary main_v13 main_v13 main_v25 (mulf : (⟨S2056x128, .f32⟩ : BufTy).Contents (Elt F) → (⟨S2056x128, .f32⟩ : BufTy).Contents (Elt F) → (⟨S2056x128, .f32⟩ : BufTy).Contents (Elt F)),
    nullary main_cst_5 (constant S_ .f32 0x00000000#32),
    binary main_v25 main_cst_5 main_v26 ((fun x v => Host.reduceAdd x v reducesTo_S2056x128_S2056_d1 h_S_) : (⟨S2056x128, .f32⟩ : BufTy).Contents (Elt F) → (⟨S_, .f32⟩ : BufTy).Contents (Elt F) → (⟨S2056, .f32⟩ : BufTy).Contents (Elt F)),
    binary main_v26 main_v23 main_v27 (Host.divf : (⟨S2056, .f32⟩ : BufTy).Contents (Elt F) → (⟨S2056, .f32⟩ : BufTy).Contents (Elt F) → (⟨S2056, .f32⟩ : BufTy).Contents (Elt F)),
    binary main_v24 main_v27 main_v28 (subf : (⟨S2056, .f32⟩ : BufTy).Contents (Elt F) → (⟨S2056, .f32⟩ : BufTy).Contents (Elt F) → (⟨S2056, .f32⟩ : BufTy).Contents (Elt F)),
    binary main_v28 main_v23 main_v29 (Host.divf : (⟨S2056, .f32⟩ : BufTy).Contents (Elt F) → (⟨S2056, .f32⟩ : BufTy).Contents (Elt F) → (⟨S2056, .f32⟩ : BufTy).Contents (Elt F)),
    nullary main_cst_6 (constant S_ .f32 0x00000000#32),
    unary main_cst_6 main_v30 (broadcastInDim S2056 ![] bcast_S_S2056 : (⟨S_, .f32⟩ : BufTy).Contents (Elt F) → (⟨S2056, .f32⟩ : BufTy).Contents (Elt F)),
    binary main_v21 main_v30 main_v31 (cmpf .ogt : (⟨S2056, .f32⟩ : BufTy).Contents (Elt F) → (⟨S2056, .f32⟩ : BufTy).Contents (Elt F) → (⟨S2056, .i1⟩ : BufTy).Contents (Elt F)),
    nullary main_v32 (iotaInDim S2056 32 0),
    nullary main_c_7 (constantI S_ 32 257#32),
    TRef.unary (.of main_c_7 : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S2056 ![] bcast_S_S2056),
    TRef.binary (.of main_v32 : TRef sig ⟨S2056, .i32⟩) main_call0.v3 main_call0.v4 Host.remsi,
    TRef.nullary main_call0.c_1 (constantI S_ 32 0#32),
    TRef.unary main_call0.c_1 main_call0.v5 (broadcastInDim S2056 ![] bcast_S_S2056),
    TRef.binary main_call0.v4 main_call0.v5 main_call0.v6 (cmpi .ne),
    TRef.nullary main_call0.c_2 (constantI S_ 32 0#32),
    TRef.unary main_call0.c_2 main_call0.v7 (broadcastInDim S2056 ![] bcast_S_S2056),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S2056 ![] bcast_S_S2056),
    TRef.binary main_call0.v8 main_call0.v10 main_call0.v11 (cmpi .ne),
    TRef.binary main_call0.v11 main_call0.v6 main_call0.v12 andi,
    TRef.unary main_call0.call0.v0 main_call0.v13 (broadcastInDim S2056 ![] bcast_S_S2056),
    TRef.binary main_call0.v4 main_call0.v13 main_call0.v14 addi,
    TRef.ternary main_call0.v12 main_call0.v14 main_call0.v4 main_call0.v15 select,
    nullary main_c_8 (constantI S_ 32 0#32),
    unary main_c_8 main_v34 (broadcastInDim S2056 ![] bcast_S_S2056 : (⟨S_, .i32⟩ : BufTy).Contents (Elt F) → (⟨S2056, .i32⟩ : BufTy).Contents (Elt F)),
    binary main_v33 main_v34 main_v35 (cmpi .ne : (⟨S2056, .i32⟩ : BufTy).Contents (Elt F) → (⟨S2056, .i32⟩ : BufTy).Contents (Elt F) → (⟨S2056, .i1⟩ : BufTy).Contents (Elt F)),
    binary main_v31 main_v35 main_v36 (andi : (⟨S2056, .i1⟩ : BufTy).Contents (Elt F) → (⟨S2056, .i1⟩ : BufTy).Contents (Elt F) → (⟨S2056, .i1⟩ : BufTy).Contents (Elt F)),
    nullary main_cst_9 (constant S_ .f32 0x00000000#32),
    TRef.unary (.of main_cst_9 : TRef sig ⟨S_, .f32⟩) main_call1.v0 id,
    TRef.unary main_call1.v0 main_call1.v1 (broadcastInDim S2056 ![] bcast_S_S2056),
    TRef.ternary (.of main_v36 : TRef sig ⟨S2056, .i1⟩) (.of main_v29 : TRef sig ⟨S2056, .f32⟩) main_call1.v1 main_call1.v2 select,
    reshape main_v37 main_v38 rfl shapeCasts_S2056_S8x257,
    reshape main_v36 main_v39 rfl shapeCasts_S2056_S8x257,
    unary main_v39 main_v40 ((extui 32 · natLt_1_32) : (⟨S8x257, .i1⟩ : BufTy).Contents (Elt F) → (⟨S8x257, .i32⟩ : BufTy).Contents (Elt F)),
    nullary main_c_10 (constantI S_ 32 0#32),
    binary main_v40 main_c_10 main_v41 ((fun x v => Host.reduce IntOp.addi x v reducesTo_S8x257_S8_d1 h_S_) : (⟨S8x257, .i32⟩ : BufTy).Contents (Elt F) → (⟨S_, .i32⟩ : BufTy).Contents (Elt F) → (⟨S8, .i32⟩ : BufTy).Contents (Elt F)),
    unary main_v41 main_v42 (sitofp .f32 : (⟨S8, .i32⟩ : BufTy).Contents (Elt F) → (⟨S8, .f32⟩ : BufTy).Contents (Elt F)),
    nullary main_cst_11 (constant S_ .f32 0x00000000#32),
    unary main_cst_11 main_v43 (broadcastInDim S8 ![] bcast_S_S8 : (⟨S_, .f32⟩ : BufTy).Contents (Elt F) → (⟨S8, .f32⟩ : BufTy).Contents (Elt F)),
    binary main_v42 main_v43 main_v44 (cmpf .ogt : (⟨S8, .f32⟩ : BufTy).Contents (Elt F) → (⟨S8, .f32⟩ : BufTy).Contents (Elt F) → (⟨S8, .i1⟩ : BufTy).Contents (Elt F)),
    nullary main_cst_12 (constant S_ .f32 0x00000000#32),
    binary main_v38 main_cst_12 main_v45 ((fun x v => Host.reduceAdd x v reducesTo_S8x257_S8_d1 h_S_) : (⟨S8x257, .f32⟩ : BufTy).Contents (Elt F) → (⟨S_, .f32⟩ : BufTy).Contents (Elt F) → (⟨S8, .f32⟩ : BufTy).Contents (Elt F)),
    nullary main_cst_13 (constant S_ .f32 0x3F800000#32),
    unary main_cst_13 main_v46 (broadcastInDim S8 ![] bcast_S_S8 : (⟨S_, .f32⟩ : BufTy).Contents (Elt F) → (⟨S8, .f32⟩ : BufTy).Contents (Elt F)),
    binary main_v42 main_v46 main_v47 (maximumf : (⟨S8, .f32⟩ : BufTy).Contents (Elt F) → (⟨S8, .f32⟩ : BufTy).Contents (Elt F) → (⟨S8, .f32⟩ : BufTy).Contents (Elt F)),
    binary main_v45 main_v47 main_v48 (Host.divf : (⟨S8, .f32⟩ : BufTy).Contents (Elt F) → (⟨S8, .f32⟩ : BufTy).Contents (Elt F) → (⟨S8, .f32⟩ : BufTy).Contents (Elt F)),
    nullary main_cst_14 (constant S_ .f32 0x00000000#32),
    TRef.unary (.of main_cst_14 : TRef sig ⟨S_, .f32⟩) main_call2.v0 id,
    TRef.unary main_call2.v0 main_call2.v1 (broadcastInDim S8 ![] bcast_S_S8),
    TRef.ternary (.of main_v44 : TRef sig ⟨S8, .i1⟩) (.of main_v48 : TRef sig ⟨S8, .f32⟩) main_call2.v1 main_call2.v2 select,
    nullary main_cst_15 (constant S_ .f32 0x00000000#32),
    binary main_v49 main_cst_15 main_v50 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_16 (constant S_ .f32 0x41000000#32),
    binary main_v50 main_cst_16 main_v51 (Host.divf : (⟨S_, .f32⟩ : BufTy).Contents (Elt F) → (⟨S_, .f32⟩ : BufTy).Contents (Elt F) → (⟨S_, .f32⟩ : BufTy).Contents (Elt F)) ]

-- ninety-five binds re-associated: the rewrite under the chain recurses once per statement
set_option maxRecDepth 8192 in
set_option maxHeartbeats 4000000 in
/-- @main is that straight line: the two windows in order, the callees' definitions unfolded at their calls and
    the calls' records at their fields; both sides are one chain of steps once sequencing is re-associated. -/
theorem main_eq (c : Dev nD) : main (F := F) c = seq ops := by
  simp only [main, main_part0, main_part1, fn_remainder.body, fn_where.body, fn_where_0.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., unary_bufs_sub .., reshape_bufs_sub .., reshape_bufs_sub .., nullary_bufs_sub .., unary_bufs_sub ..,
    nullary_bufs_sub .., unary_bufs_sub .., binary_bufs_sub .., unary_bufs_sub .., binary_bufs_sub .., reshape_bufs_sub ..,
    nullary_bufs_sub .., unary_bufs_sub .., unary_bufs_sub .., ternary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    nullary_bufs_sub .., binary_bufs_sub .., binary_bufs_sub .., nullary_bufs_sub .., binary_bufs_sub .., binary_bufs_sub ..,
    binary_bufs_sub .., binary_bufs_sub .., nullary_bufs_sub .., unary_bufs_sub .., binary_bufs_sub .., nullary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., binary_bufs_sub .., nullary_bufs_sub .., unary_bufs_sub .., unary_bufs_sub .., ternary_bufs_sub ..,
    reshape_bufs_sub .., reshape_bufs_sub .., unary_bufs_sub .., nullary_bufs_sub .., binary_bufs_sub .., unary_bufs_sub ..,
    nullary_bufs_sub .., unary_bufs_sub .., binary_bufs_sub .., nullary_bufs_sub .., binary_bufs_sub .., nullary_bufs_sub ..,
    unary_bufs_sub .., binary_bufs_sub .., binary_bufs_sub .., nullary_bufs_sub .., unary_bufs_sub .., unary_bufs_sub ..,
    ternary_bufs_sub .., nullary_bufs_sub .., binary_bufs_sub .., nullary_bufs_sub .., binary_bufs_sub ..⟩

attribute [local irreducible] Host.reduce Host.reduceAdd Host.scatterAdd Host.remsi in
set_option maxRecDepth 8192 in
set_option maxHeartbeats 4000000 in
/-- The fold at the result buffer is the reference's value of the two arguments' contents: each operation's result
    at its own buffer is its function of its operands' contents, at any other buffer what was there; what is left
    is the same composition of the same operations on both sides. The reductions, the scatter-adds and the
    remainder stay folded meanwhile: the equation never looks inside them. -/
theorem out_eq (V : Valuation τ sig (Elt F)) :
    after ops V (main_v51 : DevRef τ sig)
      = RefVal.res (V (main_arg0 : DevRef τ sig)) (V (main_arg1 : DevRef τ sig)) := by
  after_results_simp
  rfl

set_option maxRecDepth 8192 in
set_option maxHeartbeats 4000000 in
/-- No operation writes the first argument. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes the second argument. -/
theorem arg1_eq (V : Valuation τ sig (Elt F)) :
    after ops V (main_arg1 : DevRef τ sig) = V (main_arg1 : DevRef τ sig) := by
  after_results_simp

set_option maxRecDepth 8192 in
set_option maxHeartbeats 4000000 in
/-- On every device, for any float values, from any memory with zero counters: every weakly fair execution of
    @main terminates with the result buffer at the reference's value of the arguments' launch contents, the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v51)
          = Cert.ReferenceIdeal.RefVal.res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v51).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefSumsA.lean ====
/-
  Tools for the reference's three scatter-added sums read at one segment.

  The reference adds every pixel row of the pixels-first feature matrix (row 262144·b' + 512·h + w is pixel (b', h, w),
  column c its channel c) into row seg = label + 257·b' of a zero [2056, 128] array.  An update lands on the row its
  scatter index names, read as a signed integer and not clamped; under the labels' range 0..256 that index is the natural
  number label + 257·b' < 2056, and  label + 257·b' = 257·b + j  with label, j ≤ 256 forces b' = b and label = j.  So row
  257·b + j receives exactly image b's pixels labelled j: the sum the specification calls sumF (sumF2 for the squares,
  cnt for the constant one).  Only the commutative-monoid laws of + on the extended reals are used.
-/
import proofs.«403733_j44710609551555_3_alg».proof.Proof.Spec
import proofs.«403733_j44710609551555_3_alg».proof.Proof.RefDefs
import Idealize.ShloMosaic.Lib.IdealHost
import Idealize.ShloMosaic.Lib.Pipeline.Value
import Idealize.ShloMosaic.Lib.StableHlo.Predicate

noncomputable section

namespace Cert.ReferenceIdeal.RefSums

open Idealize.ShloMosaic Idealize.ShloMosaic.ValueIdx Cert.ReferenceIdeal
open scoped BigOperators

/-! ## Where a scatter's update lands -/

/-- An update lands on operand index `i` exactly when, on every operand axis, its start plus its window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h]
    constructor
    · intro e a
      have e' := Option.some.inj e
      rw [← e']
      show _ = (((d.start j idx a + (d.window j a : ℤ)).toNat : ℕ) : ℤ)
      rw [Int.toNat_of_nonneg (h a).1]
    · intro hall
      congr 1
      funext a
      refine Fin.ext ?_
      show (d.start j idx a + (d.window j a : ℤ)).toNat = (i a).val
      rw [hall a]
      exact Int.toNat_natCast _
  · rw [dif_neg h]
    constructor
    · intro e; exact absurd e (by simp)
    · intro hall
      exfalso
      apply h
      intro a
      rw [hall a]
      exact ⟨Int.natCast_nonneg _, by exact_mod_cast (i a).isLt⟩

/-! ## The pixel rows, and sums over them -/

/-- The row of pixel `(b, h, w)` in the pixels-first matrix: `262144·b + 512·h + w`, a bijection onto the rows. -/
def pix : Fin 8 × Fin 512 × Fin 512 ≃ Fin 2097152 where
  toFun t := ⟨262144 * t.1.val + 512 * t.2.1.val + t.2.2.val, by
    have := t.1.isLt; have := t.2.1.isLt; have := t.2.2.isLt; omega⟩
  invFun p := (⟨p.val / 262144, by have := p.isLt; omega⟩, ⟨p.val % 262144 / 512, by omega⟩, ⟨p.val % 512, by omega⟩)
  left_inv := by
    rintro ⟨b, h, w⟩
    have := b.isLt; have := h.isLt; have := w.isLt
    refine Prod.ext (Fin.ext ?_) (Prod.ext (Fin.ext ?_) (Fin.ext ?_))
    · show (262144 * b.val + 512 * h.val + w.val) / 262144 = b.val; omega
    · show (262144 * b.val + 512 * h.val + w.val) % 262144 / 512 = h.val; omega
    · show (262144 * b.val + 512 * h.val + w.val) % 512 = w.val; omega
  right_inv := by
    intro p
    refine Fin.ext ?_
    show 262144 * (p.val / 262144) + 512 * (p.val % 262144 / 512) + p.val % 512 = p.val
    omega

theorem pix_val (b : Fin 8) (h w : Fin 512) : (pix (b, h, w)).val = 262144 * b.val + 512 * h.val + w.val := rfl

/-- A sum over the pixel rows that keeps the rows whose key is `257·b + j`, where row `(b', h, w)`'s key is
    `l b' h w + 257·b'` with `l ≤ 256`, is the sum over image `b`'s pixels with `l = j`. -/
theorem sum_rows {M : Type*} [AddCommMonoid M] (key : Fin 2097152 → ℤ) (l : Fin 8 → Fin 512 → Fin 512 → ℕ)
    (hl : ∀ b h w, l b h w ≤ 256)
    (hkey : ∀ b h w, key (pix (b, h, w)) = ((l b h w + 257 * b.val : ℕ) : ℤ))
    (G : Fin 2097152 → M) (b : Fin 8) (j : Fin 257) :
    (∑ p, if key p = ((257 * b.val + j.val : ℕ) : ℤ) then G p else 0)
      = ∑ h, ∑ w, if l b h w = j.val then G (pix (b, h, w)) else 0 := by
  rw [← Equiv.sum_comp pix, Fintype.sum_prod_type, Finset.sum_eq_single b]
  · rw [Fintype.sum_prod_type]
    refine Finset.sum_congr rfl fun h _ => Finset.sum_congr rfl fun w _ => ?_
    rw [hkey]
    refine if_congr ?_ rfl rfl
    constructor
    · intro e
      have e' : l b h w + 257 * b.val = 257 * b.val + j.val := by exact_mod_cast e
      omega
    · intro e
      rw [e, Nat.add_comm]
  · intro b' _ hb'
    rw [Fintype.sum_prod_type]
    refine Finset.sum_eq_zero fun h _ => Finset.sum_eq_zero fun w _ => ?_
    rw [hkey, if_neg]
    intro e
    have := hl b' h w
    have := j.isLt
    have e' : l b' h w + 257 * b'.val = 257 * b.val + j.val := by exact_mod_cast e
    exact hb' (Fin.ext (by omega))
  · intro h
    exact absurd (Finset.mem_univ b) h

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable [Facts]
open Facts₀ Facts

/-! ## The two scatters of this program -/

abbrev d2 := scatter_S2056x128_S2097152x1_S2097152x128_1_0_0_1
abbrev d1 := scatter_S2056_S2097152x1_S2097152_n_0_0_1

theorem d2_start0 {w : Nat} (j : S2097152x128.Idx) (idx : IVec S2097152x1 w) :
    d2.start j idx 0 = (idx (ix2 (j 0) 0)).toInt := by
  unfold ScatterDims.start
  rw [dif_pos (show (0 : Fin 2) ∈ d2.scatterDimsToOperandDims from List.mem_singleton.mpr rfl)]
  congr 2
  funext b; refine Fin.ext ?_
  match b with
  | ⟨0, _⟩ => rfl
  | ⟨1, _⟩ => rfl

theorem d2_start1 {w : Nat} (j : S2097152x128.Idx) (idx : IVec S2097152x1 w) :
    d2.start j idx 1 = 0 := by
  unfold ScatterDims.start
  have h : ¬ (1 : Fin 2) ∈ d2.scatterDimsToOperandDims := by
    show ¬ (1 : Fin 2) ∈ ([0] : List (Fin 2))
    decide
  rw [dif_neg h]

theorem d2_window0 (j : S2097152x128.Idx) : d2.window j 0 = 0 := by
  unfold ScatterDims.window
  have h : ¬ (0 : Fin 2) ∈ d2.sKept := by
    show ¬ (0 : Fin S2056x128.rank) ∈ S2056x128.kept [0]
    decide
  rw [dif_neg h]

theorem d2_window1 (j : S2097152x128.Idx) : d2.window j 1 = (j 1).val := by
  unfold ScatterDims.window
  have h : (1 : Fin 2) ∈ d2.sKept := by
    show (1 : Fin S2056x128.rank) ∈ S2056x128.kept [0]
    decide
  rw [dif_pos h]
  rfl

theorem d1_start0 {w : Nat} (j : S2097152.Idx) (idx : IVec S2097152x1 w) :
    d1.start j idx 0 = (idx (ix2 (j 0) 0)).toInt := by
  unfold ScatterDims.start
  rw [dif_pos (show (0 : Fin 1) ∈ d1.scatterDimsToOperandDims from List.mem_singleton.mpr rfl)]
  congr 2
  funext b; refine Fin.ext ?_
  match b with
  | ⟨0, _⟩ => rfl
  | ⟨1, _⟩ => rfl

theorem d1_window0 (j : S2097152.Idx) : d1.window j 0 = 0 := by
  unfold ScatterDims.window
  have h : ¬ (0 : Fin 1) ∈ d1.sKept := by
    show ¬ (0 : Fin S2056.rank) ∈ S2056.kept [0]
    decide
  rw [dif_neg h]

/-- Where an update of the two-axis scatter lands: on the row its scatter index names (read signed), in its own column. -/
theorem d2_resultIdx?_iff (idx : IVec S2097152x1 32) (p : Fin 2097152) (c' : Fin 128) (r : Fin 2056) (c : Fin 128) :
    d2.resultIdx? (ix2 p c') idx = some (ix2 r c) ↔ ((idx (ix2 p 0)).toInt = (r.val : ℤ) ∧ c' = c) := by
  rw [resultIdx?_eq_some_iff, Fin.forall_fin_two, d2_start0, d2_start1, d2_window0, d2_window1]
  show ((idx (ix2 p 0)).toInt + ((0 : ℕ) : ℤ) = (r.val : ℤ) ∧ (0 : ℤ) + ((c'.val : ℕ) : ℤ) = (c.val : ℤ)) ↔ _
  constructor
  · rintro ⟨h0, h1⟩
    exact ⟨by simpa using h0, Fin.ext (by omega)⟩
  · rintro ⟨h0, h1⟩
    exact ⟨by simpa using h0, by rw [h1]; simp⟩

/-- Where an update of the one-axis scatter lands: on the row its scatter index names (read signed). -/
theorem d1_resultIdx?_iff (idx : IVec S2097152x1 32) (p : Fin 2097152) (r : Fin 2056) :
    d1.resultIdx? (ix1 p) idx = some (ix1 r) ↔ (idx (ix2 p 0)).toInt = (r.val : ℤ) := by
  rw [resultIdx?_eq_some_iff]
  constructor
  · intro h
    have h0 := h 0
    rw [d1_start0, d1_window0] at h0
    simpa using h0
  · intro h a
    obtain rfl : a = 0 := Subsingleton.elim _ _
    rw [d1_start0, d1_window0]
    simpa using h

/-! ## The update matrix and the scatter indices at a pixel row -/

/-- The pixels-first matrix at pixel `(b, h, w)`'s row and column `c` is channel `c` of that pixel. -/
theorem flat_apply (x : FVec Ideal S8x128x512x512 .f32) (b : Fin 8) (h w : Fin 512) (c : Fin 128) :
    RefVal.flat x (ix2 (pix (b, h, w)) c) = x (ix4 b c h w) := by
  have hq : 512 * h.val + w.val < 262144 := by have := h.isLt; have := w.isLt; omega
  unfold RefVal.flat
  refine (shapeCast_apply _ _ (ix2 (pix (b, h, w)) c) (ix3 b (⟨512 * h.val + w.val, hq⟩ : Fin 262144) c) ?_).trans ?_
  · rw [Shape.rowMajor_val_three, Shape.rowMajor_val_two]
    show (b.val * 262144 + (512 * h.val + w.val)) * 128 + c.val = (262144 * b.val + 512 * h.val + w.val) * 128 + c.val
    omega
  refine (transpose_apply _ _ _ (ix3 b (⟨512 * h.val + w.val, hq⟩ : Fin 262144) c) (ix3 b c (⟨512 * h.val + w.val, hq⟩ : Fin 262144)) ?_).trans ?_
  · intro a
    match a with
    | ⟨0, _⟩ => rfl
    | ⟨1, _⟩ => rfl
    | ⟨2, _⟩ => rfl
  refine shapeCast_apply _ _ _ (ix4 b c h w) ?_
  rw [Shape.rowMajor_val_four, Shape.rowMajor_val_three]
  show ((b.val * 128 + c.val) * 512 + h.val) * 512 + w.val = (b.val * 128 + c.val) * 262144 + (512 * h.val + w.val)
  omega

/-- The segment of pixel `(b, h, w)`: its label plus 257 times its image's number, in 32-bit arithmetic. -/
theorem seg_apply (ids : IVec S8x512x512 32) (b : Fin 8) (h w : Fin 512) :
    RefVal.seg ids (ix2 (pix (b, h, w)) 0)
      = IntOp.addi (ids (ix3 b h w)) (IntOp.muli (BitVec.ofNat 32 b.val) 257#32) := by
  have hq : 512 * h.val + w.val < 262144 := by have := h.isLt; have := w.isLt; omega
  unfold RefVal.seg
  refine (broadcastInDim_apply _ _ _ (ix2 (pix (b, h, w)) 0) (ix1 (pix (b, h, w))) ?_).trans ?_
  · intro a
    match a with
    | ⟨0, _⟩ => rfl
  refine (shapeCast_apply _ _ (ix1 (pix (b, h, w))) (ix2 b (⟨512 * h.val + w.val, hq⟩ : Fin 262144)) ?_).trans ?_
  · rw [Shape.rowMajor_val_two, Shape.rowMajor_val_one]
    show b.val * 262144 + (512 * h.val + w.val) = 262144 * b.val + 512 * h.val + w.val
    omega
  show IntOp.addi _ _ = _
  congr 1
  · refine shapeCast_apply _ _ _ (ix3 b h w) ?_
    rw [Shape.rowMajor_val_three, Shape.rowMajor_val_two]
    show (b.val * 512 + h.val) * 512 + w.val = b.val * 262144 + (512 * h.val + w.val)
    omega

/-- Under the labels' range the segment, read signed, is the natural number label + 257 · image. -/
theorem seg_toInt (ids : IVec S8x512x512 32) (hids : ∀ i, (ids i).toNat ≤ 256) (b : Fin 8) (h w : Fin 512) :
    (RefVal.seg ids (ix2 (pix (b, h, w)) 0)).toInt = (((ids (ix3 b h w)).toNat + 257 * b.val : ℕ) : ℤ) := by
  rw [seg_apply]
  have hl := hids (ix3 b h w)
  have hb := b.isLt
  have hn : (IntOp.addi (ids (ix3 b h w)) (IntOp.muli (BitVec.ofNat 32 b.val) 257#32)).toNat
      = (ids (ix3 b h w)).toNat + 257 * b.val := by
    show ((ids (ix3 b h w)) + (BitVec.ofNat 32 b.val) * 257#32).toNat = _
    rw [BitVec.toNat_add, BitVec.toNat_mul, BitVec.toNat_ofNat]
    show ((ids (ix3 b h w)).toNat + b.val % 2 ^ 32 * 257 % 2 ^ 32) % 2 ^ 32 = _
    omega
  rw [StableHlo.Predicate.toInt_eq_toNat_of_lt (by rw [hn]; omega), hn]

/-! ## The scatters' sums, by rows -/

/-- The sum of the two-axis scatter's updates landing on row `r`, column `c`: column `c` of the rows whose scatter index,
    read signed, is `r`. -/
theorem scatter2_sum (idx : IVec S2097152x1 32) (upd : S2097152x128.Idx → EReal) (r : Fin 2056) (c : Fin 128) :
    (∑ j ∈ Finset.univ.filter (fun j => d2.resultIdx? j idx = some (ix2 r c)), upd j)
      = ∑ p : Fin 2097152, if (idx (ix2 p 0)).toInt = (r.val : ℤ) then upd (ix2 p c) else 0 := by
  rw [Finset.sum_filter, sum_idx2]
  refine Fintype.sum_congr _ _ fun p => ?_
  rw [Fintype.sum_congr _ _ fun c' => if_congr (d2_resultIdx?_iff idx p c' r c) rfl rfl]
  by_cases hA : (idx (ix2 p 0)).toInt = (r.val : ℤ)
  · rw [if_pos hA, Fintype.sum_eq_single c]
    · rw [if_pos ⟨hA, rfl⟩]
    · intro c' hc'
      rw [if_neg (fun h => hc' h.2)]
  · rw [if_neg hA]
    exact Finset.sum_eq_zero fun c' _ => if_neg (fun h => hA h.1)

/-- The sum of the one-axis scatter's updates landing on row `r`: the rows whose scatter index, read signed, is `r`. -/
theorem scatter1_sum (idx : IVec S2097152x1 32) (upd : S2097152.Idx → EReal) (r : Fin 2056) :
    (∑ j ∈ Finset.univ.filter (fun j => d1.resultIdx? j idx = some (ix1 r)), upd j)
      = ∑ p : Fin 2097152, if (idx (ix2 p 0)).toInt = (r.val : ℤ) then upd (ix1 p) else 0 := by
  rw [Finset.sum_filter, sum_idx1]
  exact Fintype.sum_congr _ _ fun p => if_congr (d1_resultIdx?_iff idx p r) rfl rfl

/-- At the extended reals the accumulating scatter is the operand plus the sum of the updates landing on each element. -/
theorem scatterAdd_ideal {s si u : Shape} {φ : FTy} {w : Nat} (d : ScatterDims s si u) (v : FVec Idealize.ShloMosaic.Ideal s φ)
    (idx : IVec si w) (upd : FVec Idealize.ShloMosaic.Ideal u φ) :
    Host.scatterAdd d v idx upd = Idealize.ShloMosaic.Ideal.hostScatterAdd d v idx upd := rfl

/-- The two-axis accumulating scatter read at row `r`, column `c`: the operand there plus column `c` of the rows whose
    scatter index, read signed, is `r`. -/
theorem scatter2_apply (v : S2056x128.Idx → EReal) (idx : IVec S2097152x1 32) (upd : S2097152x128.Idx → EReal)
    (r : Fin 2056) (c : Fin 128) :
    Idealize.ShloMosaic.Ideal.hostScatterAdd d2 v idx upd (ix2 r c)
      = v (ix2 r c) + ∑ p : Fin 2097152, if (idx (ix2 p 0)).toInt = (r.val : ℤ) then upd (ix2 p c) else 0 := by
  unfold Idealize.ShloMosaic.Ideal.hostScatterAdd
  rw [scatter2_sum]

/-- The one-axis accumulating scatter read at row `r`: the operand there plus the rows whose scatter index, read signed,
    is `r`. -/
theorem scatter1_apply (v : S2056.Idx → EReal) (idx : IVec S2097152x1 32) (upd : S2097152.Idx → EReal) (r : Fin 2056) :
    Idealize.ShloMosaic.Ideal.hostScatterAdd d1 v idx upd (ix1 r)
      = v (ix1 r) + ∑ p : Fin 2097152, if (idx (ix2 p 0)).toInt = (r.val : ℤ) then upd (ix1 p) else 0 := by
  unfold Idealize.ShloMosaic.Ideal.hostScatterAdd
  rw [scatter1_sum]

end Cert.ReferenceIdeal.RefSums

end
-- ==== Proof.RefSums.lean ====
/-
  The reference's three scatter-added sums read at one segment: row 257·b + j of the channel sums, of the sums of squares
  and of the pixel counts is the sum over image b's pixels labelled j that the specification names sumF, sumF2 and cnt.

  Each is the accumulating scatter of a zero array, so its value at a row is the sum of the update rows landing there; the
  rows are the pixels, a pixel's segment read signed is label + 257·image, and among labels 0..256 that equals 257·b + j
  only for image b and label j.
-/
import proofs.«403733_j44710609551555_3_alg».proof.Proof.RefSumsA

noncomputable section

namespace Cert.ReferenceIdeal.RefSums

open Idealize.ShloMosaic Idealize.ShloMosaic.ValueIdx Cert.ReferenceIdeal
open scoped BigOperators

variable [Facts]
open Facts₀ Facts

/-! ## The three sums at row `257·b + j` -/

/-- The reference's per-segment channel sums at segment `257·b + j`: the sum of channel `c` over image `b`'s pixels
    labelled `j`. -/
theorem sumsF_apply (x : FVec Idealize.ShloMosaic.Ideal S8x128x512x512 .f32) (ids : IVec S8x512x512 32) (hids : ∀ i, (ids i).toNat ≤ 256)
    (b : Fin 8) (j : Fin 257) (c : Fin 128) :
    RefVal.sumsF (F := Idealize.ShloMosaic.Ideal) x ids
        (ix2 (⟨257 * b.val + j.val, by have := b.isLt; have := j.isLt; omega⟩ : Fin 2056) c)
      = Cert.Spec.sumF x ids b c j.val := by
  unfold RefVal.sumsF
  rw [scatterAdd_ideal, scatter2_apply, broadcastInDim_scalar_apply, constant_apply, Idealize.ShloMosaic.Ideal.ofBits_zero_f32, zero_add,
    Fin.val_mk,
    sum_rows (M := EReal) (fun p => (RefVal.seg ids (ix2 p 0)).toInt) (fun b h w => (ids (ix3 b h w)).toNat)
      (fun b h w => hids _) (fun b h w => seg_toInt ids hids b h w)
      (fun p => RefVal.flat (F := Idealize.ShloMosaic.Ideal) x (ix2 p c)) b j]
  unfold Cert.Spec.sumF
  refine Fintype.sum_congr _ _ fun h => Fintype.sum_congr _ _ fun w => ?_
  rw [flat_apply]

/-- The reference's per-segment sums of squares at segment `257·b + j`. -/
theorem sumsF2_apply (x : FVec Idealize.ShloMosaic.Ideal S8x128x512x512 .f32) (ids : IVec S8x512x512 32) (hids : ∀ i, (ids i).toNat ≤ 256)
    (b : Fin 8) (j : Fin 257) (c : Fin 128) :
    RefVal.sumsF2 (F := Idealize.ShloMosaic.Ideal) x ids
        (ix2 (⟨257 * b.val + j.val, by have := b.isLt; have := j.isLt; omega⟩ : Fin 2056) c)
      = Cert.Spec.sumF2 x ids b c j.val := by
  unfold RefVal.sumsF2
  rw [scatterAdd_ideal, scatter2_apply, broadcastInDim_scalar_apply, constant_apply, Idealize.ShloMosaic.Ideal.ofBits_zero_f32, zero_add,
    Fin.val_mk,
    sum_rows (M := EReal) (fun p => (RefVal.seg ids (ix2 p 0)).toInt) (fun b h w => (ids (ix3 b h w)).toNat)
      (fun b h w => hids _) (fun b h w => seg_toInt ids hids b h w)
      (fun p => mulf (RefVal.flat (F := Idealize.ShloMosaic.Ideal) x) (RefVal.flat (F := Idealize.ShloMosaic.Ideal) x) (ix2 p c)) b j]
  unfold Cert.Spec.sumF2
  refine Fintype.sum_congr _ _ fun h => Fintype.sum_congr _ _ fun w => ?_
  rw [mulf_apply, flat_apply]

/-- The reference's per-segment pixel counts at segment `257·b + j`. -/
theorem counts_apply (ids : IVec S8x512x512 32) (hids : ∀ i, (ids i).toNat ≤ 256) (b : Fin 8) (j : Fin 257) :
    RefVal.counts (F := Idealize.ShloMosaic.Ideal) ids
        (ix1 (⟨257 * b.val + j.val, by have := b.isLt; have := j.isLt; omega⟩ : Fin 2056))
      = Cert.Spec.cnt ids b j.val := by
  unfold RefVal.counts
  rw [scatterAdd_ideal, scatter1_apply, broadcastInDim_scalar_apply, constant_apply, Idealize.ShloMosaic.Ideal.ofBits_zero_f32, zero_add,
    Fin.val_mk,
    sum_rows (M := EReal) (fun p => (RefVal.seg ids (ix2 p 0)).toInt) (fun b h w => (ids (ix3 b h w)).toNat)
      (fun b h w => hids _) (fun b h w => seg_toInt ids hids b h w)
      (fun p => broadcastInDim S2097152 ![] bcast_S_S2097152 (constant (F := Idealize.ShloMosaic.Ideal) S_ .f32 0x3F800000#32) (ix1 p)) b j]
  unfold Cert.Spec.cnt
  refine Fintype.sum_congr _ _ fun h => Fintype.sum_congr _ _ fun w => ?_
  rw [broadcastInDim_scalar_apply, constant_apply, Idealize.ShloMosaic.Ideal.ofBits_one_f32]

end Cert.ReferenceIdeal.RefSums

end
-- ==== Proof.RefTail.lean ====
/-
  The reference's host tail at the extended reals.

  The tail takes three per-segment arrays over the 8 · 257 segments (segment 257·b + j is image b's label j): the channel
  sums [2056, 128], the channel sums of squares [2056, 128] and the pixel counts [2056].  Per segment it forms
  n = max(count, 1) and the variance term ((Σ_c sums of squares) − (Σ_c sum²)/n)/n, keeps it where the count is positive and
  the segment number is not a multiple of 257 (the background label 0), reshapes to [8, 257], counts the kept segments of
  every image, divides every image's sum of kept terms by max(that count, 1) where the count is positive, and averages
  the eight images.

  Read stage by stage at an index, with the three arrays equal to the specification's pixel sums, this is the
  specification's loss: label j = 0 contributes zero, and the labels j = s + 1 (s < 256) give the specification's sum over
  instance labels; the number of kept segments of an image is the number of its instance labels that occur.
-/
import proofs.«403733_j44710609551555_3_alg».proof.Proof.Spec
import proofs.«403733_j44710609551555_3_alg».proof.Proof.RefDefs
import Idealize.ShloMosaic.Lib.IdealHost
import Idealize.ShloMosaic.Lib.StableHlo.Predicate
import Idealize.ShloMosaic.Lib.Affine
import Idealize.ShloMosaic.Lib.ValueLayout
import Idealize.ShloMosaic.Lib.Pipeline.Value

noncomputable section

namespace Cert.ReferenceIdeal.RefTailVal

open Idealize.ShloMosaic Idealize.ShloMosaic.ValueIdx Cert.ReferenceIdeal
open scoped BigOperators

variable [Facts]
open Facts₀ Facts

/-- A sum along the channels of a [2056, 128] array, read at a segment row. -/
theorem rowSum (y : FVec Ideal S2056x128 .f32) (init : FVec Ideal S_ .f32) (r : Fin 2056) :
    Host.reduceAdd (F := Ideal) y init reducesTo_S2056x128_S2056_d1 h_S_ (ix1 r)
      = init ix0 + ∑ c : Fin 128, y (ix2 r c) := by
  have h' : S2056x128.ReducesTo [1] S2056 := reducesTo_S2056x128_S2056_d1
  have h : S2056x128.Reduces [1] S2056 := ⟨h'.1, Nat.one_pos, h'.2⟩
  rw [hostReduceAdd_apply, Ideal.hostReduceAdd_single _ h]
  refine congrArg₂ (· + ·) (congrArg init (eq_ix0 _)) ?_
  show ∑ k : Fin 128, y (h.lift (ix1 r) k) = ∑ c : Fin 128, y (ix2 r c)
  refine Finset.sum_congr rfl fun c _ => congrArg y (funext fun a => Fin.ext ?_)
  match a with
  | ⟨0, _⟩ => rfl
  | ⟨1, _⟩ => rfl

/-- A sum along the labels of a [8, 257] array, read at an image. -/
theorem imgSum (y : FVec Ideal S8x257 .f32) (init : FVec Ideal S_ .f32) (b : Fin 8) :
    Host.reduceAdd (F := Ideal) y init reducesTo_S8x257_S8_d1 h_S_ (ix1 b)
      = init ix0 + ∑ q : Fin 257, y (ix2 b q) := by
  have h' : S8x257.ReducesTo [1] S8 := reducesTo_S8x257_S8_d1
  have h : S8x257.Reduces [1] S8 := ⟨h'.1, Nat.one_pos, h'.2⟩
  rw [hostReduceAdd_apply, Ideal.hostReduceAdd_single _ h]
  refine congrArg₂ (· + ·) (congrArg init (eq_ix0 _)) ?_
  show ∑ k : Fin 257, y (h.lift (ix1 b) k) = ∑ q : Fin 257, y (ix2 b q)
  refine Finset.sum_congr rfl fun c _ => congrArg y (funext fun a => Fin.ext ?_)
  match a with
  | ⟨0, _⟩ => rfl
  | ⟨1, _⟩ => rfl

/-- A rank-1 index set is its coordinate's range. -/
def idxEquiv1 {n : Nat} : (⟨1, ![n]⟩ : Shape).Idx ≃ Fin n where
  toFun i := i 0
  invFun p := ix1 p
  left_inv i := (eq_ix1 i).symm
  right_inv _ := rfl

/-- The sum over the eight images, read at the scalar's one index. -/
theorem totalSum (y : FVec Ideal S8 .f32) (init : FVec Ideal S_ .f32) (i : S_.Idx) :
    Host.reduceAdd (F := Ideal) y init reducesTo_S8_S_d0 h_S_ i
      = init ix0 + ∑ b : Fin 8, y (ix1 b) := by
  rw [hostReduceAdd_apply, Ideal.hostReduceAdd_total _ (fun b => b.elim0)]
  refine congrArg₂ (· + ·) (congrArg init (eq_ix0 _)) ?_
  rw [← Equiv.sum_comp (idxEquiv1 (n := 8)).symm]
  rfl

/-- The sign-corrected remainder of a segment's number by 257 is the number modulo 257: the dividend and the divisor are
    not negative, so the correction never applies. -/
theorem segMod_toNat (r : Fin 2056) : (RefVal.segMod (ix1 r)).toNat = r.val % 257 := by
  have hk : Scalar.select (IntOp.cmpi .eq (257#32) (0#32)) (1#32) (257#32) = 257#32 := by decide
  have hx : 2 * (BitVec.ofNat 32 r.val).toNat < 2 ^ 32 := by
    rw [BitVec.toNat_ofNat]; have := r.isLt; omega
  have hwN : (IntOp.remsi .host (BitVec.ofNat 32 r.val) 257#32).toNat = r.val % 257 := by
    rw [IntOp.toNat_remsi .host hx 257 (by omega) (by omega), BitVec.toNat_ofNat]
    have := r.isLt; omega
  have hseg : RefVal.segMod (ix1 r)
      = Scalar.select
          (IntOp.andi
            (IntOp.cmpi .ne
              (IntOp.cmpi .slt (IntOp.remsi .host (BitVec.ofNat 32 r.val)
                (Scalar.select (IntOp.cmpi .eq (257#32) (0#32)) (1#32) (257#32))) 0#32)
              (IntOp.cmpi .slt (Scalar.select (IntOp.cmpi .eq (257#32) (0#32)) (1#32) (257#32)) 0#32))
            (IntOp.cmpi .ne (IntOp.remsi .host (BitVec.ofNat 32 r.val)
                (Scalar.select (IntOp.cmpi .eq (257#32) (0#32)) (1#32) (257#32))) 0#32))
          (IntOp.addi (IntOp.remsi .host (BitVec.ofNat 32 r.val)
                (Scalar.select (IntOp.cmpi .eq (257#32) (0#32)) (1#32) (257#32)))
            (Scalar.select (IntOp.cmpi .eq (257#32) (0#32)) (1#32) (257#32)))
          (IntOp.remsi .host (BitVec.ofNat 32 r.val)
                (Scalar.select (IntOp.cmpi .eq (257#32) (0#32)) (1#32) (257#32))) := rfl
  rw [hseg, hk]
  generalize IntOp.remsi .host (BitVec.ofNat 32 r.val) 257#32 = w at hwN ⊢
  have hlt : w.toNat < 257 := by rw [hwN]; exact Nat.mod_lt _ (by omega)
  have h8 : IntOp.cmpi .slt w 0#32 = 0#1 := by
    apply eq_zero_of_ne_one
    rw [IntOp.cmpi_slt, BitVec.toInt_eq_toNat_of_lt (by omega)]
    simp
  have h11 : IntOp.cmpi .ne (0#1) (IntOp.cmpi .slt (257#32) (0#32)) = 0#1 := by decide
  rw [h8, h11]
  have h12 : IntOp.andi (0#1) (IntOp.cmpi .ne w 0#32) = 0#1 := by
    rcases BitVec.eq_zero_or_eq_one (IntOp.cmpi .ne w 0#32) with h | h <;> rw [h] <;> decide
  rw [h12]
  show (if (0#1 : BitVec 1) = 1 then _ else w).toNat = _
  rw [if_neg (by decide)]
  exact hwN

/-! ## The tail cut into its stages -/

/-- The validity bit of every segment: the segment has a pixel, and it is not a background segment. -/
def validBits (cn : FVec Ideal S2056 .f32) : IVec S2056 1 :=
  andi (cmpf .ogt cn (broadcastInDim S2056 ![] bcast_S_S2056 (constant (F := Ideal) S_ .f32 0x00000000#32)))
    (cmpi .ne RefVal.segMod (broadcastInDim S2056 ![] bcast_S_S2056 (constantI S_ 32 0#32)))

/-- Every segment's variance term, before masking. -/
def segTerm (sf sf2 : FVec Ideal S2056x128 .f32) (cn : FVec Ideal S2056 .f32) : FVec Ideal S2056 .f32 :=
  let n : FVec Ideal S2056 .f32 :=
    maximumf cn (broadcastInDim S2056 ![] bcast_S_S2056 (constant (F := Ideal) S_ .f32 0x3F800000#32))
  Host.divf (F := Ideal)
    (subf (Host.reduceAdd (F := Ideal) sf2 (constant (F := Ideal) S_ .f32 0x00000000#32) reducesTo_S2056x128_S2056_d1 h_S_)
      (Host.divf (F := Ideal)
        (Host.reduceAdd (F := Ideal) (mulf sf sf) (constant (F := Ideal) S_ .f32 0x00000000#32) reducesTo_S2056x128_S2056_d1 h_S_) n)) n

/-- Every segment's term, zero where the segment is not valid. -/
def masked (sf sf2 : FVec Ideal S2056x128 .f32) (cn : FVec Ideal S2056 .f32) : FVec Ideal S2056 .f32 :=
  select (validBits cn) (segTerm sf sf2 cn)
    (broadcastInDim S2056 ![] bcast_S_S2056 (id (constant (F := Ideal) S_ .f32 0x00000000#32)))

/-- The number of valid segments of every image, as a float. -/
def nValid (v36 : IVec S2056 1) : FVec Ideal S8 .f32 :=
  sitofp .f32 (Host.reduce IntOp.addi (extui 32 (shapeCast S8x257 v36 shapeCasts_S2056_S8x257) natLt_1_32)
    (constantI S_ 32 0#32) reducesTo_S8x257_S8_d1 h_S_)

/-- Every image's loss from the masked terms and the validity bits. -/
def imgLoss (v37 : FVec Ideal S2056 .f32) (v36 : IVec S2056 1) : FVec Ideal S8 .f32 :=
  select (cmpf .ogt (nValid v36) (broadcastInDim S8 ![] bcast_S_S8 (constant (F := Ideal) S_ .f32 0x00000000#32)))
    (Host.divf (F := Ideal)
      (Host.reduceAdd (F := Ideal) (shapeCast S8x257 v37 shapeCasts_S2056_S8x257)
        (constant (F := Ideal) S_ .f32 0x00000000#32) reducesTo_S8x257_S8_d1 h_S_)
      (maximumf (nValid v36) (broadcastInDim S8 ![] bcast_S_S8 (constant (F := Ideal) S_ .f32 0x3F800000#32))))
    (broadcastInDim S8 ![] bcast_S_S8 (id (constant (F := Ideal) S_ .f32 0x00000000#32)))

/-- The tail is the mean of the images' losses. -/
theorem tail_stages (sf sf2 : FVec Ideal S2056x128 .f32) (cn : FVec Ideal S2056 .f32) :
    RefVal.tail (F := Ideal) sf sf2 cn
      = Host.divf (F := Ideal)
          (Host.reduceAdd (F := Ideal) (imgLoss (masked sf sf2 cn) (validBits cn))
            (constant (F := Ideal) S_ .f32 0x00000000#32) reducesTo_S8_S_d0 h_S_)
          (constant (F := Ideal) S_ .f32 0x41000000#32) := rfl

/-! ## The stages read at an index -/

/-- A one-bit word made from a decision is set exactly when the decision holds. -/
theorem ofBool_eq_one_iff (p : Prop) [Decidable p] : BitVec.ofBool (decide p) = 1#1 ↔ p := by
  by_cases h : p <;> simp [h]

/-- A segment is valid when it has a pixel and its number is not a multiple of 257. -/
theorem validBits_iff (cn : FVec Ideal S2056 .f32) (r : Fin 2056) :
    validBits cn (ix1 r) = 1#1 ↔ 0 < cn (ix1 r) ∧ r.val % 257 ≠ 0 := by
  have h0 : validBits cn (ix1 r)
      = IntOp.andi (Ideal.cmp .ogt (cn (ix1 r)) (Ideal.ofBits .f32 0x00000000#32))
          (IntOp.cmpi .ne (RefVal.segMod (ix1 r)) 0#32) := rfl
  rw [h0, IntOp.andi_eq_one, Ideal.ofBits_zero_f32, IntOp.cmpi_ne]
  refine and_congr ?_ ?_
  · show BitVec.ofBool (decide (0 < cn (ix1 r))) = 1#1 ↔ _
    exact ofBool_eq_one_iff _
  · rw [← segMod_toNat r]
    constructor
    · intro h e; exact h (BitVec.eq_of_toNat_eq (by rw [e]; rfl))
    · intro h e; exact h (by rw [e]; rfl)

/-- A segment's variance term from its channel sums and its count. -/
theorem segTerm_apply (sf sf2 : FVec Ideal S2056x128 .f32) (cn : FVec Ideal S2056 .f32) (r : Fin 2056) :
    segTerm sf sf2 cn (ix1 r)
      = Ideal.div ((∑ c : Fin 128, sf2 (ix2 r c))
          - Ideal.div (∑ c : Fin 128, sf (ix2 r c) * sf (ix2 r c)) (max (cn (ix1 r)) 1)) (max (cn (ix1 r)) 1) := by
  have hn : maximumf cn (broadcastInDim S2056 ![] bcast_S_S2056 (constant (F := Ideal) S_ .f32 0x3F800000#32)) (ix1 r)
      = max (cn (ix1 r)) 1 := by
    rw [maximumf_apply, broadcastInDim_scalar_apply, constant_apply, Ideal.ofBits_one_f32]
  unfold segTerm
  dsimp only
  rw [hostDivf_apply, subf_apply, hostDivf_apply, rowSum, rowSum, hn, constant_apply, Ideal.ofBits_zero_f32, zero_add,
    zero_add]
  rfl

/-- The masked term of a segment. -/
theorem masked_apply (sf sf2 : FVec Ideal S2056x128 .f32) (cn : FVec Ideal S2056 .f32) (r : Fin 2056) :
    masked sf sf2 cn (ix1 r) = if validBits cn (ix1 r) = 1#1 then segTerm sf sf2 cn (ix1 r) else 0 := by
  show Scalar.select (validBits cn (ix1 r)) (segTerm sf sf2 cn (ix1 r)) (Ideal.ofBits .f32 0x00000000#32) = _
  rw [Ideal.ofBits_zero_f32]
  rfl

/-- The [2056] → [8, 257] reshape: entry (b, j) is segment 257·b + j. -/
theorem reshape_apply {α : Type} (v : S2056.Idx → α) (b : Fin 8) (j : Fin 257) :
    shapeCast S8x257 v shapeCasts_S2056_S8x257 (ix2 b j) = v (ix1 ⟨257 * b.val + j.val, by omega⟩) := by
  refine shapeCast_apply v _ (ix2 b j) (ix1 _) ?_
  rw [Shape.rowMajor_val_one, Shape.rowMajor_val_two]
  show 257 * b.val + j.val = b.val * 257 + j.val
  omega

/-- The number of valid segments of image b. -/
theorem nValid_apply (v36 : IVec S2056 1) (b : Fin 8) :
    nValid v36 (ix1 b)
      = ((((Finset.univ.filter fun q : Fin 257 => v36 (ix1 ⟨257 * b.val + q.val, by omega⟩) = 1#1).card : ℕ) : ℝ) : EReal) := by
  have hc : (Host.reduce IntOp.addi (extui 32 (shapeCast S8x257 v36 shapeCasts_S2056_S8x257) natLt_1_32)
      (constantI S_ 32 0#32) reducesTo_S8x257_S8_d1 h_S_ (ix1 b)).toNat
      = (Finset.univ.filter fun q : Fin 257 =>
          shapeCast S8x257 v36 shapeCasts_S2056_S8x257 (StableHlo.Predicate.ij b q) = 1#1).card :=
    StableHlo.Predicate.toNat_reduce_count_cols (n := 8) (m := 257) (by omega)
      (shapeCast S8x257 v36 shapeCasts_S2056_S8x257) natLt_1_32 reducesTo_S8x257_S8_d1 (u := S_) h_S_ (ix1 b)
  have hp : ∀ q : Fin 257, shapeCast S8x257 v36 shapeCasts_S2056_S8x257 (StableHlo.Predicate.ij b q)
      = v36 (ix1 ⟨257 * b.val + q.val, by omega⟩) := fun q => by
    have e : StableHlo.Predicate.ij b q = ix2 b q := by
      funext a; match a with | ⟨0, _⟩ => rfl | ⟨1, _⟩ => rfl
    exact (congrArg (shapeCast S8x257 v36 shapeCasts_S2056_S8x257) e).trans (reshape_apply v36 b q)
  simp only [hp] at hc
  unfold nValid
  rw [sitofp_apply]
  generalize Host.reduce IntOp.addi (extui 32 (shapeCast S8x257 v36 shapeCasts_S2056_S8x257) natLt_1_32)
    (constantI S_ 32 0#32) reducesTo_S8x257_S8_d1 h_S_ (ix1 b) = w at hc ⊢
  have hle : w.toNat ≤ 257 := by
    rw [hc]; exact (Finset.card_filter_le _ _).trans (by simp)
  show (((w.toInt : ℝ)) : EReal) = _
  rw [BitVec.toInt_eq_toNat_of_lt (by omega), hc, Int.cast_natCast]

/-- An image's loss from the masked terms and the validity bits. -/
theorem imgLoss_apply (v37 : FVec Ideal S2056 .f32) (v36 : IVec S2056 1) (b : Fin 8) :
    imgLoss v37 v36 (ix1 b)
      = if 0 < nValid v36 (ix1 b) then
          Ideal.div (∑ q : Fin 257, v37 (ix1 ⟨257 * b.val + q.val, by omega⟩)) (max (nValid v36 (ix1 b)) 1)
        else 0 := by
  have h0 : imgLoss v37 v36 (ix1 b)
      = Scalar.select (Ideal.cmp .ogt (nValid v36 (ix1 b)) (Ideal.ofBits .f32 0x00000000#32))
          (Ideal.div (Host.reduceAdd (F := Ideal) (shapeCast S8x257 v37 shapeCasts_S2056_S8x257)
              (constant (F := Ideal) S_ .f32 0x00000000#32) reducesTo_S8x257_S8_d1 h_S_ (ix1 b))
            (max (nValid v36 (ix1 b)) (Ideal.ofBits .f32 0x3F800000#32)))
          (Ideal.ofBits .f32 0x00000000#32) := rfl
  rw [h0, imgSum, constant_apply, Ideal.ofBits_zero_f32, Ideal.ofBits_one_f32, zero_add]
  simp only [reshape_apply]
  show (if BitVec.ofBool (decide (0 < nValid v36 (ix1 b))) = 1 then _ else _) = _
  exact if_congr (ofBool_eq_one_iff _) rfl rfl

/-- The word 0x41000000 is the float eight. -/
theorem ofBits_eight_f32 : Ideal.ofBits .f32 0x41000000#32 = ((8 : ℝ) : EReal) := by
  simp [Ideal.ofBits, Ideal.ieee, -EReal.coe_mul]; norm_num

/-! ## The bridge to the specification -/

section Bridge
variable (x : Cert.Spec.SX.Idx → EReal) (ids : Cert.Spec.SI.Idx → BitVec 32)
  (sf sf2 : FVec Ideal S2056x128 .f32) (cn : FVec Ideal S2056 .f32)

/-- The three arrays hold the specification's sums: row 257·b + j is image b's label j. -/
def RowsAre : Prop :=
  (∀ (b : Fin 8) (j : Fin 257) (c : Fin 128),
    sf (ix2 ⟨257 * b.val + j.val, by omega⟩ c) = Cert.Spec.sumF x ids b c j.val) ∧
  (∀ (b : Fin 8) (j : Fin 257) (c : Fin 128),
    sf2 (ix2 ⟨257 * b.val + j.val, by omega⟩ c) = Cert.Spec.sumF2 x ids b c j.val) ∧
  (∀ (b : Fin 8) (j : Fin 257), cn (ix1 ⟨257 * b.val + j.val, by omega⟩) = Cert.Spec.cnt ids b j.val)

variable {x ids sf sf2 cn}

/-- Image b's segment j is valid when label j occurs and is not the background. -/
theorem valid_row (H : RowsAre x ids sf sf2 cn) (b : Fin 8) (j : Fin 257) :
    validBits cn (ix1 ⟨257 * b.val + j.val, by omega⟩) = 1#1 ↔ 0 < Cert.Spec.cnt ids b j.val ∧ j.val ≠ 0 := by
  have hmod : (257 * b.val + j.val) % 257 = j.val := by have := j.isLt; omega
  rw [validBits_iff, H.2.2 b j]
  show _ ∧ (257 * b.val + j.val) % 257 ≠ 0 ↔ _
  rw [hmod]

/-- Image b's masked term at segment j: zero for the background, the label's term otherwise. -/
theorem masked_row (H : RowsAre x ids sf sf2 cn) (b : Fin 8) (j : Fin 257) :
    masked sf sf2 cn (ix1 ⟨257 * b.val + j.val, by omega⟩) = if j.val = 0 then 0 else Cert.Spec.V x ids b j.val := by
  rw [masked_apply, segTerm_apply, if_congr (valid_row H b j) rfl rfl, H.2.2 b j]
  simp only [H.1 b j, H.2.1 b j]
  by_cases hj : j.val = 0
  · rw [if_pos hj, if_neg (fun h => h.2 hj)]
  · rw [if_neg hj]
    unfold Cert.Spec.V Cert.Spec.varTerm
    by_cases hc : 0 < Cert.Spec.cnt ids b j.val
    · rw [if_pos ⟨hc, hj⟩, if_pos hc]
    · rw [if_neg (fun h => hc h.1), if_neg hc]

/-- The valid segments of image b are its instance labels that occur. -/
theorem count_eq (H : RowsAre x ids sf sf2 cn) (b : Fin 8) :
    (Finset.univ.filter fun q : Fin 257 => validBits cn (ix1 ⟨257 * b.val + q.val, by omega⟩) = 1#1).card
      = Cert.Spec.nInst ids b := by
  unfold Cert.Spec.nInst
  simp only [valid_row H b]
  rw [Finset.card_filter, Finset.card_filter, Fin.sum_univ_succ]
  simp

/-- Image b's loss is the specification's. -/
theorem imgLoss_row (H : RowsAre x ids sf sf2 cn) (b : Fin 8) :
    imgLoss (masked sf sf2 cn) (validBits cn) (ix1 b) = Cert.Spec.Limg x ids b := by
  have hpos : (0 : EReal) < (((Cert.Spec.nInst ids b : ℕ) : ℝ) : EReal) ↔ 0 < Cert.Spec.nInst ids b := by
    rw [EReal.coe_pos, Nat.cast_pos]
  have hsum : ∑ q : Fin 257, masked sf sf2 cn (ix1 ⟨257 * b.val + q.val, by omega⟩)
      = ∑ s : Fin 256, Cert.Spec.V x ids b (s.val + 1) := by
    simp only [masked_row H b]
    rw [Fin.sum_univ_succ]
    simp
  rw [imgLoss_apply, nValid_apply, count_eq H b, hsum, if_congr hpos rfl rfl]
  rfl

/-- The tail of the reference at arrays holding the specification's sums is the specification's loss. -/
theorem tail_eq_of (H : RowsAre x ids sf sf2 cn) :
    RefVal.tail (F := Ideal) sf sf2 cn = fun _ => Cert.Spec.loss x ids := by
  funext i
  rw [tail_stages, hostDivf_apply, totalSum, constant_apply, constant_apply, Ideal.ofBits_zero_f32, zero_add,
    ofBits_eight_f32]
  simp only [imgLoss_row H]
  rfl

end Bridge

/-- The reference's host tail, at per-segment sums that are the specification's, is the specification's loss. -/
theorem tail_eq (x : Cert.Spec.SX.Idx → EReal) (ids : Cert.Spec.SI.Idx → BitVec 32)
    (sf sf2 : FVec Ideal S2056x128 .f32) (cn : FVec Ideal S2056 .f32)
    (hsf : ∀ (b : Fin 8) (j : Fin 257) (c : Fin 128),
      sf (ix2 ⟨257 * b.val + j.val, by omega⟩ c) = Cert.Spec.sumF x ids b c j.val)
    (hsf2 : ∀ (b : Fin 8) (j : Fin 257) (c : Fin 128),
      sf2 (ix2 ⟨257 * b.val + j.val, by omega⟩ c) = Cert.Spec.sumF2 x ids b c j.val)
    (hcn : ∀ (b : Fin 8) (j : Fin 257), cn (ix1 ⟨257 * b.val + j.val, by omega⟩) = Cert.Spec.cnt ids b j.val) :
    RefVal.tail (F := Ideal) sf sf2 cn = fun _ => Cert.Spec.loss x ids :=
  tail_eq_of ⟨hsf, hsf2, hcn⟩

end Cert.ReferenceIdeal.RefTailVal
end
-- ==== Proof.Claims.lean ====
/-
  The five claims.  Both idealized programs end with the scalar `Cert.Spec.loss` of the argument arrays:
  the kernel program because its accumulator array holds the per-label pixel sums (the grid's sixteen row tiles of each image
  added up) and its host tail is the loss of those sums; the reference because its three scatter-added arrays hold the same
  sums at segment 257·image + label, and its host tail — which drops the background segment — is the same loss.
  The labels' range 0..256 (the precondition) is what keeps a pixel's segment inside its own image's block of 257.
-/
import proofs.«403733_j44710609551555_3_alg».proof.Defs
import proofs.«403733_j44710609551555_3_alg».proof.Proof.Gen.Kernel.Frame
import proofs.«403733_j44710609551555_3_alg».proof.Proof.Gen.KernelIdeal.Frame
import proofs.«403733_j44710609551555_3_alg».proof.Proof.Gen.ReferenceIdeal
import proofs.«403733_j44710609551555_3_alg».proof.Proof.Gen.Pre_finite_inputs
import proofs.«403733_j44710609551555_3_alg».proof.Proof.PreRange
import proofs.«403733_j44710609551555_3_alg».proof.Proof.KerRun
import proofs.«403733_j44710609551555_3_alg».proof.Proof.KerGrid
import proofs.«403733_j44710609551555_3_alg».proof.Proof.KerTail
import proofs.«403733_j44710609551555_3_alg».proof.Proof.RefRun
import proofs.«403733_j44710609551555_3_alg».proof.Proof.RefSums
import proofs.«403733_j44710609551555_3_alg».proof.Proof.RefTail

noncomputable section

namespace Cert.Proof.Claims

open Idealize.ShloMosaic Idealize.ShloMosaic.TcCoe Idealize.SL.Sem

/-- Under the kernel program's precondition every label is at most 256. -/
theorem ids_le_K (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, (m ((c.tc : Thread Cert.KernelIdeal.nD Cert.KernelIdeal.τ).loc Cert.KernelIdeal.main_arg1) i).toNat ≤ 256 :=
  fun i => Cert.PreRange.ids_le (F := Ideal) _ _ (hpre c) i

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

theorem algebraic : Cert.algebraic_KernelIdeal_ReferenceIdeal := by
  intro m ρ m' ρ' hpre hagree
  refine ⟨fun c _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.KerRun.run (F := Ideal) m ρ)
    exact Cert.KernelIdeal.KerTailVal.tail_eq _ _ _
      (fun b k s => Cert.KernelIdeal.KerGrid.final m c (ids_le_K m hpre c) b k s)
  · refine (θ_run Cert.ReferenceIdeal.defs _ _).mono (fun _ h c => ⟨(h c).1.trans ?_, (h c).2⟩)
      (Cert.ReferenceIdeal.RefRun.run (F := Ideal) m' ρ')
    have hids : ∀ i, (m' ((c.tc : Thread Cert.ReferenceIdeal.nD Cert.ReferenceIdeal.τ).loc Cert.ReferenceIdeal.main_arg1) i).toNat ≤ 256 := by
      rw [(hagree c).2]; exact ids_le_K m hpre c
    beta_reduce
    rw [← (hagree c).1, ← (hagree c).2]
    exact Cert.ReferenceIdeal.RefTailVal.tail_eq _ _ _ _ _
      (fun b j ch => Cert.ReferenceIdeal.RefSums.sumsF_apply _ _ hids b j ch)
      (fun b j ch => Cert.ReferenceIdeal.RefSums.sumsF2_apply _ _ hids b j ch)
      (fun b j => Cert.ReferenceIdeal.RefSums.counts_apply _ hids b j)

end Cert.Proof.Claims

end
-- ==== Proof.lean ====
/-
  The proof of `Cert.Claim`: the programs' stated facts are the generated instances; the five claims are in Proof/Claims.lean.
-/
import proofs.«403733_j44710609551555_3_alg».proof.Defs
import proofs.«403733_j44710609551555_3_alg».proof.Proof.Gen.Kernel
import proofs.«403733_j44710609551555_3_alg».proof.Proof.Gen.KernelIdeal
import proofs.«403733_j44710609551555_3_alg».proof.Proof.Gen.ReferenceIdeal
import proofs.«403733_j44710609551555_3_alg».proof.Proof.Gen.Pre_finite_inputs
import proofs.«403733_j44710609551555_3_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
